-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S_ : Shape := ⟨0, ![]⟩

class Facts : Prop where
  bcast_S_S128x200x8 : S_.BroadcastsInDim S128x200x8 (![] : Fin 0 → Fin S128x200x8.rank)
  reducesTo_S128x200x8_S_d0_1_2 : S128x200x8.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S512x256 .f32) (main_arg8 : FVec F S256 .f32) (main_arg9 : FVec F S256x256 .f32) (main_arg10 : FVec F S256 .f32) (main_arg11 : FVec F S256x256 .f32) (main_arg12 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x200x8 .f32) (main_arg1 : FVec F S8x256 .f32) (main_arg2 : FVec F S256 .f32) (main_arg3 : FVec F S512x256 .f32) (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S128x200x8 .f32 := Host.absf main_arg0
  let main_cst : FVec F S_ .f32 := constant S_ .f32 0x7F800000#32
  let main_v1 : FVec F S128x200x8 .f32 := broadcastInDim S128x200x8 ![] bcast_S_S128x200x8 main_cst
  let main_v2 : IVec S128x200x8 1 := cmpf .olt main_v0 main_v1
  let main_c : IVec S_ 1 := constantI S_ 1 1#1
  let main_v3 : IVec S_ 1 := (fun x v => Host.reduce IntOp.andi x v reducesTo_S128x200x8_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_arg11 main_arg12 main_v13 main_v16
-- ==== Kernel.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S1x256 : Shape := ⟨2, ![1, 256]⟩
abbrev S128x1x256 : Shape := ⟨3, ![128, 1, 256]⟩
abbrev S128x200x200 : Shape := ⟨3, ![128, 200, 200]⟩
abbrev S32x200x8 : Shape := ⟨3, ![32, 200, 8]⟩
abbrev S32x1x256 : Shape := ⟨3, ![32, 1, 256]⟩
abbrev S32x200x200 : Shape := ⟨3, ![32, 200, 200]⟩
abbrev S1x200x8 : Shape := ⟨3, ![1, 200, 8]⟩
abbrev S200x8 : Shape := ⟨2, ![200, 8]⟩
abbrev S200x256 : Shape := ⟨2, ![200, 256]⟩
abbrev S200x200 : Shape := ⟨2, ![200, 200]⟩
abbrev S200 : Shape := ⟨1, ![200]⟩
abbrev S200x1 : Shape := ⟨2, ![200, 1]⟩
abbrev S1x1x256 : Shape := ⟨3, ![1, 1, 256]⟩
abbrev S1x200x200 : Shape := ⟨3, ![1, 200, 200]⟩
abbrev S128x256 : Shape := ⟨2, ![128, 256]⟩

abbrev nBuf : Space → Nat
  | .hbm => 22
  | .vmem => 18
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S128x1x256, .f32⟩
  | .hbm, ⟨20, _⟩ => ⟨S128x200x200, .f32⟩
  | .hbm, ⟨21, _⟩ => ⟨S128x256, .f32⟩
  | .local _ .vmem, ⟨0, _⟩ => ⟨S32x200x8, .f32⟩
  | .local _ .vmem, ⟨1, _⟩ => ⟨S32x200x8, .f32⟩
  | .local _ .vmem, ⟨2, _⟩ => ⟨S8x256, .f32⟩
  | .local _ .vmem, ⟨3, _⟩ => ⟨S1x256, .f32⟩
  | .local _ .vmem, ⟨4, _⟩ => ⟨S512x256, .f32⟩
  | .local _ .vmem, ⟨5, _⟩ => ⟨S1x256, .f32⟩
  | .local _ .vmem, ⟨6, _⟩ => ⟨S512x256, .f32⟩
  | .local _ .vmem, ⟨7, _⟩ => ⟨S1x256, .f32⟩
  | .local _ .vmem, ⟨8, _⟩ => ⟨S512x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S32x1x256, .f32⟩
  | .local _ .vmem, ⟨15, _⟩ => ⟨S32x1x256, .f32⟩
  | .local _ .vmem, ⟨16, _⟩ => ⟨S32x200x200, .f32⟩
  | .local _ .vmem, ⟨17, _⟩ => ⟨S32x200x200, .f32⟩
  | _, _ => ⟨S128x200x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x200x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S32x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x200x200 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S256_S1x256 : S256.ShapeCasts S1x256
  inb_S8x256_S8x256_0_0 : ∀ a, (![0, 0] : Fin 2 → Nat) a + S8x256.size a ≤ S8x256.size a
  h_S8x256 : 0 < S8x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  inb_S32x200x8_S1x200x8_0_0_0 : ∀ a, (![0, 0, 0] : Fin 3 → Nat) a + S1x200x8.size a ≤ S32x200x8.size a
  h_S1x200x8 : 0 < S1x200x8.numel
  shapeCasts_S1x200x8_S200x8 : S1x200x8.ShapeCasts S200x8
  broadcasts_S1x256_S200x256 : S1x256.Broadcasts S200x256
  inb_S32x200x8_S1x200x8_1_0_0 : ∀ a, (![1, 0, 0] : Fin 3 → Nat) a + S1x200x8.size a ≤ S32x200x8.size a
  inb_S32x200x8_S1x200x8_2_0_0 : ∀ a, (![2, 0, 0] : Fin 3 → Nat) a + S1x200x8.size a ≤ S32x200x8.size a
  inb_S32x200x8_S1x200x8_3_0_0 : ∀ a, (![3, 0, 0] : Fin 3 → Nat) a + S1x200x8.size a ≤ S32x200x8.size a
  inb_S32x200x8_S1x200x8_4_0_0 : ∀ a, (![4, 0, 0] : Fin 3 → Nat) a + S1x200x8.size a ≤ S32x200x8.size a
  inb_S32x200x8_S1x200x8_5_0_0 : ∀ a, (![5, 0, 0] : Fin 3 → Nat) a + S1x200x8.size a ≤ S32x200x8.size a
  inb_S32x200x8_S1x200x8_6_0_0 : ∀ a, (![6, 0, 0] : Fin 3 → Nat) a + S1x200x8.size a ≤ S32x200x8.size a
  inb_S32x200x8_S1x200x8_7_0_0 : ∀ a, (![7, 0, 0] : Fin 3 → Nat) a + S1x200x8.size a ≤ S32x200x8.size a
  inb_S32x200x8_S1x200x8_8_0_0 : ∀ a, (![8, 0, 0] : Fin 3 → Nat) a + S1x200x8.size a ≤ S32x200x8.size a
  inb_S32x200x8_S1x200x8_9_0_0 : ∀ a, (![9, 0, 0] : Fin 3 → Nat) a + S1x200x8.size a ≤ S32x200x8.size a
  inb_S32x200x8_S1x200x8_10_0_0 : ∀ a, (![10, 0, 0] : Fin 3 → Nat) a + S1x200x8.size a ≤ S32x200x8.size a
  inb_S32x200x8_S1x200x8_11_0_0 : ∀ a, (![11, 0, 0] : Fin 3 → Nat) a + S1x200x8.size a ≤ S32x200x8.size a
  inb_S32x200x8_S1x200x8_12_0_0 : ∀ a, (![12, 0, 0] : Fin 3 → Nat) a + S1x200x8.size a ≤ S32x200x8.size a
  inb_S32x200x8_S1x200x8_13_0_0 : ∀ a, (![13, 0, 0] : Fin 3 → Nat) a + S1x200x8.size a ≤ S32x200x8.size a
  inb_S32x200x8_S1x200x8_14_0_0 : ∀ a, (![14, 0, 0] : Fin 3 → Nat) a + S1x200x8.size a ≤ S32x200x8.size a
  inb_S32x200x8_S1x200x8_15_0_0 : ∀ a, (![15, 0, 0] : Fin 3 → Nat) a + S1x200x8.size a ≤ S32x200x8.size a
  inb_S32x200x8_S1x200x8_16_0_0 : ∀ a, (![16, 0, 0] : Fin 3 → Nat) a + S1x200x8.size a ≤ S32x200x8.size a
  inb_S32x200x8_S1x200x8_17_0_0 : ∀ a, (![17, 0, 0] : Fin 3 → Nat) a + S1x200x8.size a ≤ S32x200x8.size a
  inb_S32x200x8_S1x200x8_18_0_0 : ∀ a, (![18, 0, 0] : Fin 3 → Nat) a + S1x200x8.size a ≤ S32x200x8.size a
  inb_S32x200x8_S1x200x8_19_0_0 : ∀ a, (![19, 0, 0] : Fin 3 → Nat) a + S1x200x8.size a ≤ S32x200x8.size a
  inb_S32x200x8_S1x200x8_20_0_0 : ∀ a, (![20, 0, 0] : Fin 3 → Nat) a + S1x200x8.size a ≤ S32x200x8.size a
  inb_S32x200x8_S1x200x8_21_0_0 : ∀ a, (![21, 0, 0] : Fin 3 → Nat) a + S1x200x8.size a ≤ S32x200x8.size a
  inb_S32x200x8_S1x200x8_22_0_0 : ∀ a, (![22, 0, 0] : Fin 3 → Nat) a + S1x200x8.size a ≤ S32x200x8.size a
  inb_S32x200x8_S1x200x8_23_0_0 : ∀ a, (![23, 0, 0] : Fin 3 → Nat) a + S1x200x8.size a ≤ S32x200x8.size a
  inb_S32x200x8_S1x200x8_24_0_0 : ∀ a, (![24, 0, 0] : Fin 3 → Nat) a + S1x200x8.size a ≤ S32x200x8.size a
  inb_S32x200x8_S1x200x8_25_0_0 : ∀ a, (![25, 0, 0] : Fin 3 → Nat) a + S1x200x8.size a ≤ S32x200x8.size a
  inb_S32x200x8_S1x200x8_26_0_0 : ∀ a, (![26, 0, 0] : Fin 3 → Nat) a + S1x200x8.size a ≤ S32x200x8.size a
  inb_S32x200x8_S1x200x8_27_0_0 : ∀ a, (![27, 0, 0] : Fin 3 → Nat) a + S1x200x8.size a ≤ S32x200x8.size a
  inb_S32x200x8_S1x200x8_28_0_0 : ∀ a, (![28, 0, 0] : Fin 3 → Nat) a + S1x200x8.size a ≤ S32x200x8.size a
  inb_S32x200x8_S1x200x8_29_0_0 : ∀ a, (![29, 0, 0] : Fin 3 → Nat) a + S1x200x8.size a ≤ S32x200x8.size a
  inb_S32x200x8_S1x200x8_30_0_0 : ∀ a, (![30, 0, 0] : Fin 3 → Nat) a + S1x200x8.size a ≤ S32x200x8.size a
  inb_S32x200x8_S1x200x8_31_0_0 : ∀ a, (![31, 0, 0] : Fin 3 → Nat) a + S1x200x8.size a ≤ S32x200x8.size a
  reduces_S200x200_S200 : S200x200.Reduces [1] S200
  shapeCasts_S200_S200x1 : S200.ShapeCasts S200x1
  broadcasts_S200x1_S200x200 : S200x1.Broadcasts S200x200
  slices_S512x256_o0_0_S256x256 : S512x256.Slices ![0, 0] S256x256
  slices_S512x256_o256_0_S256x256 : S512x256.Slices ![256, 0] S256x256
  reduces_S200x256_S256 : S200x256.Reduces [0] S256
  inb_S32x1x256_S1x1x256_0_0_0 : ∀ a, (![0, 0, 0] : Fin 3 → Nat) a + S1x1x256.size a ≤ S32x1x256.size a
  h_S1x1x256 : 0 < S1x1x256.numel
  shapeCasts_S1x1x256_S1x256 : S1x1x256.ShapeCasts S1x256
  shapeCasts_S1x256_S1x1x256 : S1x256.ShapeCasts S1x1x256
  inb_S32x200x200_S1x200x200_0_0_0 : ∀ a, (![0, 0, 0] : Fin 3 → Nat) a + S1x200x200.size a ≤ S32x200x200.size a
  h_S1x200x200 : 0 < S1x200x200.numel
  shapeCasts_S1x200x200_S200x200 : S1x200x200.ShapeCasts S200x200
  shapeCasts_S200x200_S1x200x200 : S200x200.ShapeCasts S1x200x200
  inb_S32x1x256_S1x1x256_1_0_0 : ∀ a, (![1, 0, 0] : Fin 3 → Nat) a + S1x1x256.size a ≤ S32x1x256.size a
  inb_S32x200x200_S1x200x200_1_0_0 : ∀ a, (![1, 0, 0] : Fin 3 → Nat) a + S1x200x200.size a ≤ S32x200x200.size a
  inb_S32x1x256_S1x1x256_2_0_0 : ∀ a, (![2, 0, 0] : Fin 3 → Nat) a + S1x1x256.size a ≤ S32x1x256.size a
  inb_S32x200x200_S1x200x200_2_0_0 : ∀ a, (![2, 0, 0] : Fin 3 → Nat) a + S1x200x200.size a ≤ S32x200x200.size a
  inb_S32x1x256_S1x1x256_3_0_0 : ∀ a, (![3, 0, 0] : Fin 3 → Nat) a + S1x1x256.size a ≤ S32x1x256.size a
  inb_S32x200x200_S1x200x200_3_0_0 : ∀ a, (![3, 0, 0] : Fin 3 → Nat) a + S1x200x200.size a ≤ S32x200x200.size a
  inb_S32x1x256_S1x1x256_4_0_0 : ∀ a, (![4, 0, 0] : Fin 3 → Nat) a + S1x1x256.size a ≤ S32x1x256.size a
  inb_S32x200x200_S1x200x200_4_0_0 : ∀ a, (![4, 0, 0] : Fin 3 → Nat) a + S1x200x200.size a ≤ S32x200x200.size a
  inb_S32x1x256_S1x1x256_5_0_0 : ∀ a, (![5, 0, 0] : Fin 3 → Nat) a + S1x1x256.size a ≤ S32x1x256.size a
  inb_S32x200x200_S1x200x200_5_0_0 : ∀ a, (![5, 0, 0] : Fin 3 → Nat) a + S1x200x200.size a ≤ S32x200x200.size a
  inb_S32x1x256_S1x1x256_6_0_0 : ∀ a, (![6, 0, 0] : Fin 3 → Nat) a + S1x1x256.size a ≤ S32x1x256.size a
  inb_S32x200x200_S1x200x200_6_0_0 : ∀ a, (![6, 0, 0] : Fin 3 → Nat) a + S1x200x200.size a ≤ S32x200x200.size a
  inb_S32x1x256_S1x1x256_7_0_0 : ∀ a, (![7, 0, 0] : Fin 3 → Nat) a + S1x1x256.size a ≤ S32x1x256.size a
  inb_S32x200x200_S1x200x200_7_0_0 : ∀ a, (![7, 0, 0] : Fin 3 → Nat) a + S1x200x200.size a ≤ S32x200x200.size a
  inb_S32x1x256_S1x1x256_8_0_0 : ∀ a, (![8, 0, 0] : Fin 3 → Nat) a + S1x1x256.size a ≤ S32x1x256.size a
  inb_S32x200x200_S1x200x200_8_0_0 : ∀ a, (![8, 0, 0] : Fin 3 → Nat) a + S1x200x200.size a ≤ S32x200x200.size a
  inb_S32x1x256_S1x1x256_9_0_0 : ∀ a, (![9, 0, 0] : Fin 3 → Nat) a + S1x1x256.size a ≤ S32x1x256.size a
  inb_S32x200x200_S1x200x200_9_0_0 : ∀ a, (![9, 0, 0] : Fin 3 → Nat) a + S1x200x200.size a ≤ S32x200x200.size a
  inb_S32x1x256_S1x1x256_10_0_0 : ∀ a, (![10, 0, 0] : Fin 3 → Nat) a + S1x1x256.size a ≤ S32x1x256.size a
  inb_S32x200x200_S1x200x200_10_0_0 : ∀ a, (![10, 0, 0] : Fin 3 → Nat) a + S1x200x200.size a ≤ S32x200x200.size a
  inb_S32x1x256_S1x1x256_11_0_0 : ∀ a, (![11, 0, 0] : Fin 3 → Nat) a + S1x1x256.size a ≤ S32x1x256.size a
  inb_S32x200x200_S1x200x200_11_0_0 : ∀ a, (![11, 0, 0] : Fin 3 → Nat) a + S1x200x200.size a ≤ S32x200x200.size a
  inb_S32x1x256_S1x1x256_12_0_0 : ∀ a, (![12, 0, 0] : Fin 3 → Nat) a + S1x1x256.size a ≤ S32x1x256.size a
  inb_S32x200x200_S1x200x200_12_0_0 : ∀ a, (![12, 0, 0] : Fin 3 → Nat) a + S1x200x200.size a ≤ S32x200x200.size a
  inb_S32x1x256_S1x1x256_13_0_0 : ∀ a, (![13, 0, 0] : Fin 3 → Nat) a + S1x1x256.size a ≤ S32x1x256.size a
  inb_S32x200x200_S1x200x200_13_0_0 : ∀ a, (![13, 0, 0] : Fin 3 → Nat) a + S1x200x200.size a ≤ S32x200x200.size a
  inb_S32x1x256_S1x1x256_14_0_0 : ∀ a, (![14, 0, 0] : Fin 3 → Nat) a + S1x1x256.size a ≤ S32x1x256.size a
  inb_S32x200x200_S1x200x200_14_0_0 : ∀ a, (![14, 0, 0] : Fin 3 → Nat) a + S1x200x200.size a ≤ S32x200x200.size a
  inb_S32x1x256_S1x1x256_15_0_0 : ∀ a, (![15, 0, 0] : Fin 3 → Nat) a + S1x1x256.size a ≤ S32x1x256.size a
  inb_S32x200x200_S1x200x200_15_0_0 : ∀ a, (![15, 0, 0] : Fin 3 → Nat) a + S1x200x200.size a ≤ S32x200x200.size a
  inb_S32x1x256_S1x1x256_16_0_0 : ∀ a, (![16, 0, 0] : Fin 3 → Nat) a + S1x1x256.size a ≤ S32x1x256.size a
  inb_S32x200x200_S1x200x200_16_0_0 : ∀ a, (![16, 0, 0] : Fin 3 → Nat) a + S1x200x200.size a ≤ S32x200x200.size a
  inb_S32x1x256_S1x1x256_17_0_0 : ∀ a, (![17, 0, 0] : Fin 3 → Nat) a + S1x1x256.size a ≤ S32x1x256.size a
  inb_S32x200x200_S1x200x200_17_0_0 : ∀ a, (![17, 0, 0] : Fin 3 → Nat) a + S1x200x200.size a ≤ S32x200x200.size a
  inb_S32x1x256_S1x1x256_18_0_0 : ∀ a, (![18, 0, 0] : Fin 3 → Nat) a + S1x1x256.size a ≤ S32x1x256.size a
  inb_S32x200x200_S1x200x200_18_0_0 : ∀ a, (![18, 0, 0] : Fin 3 → Nat) a + S1x200x200.size a ≤ S32x200x200.size a
  inb_S32x1x256_S1x1x256_19_0_0 : ∀ a, (![19, 0, 0] : Fin 3 → Nat) a + S1x1x256.size a ≤ S32x1x256.size a
  inb_S32x200x200_S1x200x200_19_0_0 : ∀ a, (![19, 0, 0] : Fin 3 → Nat) a + S1x200x200.size a ≤ S32x200x200.size a
  inb_S32x1x256_S1x1x256_20_0_0 : ∀ a, (![20, 0, 0] : Fin 3 → Nat) a + S1x1x256.size a ≤ S32x1x256.size a
  inb_S32x200x200_S1x200x200_20_0_0 : ∀ a, (![20, 0, 0] : Fin 3 → Nat) a + S1x200x200.size a ≤ S32x200x200.size a
  inb_S32x1x256_S1x1x256_21_0_0 : ∀ a, (![21, 0, 0] : Fin 3 → Nat) a + S1x1x256.size a ≤ S32x1x256.size a
  inb_S32x200x200_S1x200x200_21_0_0 : ∀ a, (![21, 0, 0] : Fin 3 → Nat) a + S1x200x200.size a ≤ S32x200x200.size a
  inb_S32x1x256_S1x1x256_22_0_0 : ∀ a, (![22, 0, 0] : Fin 3 → Nat) a + S1x1x256.size a ≤ S32x1x256.size a
  inb_S32x200x200_S1x200x200_22_0_0 : ∀ a, (![22, 0, 0] : Fin 3 → Nat) a + S1x200x200.size a ≤ S32x200x200.size a
  inb_S32x1x256_S1x1x256_23_0_0 : ∀ a, (![23, 0, 0] : Fin 3 → Nat) a + S1x1x256.size a ≤ S32x1x256.size a
  inb_S32x200x200_S1x200x200_23_0_0 : ∀ a, (![23, 0, 0] : Fin 3 → Nat) a + S1x200x200.size a ≤ S32x200x200.size a
  inb_S32x1x256_S1x1x256_24_0_0 : ∀ a, (![24, 0, 0] : Fin 3 → Nat) a + S1x1x256.size a ≤ S32x1x256.size a
  inb_S32x200x200_S1x200x200_24_0_0 : ∀ a, (![24, 0, 0] : Fin 3 → Nat) a + S1x200x200.size a ≤ S32x200x200.size a
  inb_S32x1x256_S1x1x256_25_0_0 : ∀ a, (![25, 0, 0] : Fin 3 → Nat) a + S1x1x256.size a ≤ S32x1x256.size a
  inb_S32x200x200_S1x200x200_25_0_0 : ∀ a, (![25, 0, 0] : Fin 3 → Nat) a + S1x200x200.size a ≤ S32x200x200.size a
  inb_S32x1x256_S1x1x256_26_0_0 : ∀ a, (![26, 0, 0] : Fin 3 → Nat) a + S1x1x256.size a ≤ S32x1x256.size a
  inb_S32x200x200_S1x200x200_26_0_0 : ∀ a, (![26, 0, 0] : Fin 3 → Nat) a + S1x200x200.size a ≤ S32x200x200.size a
  inb_S32x1x256_S1x1x256_27_0_0 : ∀ a, (![27, 0, 0] : Fin 3 → Nat) a + S1x1x256.size a ≤ S32x1x256.size a
  inb_S32x200x200_S1x200x200_27_0_0 : ∀ a, (![27, 0, 0] : Fin 3 → Nat) a + S1x200x200.size a ≤ S32x200x200.size a
  inb_S32x1x256_S1x1x256_28_0_0 : ∀ a, (![28, 0, 0] : Fin 3 → Nat) a + S1x1x256.size a ≤ S32x1x256.size a
  inb_S32x200x200_S1x200x200_28_0_0 : ∀ a, (![28, 0, 0] : Fin 3 → Nat) a + S1x200x200.size a ≤ S32x200x200.size a
  inb_S32x1x256_S1x1x256_29_0_0 : ∀ a, (![29, 0, 0] : Fin 3 → Nat) a + S1x1x256.size a ≤ S32x1x256.size a
  inb_S32x200x200_S1x200x200_29_0_0 : ∀ a, (![29, 0, 0] : Fin 3 → Nat) a + S1x200x200.size a ≤ S32x200x200.size a
  inb_S32x1x256_S1x1x256_30_0_0 : ∀ a, (![30, 0, 0] : Fin 3 → Nat) a + S1x1x256.size a ≤ S32x1x256.size a
  inb_S32x200x200_S1x200x200_30_0_0 : ∀ a, (![30, 0, 0] : Fin 3 → Nat) a + S1x200x200.size a ≤ S32x200x200.size a
  inb_S32x1x256_S1x1x256_31_0_0 : ∀ a, (![31, 0, 0] : Fin 3 → Nat) a + S1x1x256.size a ≤ S32x1x256.size a
  inb_S32x200x200_S1x200x200_31_0_0 : ∀ a, (![31, 0, 0] : Fin 3 → Nat) a + S1x200x200.size a ≤ S32x200x200.size a
  shapeCasts_S128x1x256_S128x256 : S128x1x256.ShapeCasts S128x256
  dot_S200x8_S8x256_S200x256_1_0_0_1_n_n_wf : DotDims.WF S200x8 S8x256 S200x256 [1] [0] [0] [1] [] []
  dot_S200x256_S200x256_S200x200_1_1_0_0_n_n_wf : DotDims.WF S200x256 S200x256 S200x200 [1] [1] [0] [0] [] []
  dot_S200x200_S200x256_S200x256_1_0_0_1_n_n_wf : DotDims.WF S200x200 S200x256 S200x256 [1] [0] [0] [1] [] []
  dot_S200x256_S256x256_S200x256_1_0_0_1_n_n_wf : DotDims.WF S200x256 S256x256 S200x256 [1] [0] [0] [1] [] []
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x200x8.size a ≤ S128x200x8.size a
  hwx0_0 : ∀ i : grid0.Coords, EltTy.bits .f32 = 32 ∨ (Rect.block (s := S128x200x8) S32x200x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .f32 = 32 ∨ (Rect.block (s := S512x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S32x1x256.size a ≤ S128x1x256.size a
  hwx0_13 : ∀ i : grid0.Coords, EltTy.bits .f32 = 32 ∨ (Rect.block (s := S128x1x256) S32x1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S32x200x200.size a ≤ S128x200x200.size a
  hwx0_14 : ∀ i : grid0.Coords, EltTy.bits .f32 = 32 ∨ (Rect.block (s := S128x200x200) S32x200x200.size (cc0_transform_14 i) (hinb0_14 i)).WholeWords (EltTy.packing .f32)

variable [Facts₀]

def dot_S200x8_S8x256_S200x256_1_0_0_1_n_n : DotDims S200x8 S8x256 S200x256 where
  lhsContracting := [1]
  rhsContracting := [0]
  lhsNonContracting := [0]
  rhsNonContracting := [1]
  lhsBatch := []
  rhsBatch := []
  wf := dot_S200x8_S8x256_S200x256_1_0_0_1_n_n_wf
def dot_S200x256_S200x256_S200x200_1_1_0_0_n_n : DotDims S200x256 S200x256 S200x200 where
  lhsContracting := [1]
  rhsContracting := [1]
  lhsNonContracting := [0]
  rhsNonContracting := [0]
  lhsBatch := []
  rhsBatch := []
  wf := dot_S200x256_S200x256_S200x200_1_1_0_0_n_n_wf
def dot_S200x200_S200x256_S200x256_1_0_0_1_n_n : DotDims S200x200 S200x256 S200x256 where
  lhsContracting := [1]
  rhsContracting := [0]
  lhsNonContracting := [0]
  rhsNonContracting := [1]
  lhsBatch := []
  rhsBatch := []
  wf := dot_S200x200_S200x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg0) S32x200x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6_0) S32x1x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v6_1) S32x200x200.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S128x200x256 : Shape := ⟨3, ![128, 200, 256]⟩
abbrev S1x1x256 : Shape := ⟨3, ![1, 1, 256]⟩
abbrev S_ : Shape := ⟨0, ![]⟩
abbrev S128x200x200 : Shape := ⟨3, ![128, 200, 200]⟩
abbrev S128x200 : Shape := ⟨2, ![128, 200]⟩
abbrev S128x200x1 : Shape := ⟨3, ![128, 200, 1]⟩
abbrev S128x200x512 : Shape := ⟨3, ![128, 200, 512]⟩
abbrev S128x256 : Shape := ⟨2, ![128, 256]⟩

abbrev nBuf : Space → Nat
  | .hbm => 106
  | .vmem => 0
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S128x200x256, .f32⟩
  | .hbm, ⟨14, _⟩ => ⟨S1x1x256, .f32⟩
  | .hbm, ⟨15, _⟩ => ⟨S128x200x256, .f32⟩
  | .hbm, ⟨16, _⟩ => ⟨S128x200x256, .f32⟩
  | .hbm, ⟨17, _⟩ => ⟨S128x200x256, .f32⟩
  | .hbm, ⟨18, _⟩ => ⟨S_, .f32⟩
  | .hbm, ⟨19, _⟩ => ⟨S128x200x200, .f32⟩
  | .hbm, ⟨20, _⟩ => ⟨S128x200x200, .f32⟩
  | .hbm, ⟨21, _⟩ => ⟨S_, .f32⟩
  | .hbm, ⟨22, _⟩ => ⟨S128x200x200, .f32⟩
  | .hbm, ⟨23, _⟩ => ⟨S128x200x200, .f32⟩
  | .hbm, ⟨24, _⟩ => ⟨S_, .f32⟩
  | .hbm, ⟨25, _⟩ => ⟨S128x200, .f32⟩
  | .hbm, ⟨26, _⟩ => ⟨S_, .f32⟩
  | .hbm, ⟨27, _⟩ => ⟨S128x200, .f32⟩
  | .hbm, ⟨28, _⟩ => ⟨S128x200, .f32⟩
  | .hbm, ⟨29, _⟩ => ⟨S128x200x1, .f32⟩
  | .hbm, ⟨30, _⟩ => ⟨S128x200x200, .f32⟩
  | .hbm, ⟨31, _⟩ => ⟨S128x200x200, .f32⟩
  | .hbm, ⟨32, _⟩ => ⟨S128x200x200, .f32⟩
  | .hbm, ⟨33, _⟩ => ⟨S_, .f32⟩
  | .hbm, ⟨34, _⟩ => ⟨S128x200, .f32⟩
  | .hbm, ⟨35, _⟩ => ⟨S128x200x1, .f32⟩
  | .hbm, ⟨36, _⟩ => ⟨S128x200x200, .f32⟩
  | .hbm, ⟨37, _⟩ => ⟨S128x200x200, .f32⟩
  | .hbm, ⟨38, _⟩ => ⟨S128x200x256, .f32⟩
  | .hbm, ⟨39, _⟩ => ⟨S128x200x512, .f32⟩
  | .hbm, ⟨40, _⟩ => ⟨S128x200x256, .f32⟩
  | .hbm, ⟨41, _⟩ => ⟨S1x1x256, .f32⟩
  | .hbm, ⟨42, _⟩ => ⟨S128x200x256, .f32⟩
  | .hbm, ⟨43, _⟩ => ⟨S128x200x256, .f32⟩
  | .hbm, ⟨44, _⟩ => ⟨S128x200x256, .f32⟩
  | .hbm, ⟨45, _⟩ => ⟨S128x200x200, .f32⟩
  | .hbm, ⟨46, _⟩ => ⟨S_, .f32⟩
  | .hbm, ⟨47, _⟩ => ⟨S128x200x200, .f32⟩
  | .hbm, ⟨48, _⟩ => ⟨S128x200x200, .f32⟩
  | .hbm, ⟨49, _⟩ => ⟨S_, .f32⟩
  | .hbm, ⟨50, _⟩ => ⟨S128x200, .f32⟩
  | .hbm, ⟨51, _⟩ => ⟨S_, .f32⟩
  | .hbm, ⟨52, _⟩ => ⟨S128x200, .f32⟩
  | .hbm, ⟨53, _⟩ => ⟨S128x200, .f32⟩
  | .hbm, ⟨54, _⟩ => ⟨S128x200x1, .f32⟩
  | .hbm, ⟨55, _⟩ => ⟨S128x200x200, .f32⟩
  | .hbm, ⟨56, _⟩ => ⟨S128x200x200, .f32⟩
  | .hbm, ⟨57, _⟩ => ⟨S128x200x200, .f32⟩
  | .hbm, ⟨58, _⟩ => ⟨S_, .f32⟩
  | .hbm, ⟨59, _⟩ => ⟨S128x200, .f32⟩
  | .hbm, ⟨60, _⟩ => ⟨S128x200x1, .f32⟩
  | .hbm, ⟨61, _⟩ => ⟨S128x200x200, .f32⟩
  | .hbm, ⟨62, _⟩ => ⟨S128x200x200, .f32⟩
  | .hbm, ⟨63, _⟩ => ⟨S128x200x256, .f32⟩
  | .hbm, ⟨64, _⟩ => ⟨S128x200x512, .f32⟩
  | .hbm, ⟨65, _⟩ => ⟨S128x200x256, .f32⟩
  | .hbm, ⟨66, _⟩ => ⟨S1x1x256, .f32⟩
  | .hbm, ⟨67, _⟩ => ⟨S128x200x256, .f32⟩
  | .hbm, ⟨68, _⟩ => ⟨S128x200x256, .f32⟩
  | .hbm, ⟨69, _⟩ => ⟨S128x200x256, .f32⟩
  | .hbm, ⟨70, _⟩ => ⟨S128x200x200, .f32⟩
  | .hbm, ⟨71, _⟩ => ⟨S_, .f32⟩
  | .hbm, ⟨72, _⟩ => ⟨S128x200x200, .f32⟩
  | .hbm, ⟨73, _⟩ => ⟨S128x200x200, .f32⟩
  | .hbm, ⟨74, _⟩ => ⟨S_, .f32⟩
  | .hbm, ⟨75, _⟩ => ⟨S128x200, .f32⟩
  | .hbm, ⟨76, _⟩ => ⟨S_, .f32⟩
  | .hbm, ⟨77, _⟩ => ⟨S128x200, .f32⟩
  | .hbm, ⟨78, _⟩ => ⟨S128x200, .f32⟩
  | .hbm, ⟨79, _⟩ => ⟨S128x200x1, .f32⟩
  | .hbm, ⟨80, _⟩ => ⟨S128x200x200, .f32⟩
  | .hbm, ⟨81, _⟩ => ⟨S128x200x200, .f32⟩
  | .hbm, ⟨82, _⟩ => ⟨S128x200x200, .f32⟩
  | .hbm, ⟨83, _⟩ => ⟨S_, .f32⟩
  | .hbm, ⟨84, _⟩ => ⟨S128x200, .f32⟩
  | .hbm, ⟨85, _⟩ => ⟨S128x200x1, .f32⟩
  | .hbm, ⟨86, _⟩ => ⟨S128x200x200, .f32⟩
  | .hbm, ⟨87, _⟩ => ⟨S128x200x200, .f32⟩
  | .hbm, ⟨88, _⟩ => ⟨S128x200x256, .f32⟩
  | .hbm, ⟨89, _⟩ => ⟨S128x200x512, .f32⟩
  | .hbm, ⟨90, _⟩ => ⟨S128x200x256, .f32⟩
  | .hbm, ⟨91, _⟩ => ⟨S1x1x256, .f32⟩
  | .hbm, ⟨92, _⟩ => ⟨S128x200x256, .f32⟩
  | .hbm, ⟨93, _⟩ => ⟨S128x200x256, .f32⟩
  | .hbm, ⟨94, _⟩ => ⟨S128x200x256, .f32⟩
  | .hbm, ⟨95, _⟩ => ⟨S128x200x256, .f32⟩
  | .hbm, ⟨96, _⟩ => ⟨S1x1x256, .f32⟩
  | .hbm, ⟨97, _⟩ => ⟨S128x200x256, .f32⟩
  | .hbm, ⟨98, _⟩ => ⟨S128x200x256, .f32⟩
  | .hbm, ⟨99, _⟩ => ⟨S128x200x256, .f32⟩
  | .hbm, ⟨100, _⟩ => ⟨S128x200x256, .f32⟩
  | .hbm, ⟨101, _⟩ => ⟨S1x1x256, .f32⟩
  | .hbm, ⟨102, _⟩ => ⟨S128x200x256, .f32⟩
  | .hbm, ⟨103, _⟩ => ⟨S128x200x256, .f32⟩
  | .hbm, ⟨104, _⟩ => ⟨S_, .f32⟩
  | .hbm, ⟨105, _⟩ => ⟨S128x256, .f32⟩
  | _, _ => ⟨S128x200x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x200x256_0_1_2 : S1x1x256.BroadcastsInDim S128x200x256 (![0, 1, 2] : Fin 3 → Fin S128x200x256.rank)
  bcast_S_S128x200x200 : S_.BroadcastsInDim S128x200x200 (![] : Fin 0 → Fin S128x200x200.rank)
  reducesTo_S128x200x200_S128x200_d2 : S128x200x200.ReducesTo [2] S128x200
  h_S_ : 0 < S_.numel
  bcast_S_S128x200 : S_.BroadcastsInDim S128x200 (![] : Fin 0 → Fin S128x200.rank)
  bcast_S128x200_S128x200x1_0_1 : S128x200.BroadcastsInDim S128x200x1 (![0, 1] : Fin 2 → Fin S128x200x1.rank)
  bcast_S128x200x1_S128x200x200_0_1_2 : S128x200x1.BroadcastsInDim S128x200x200 (![0, 1, 2] : Fin 3 → Fin S128x200x200.rank)
  concatenates_S128x200x256_S128x200x256_S128x200x512_d2 : Shape.Concatenates [S128x200x256, S128x200x256] S128x200x512 2
  reducesTo_S128x200x256_S128x256_d1 : S128x200x256.ReducesTo [1] S128x256
  dot_S128x200x8_S8x256_S128x200x256_2_0_01_1_n_n_wf : DotDims.WF S128x200x8 S8x256 S128x200x256 [2] [0] [0, 1] [1] [] []
  dot_S128x200x256_S128x200x256_S128x200x200_2_2_1_1_0_0_wf : DotDims.WF S128x200x256 S128x200x256 S128x200x200 [2] [2] [1] [1] [0] [0]
  dot_S128x200x200_S128x200x256_S128x200x256_2_1_1_2_0_0_wf : DotDims.WF S128x200x200 S128x200x256 S128x200x256 [2] [1] [1] [2] [0] [0]
  dot_S128x200x512_S512x256_S128x200x256_2_0_01_1_n_n_wf : DotDims.WF S128x200x512 S512x256 S128x200x256 [2] [0] [0, 1] [1] [] []
  dot_S128x200x256_S256x256_S128x200x256_2_0_01_1_n_n_wf : DotDims.WF S128x200x256 S256x256 S128x200x256 [2] [0] [0, 1] [1] [] []

variable [Facts₀]

def dot_S128x200x8_S8x256_S128x200x256_2_0_01_1_n_n : DotDims S128x200x8 S8x256 S128x200x256 where
  lhsContracting := [2]
  rhsContracting := [0]
  lhsNonContracting := [0, 1]
  rhsNonContracting := [1]
  lhsBatch := []
  rhsBatch := []
  wf := dot_S128x200x8_S8x256_S128x200x256_2_0_01_1_n_n_wf
def dot_S128x200x256_S128x200x256_S128x200x200_2_2_1_1_0_0 : DotDims S128x200x256 S128x200x256 S128x200x200 where
  lhsContracting := [2]
  rhsContracting := [2]
  lhsNonContracting := [1]
  rhsNonContracting := [1]
  lhsBatch := [0]
  rhsBatch := [0]
  wf := dot_S128x200x256_S128x200x256_S128x200x200_2_2_1_1_0_0_wf
def dot_S128x200x200_S128x200x256_S128x200x256_2_1_1_2_0_0 : DotDims S128x200x200 S128x200x256 S128x200x256 where
  lhsContracting := [2]
  rhsContracting := [1]
  lhsNonContracting := [1]
  rhsNonContracting := [2]
  lhsBatch := [0]
  rhsBatch := [0]
  wf := dot_S128x200x200_S128x200x256_S128x200x256_2_1_1_2_0_0_wf
def dot_S128x200x512_S512x256_S128x200x256_2_0_01_1_n_n : DotDims S128x200x512 S512x256 S128x200x256 where
  lhsContracting := [2]
  rhsContracting := [0]
  lhsNonContracting := [0, 1]
  rhsNonContracting := [1]
  lhsBatch := []
  rhsBatch := []
  wf := dot_S128x200x512_S512x256_S128x200x256_2_0_01_1_n_n_wf
def dot_S128x200x256_S256x256_S128x200x256_2_0_01_1_n_n : DotDims S128x200x256 S256x256 S128x200x256 where
  lhsContracting := [2]
  rhsContracting := [0]
  lhsNonContracting := [0, 1]
  rhsNonContracting := [1]
  lhsBatch := []
  rhsBatch := []
  wf := dot_S128x200x256_S256x256_S128x200x256_2_0_01_1_n_n_wf

class Facts : Prop extends Facts₀ where

variable [Facts]
-- ==== Proof.Spec.lean ====
/-
  The mathematics of one jet of the message-passing network, over the extended reals.

  One jet is a 200 × 8 array of node features.  An embedding layer gives a 200 × 256 hidden state
  h = tanh (x W + b).  Each of three message-passing rounds forms the soft adjacency
  A = softmax over m of (h hᵀ) / 16, the messages A h, and the next hidden state
  tanh ([h, A h] W + b) with W of 512 rows.  The readout sums, over the 200 nodes,
  fc2 (tanh (fc1 h)).  The results are the readout (256 numbers) and the adjacency of the third round.

  Two spellings of the same value meet here.  One program normalises the exponentials by a reciprocal
  multiply and never subtracts the row's maximum, splits the 512-row weight into its two halves, and
  moves the node sum in front of fc2; the other subtracts the row maximum before exponentiating, divides,
  multiplies the concatenation [h, A h] by the whole weight, and sums the nodes last.  Both are written
  down below, stage by stage, so that each program can be read onto its own spelling and the two
  spellings compared once.
-/
import Idealize.ShloMosaic.PureOps.Ideal
import Mathlib.Algebra.BigOperators.Fin

noncomputable section

namespace Cert.Mpnn

open Idealize.ShloMosaic

/-- The four float patterns the programs print, as the extended reals they denote. -/
abbrev scalePat : EReal := Ideal.ofBits .f32 0x3D800000#32   -- 1/16
abbrev onePat : EReal := Ideal.ofBits .f32 0x3F800000#32     -- 1
abbrev nodesPat : EReal := Ideal.ofBits .f32 0x43480000#32   -- 200
abbrev negInfPat : EReal := Ideal.ofBits .f32 0xFF800000#32  -- -∞

/-- A hidden state: 200 nodes by 256 features. -/
abbrev Hid := Fin 200 → Fin 256 → EReal
/-- An adjacency: 200 by 200. -/
abbrev Adj := Fin 200 → Fin 200 → EReal

/-- The weights of the network. -/
structure Params where
  Wemb : Fin 8 → Fin 256 → EReal
  bemb : Fin 256 → EReal
  W0 : Fin 512 → Fin 256 → EReal
  b0 : Fin 256 → EReal
  W1 : Fin 512 → Fin 256 → EReal
  b1 : Fin 256 → EReal
  W2 : Fin 512 → Fin 256 → EReal
  b2 : Fin 256 → EReal
  Wr1 : Fin 256 → Fin 256 → EReal
  br1 : Fin 256 → EReal
  Wr2 : Fin 256 → Fin 256 → EReal
  br2 : Fin 256 → EReal

/-- Every weight is a real number. -/
structure Params.Real (P : Params) : Prop where
  Wemb : ∀ f d, ∃ r : ℝ, P.Wemb f d = r
  bemb : ∀ d, ∃ r : ℝ, P.bemb d = r
  W0 : ∀ k d, ∃ r : ℝ, P.W0 k d = r
  b0 : ∀ d, ∃ r : ℝ, P.b0 d = r
  W1 : ∀ k d, ∃ r : ℝ, P.W1 k d = r
  b1 : ∀ d, ∃ r : ℝ, P.b1 d = r
  W2 : ∀ k d, ∃ r : ℝ, P.W2 k d = r
  b2 : ∀ d, ∃ r : ℝ, P.b2 d = r
  Wr1 : ∀ k d, ∃ r : ℝ, P.Wr1 k d = r
  br1 : ∀ d, ∃ r : ℝ, P.br1 d = r
  Wr2 : ∀ k d, ∃ r : ℝ, P.Wr2 k d = r
  br2 : ∀ d, ∃ r : ℝ, P.br2 d = r

/-- The embedding layer: h[n, d] = tanh (Σ_f x[n, f] W[f, d] + b[d]). -/
def embed (x : Fin 200 → Fin 8 → EReal) (W : Fin 8 → Fin 256 → EReal) (b : Fin 256 → EReal) : Hid :=
  fun n d => Ideal.tanh ((∑ f : Fin 8, x n f * W f d) + b d)

/-- The attention logits: (Σ_d h[n, d] h[m, d]) / 16. -/
def logits (h : Hid) : Adj := fun n m => (∑ d : Fin 256, h n d * h m d) * scalePat

/-- The soft adjacency by a reciprocal multiply, no maximum subtracted:
    exp L[n, m] · (1 / Σ_m' exp L[n, m']). -/
def attnMul (h : Hid) : Adj :=
  fun n m => Ideal.exp (logits h n m) * Ideal.div onePat (∑ m' : Fin 200, Ideal.exp (logits h n m'))

/-- The row maximum as the other program takes it: the maximum with -∞ of the fold of max from -∞. -/
def rowMax (h : Hid) (n : Fin 200) : EReal :=
  max negInfPat ((Finset.univ : Finset (Fin 200)).fold max negInfPat (fun m => logits h n m))

/-- The soft adjacency by the shifted softmax:
    exp (L[n, m] - max_n) / Σ_m' exp (L[n, m'] - max_n). -/
def attnDiv (h : Hid) : Adj :=
  fun n m => Ideal.div (Ideal.exp (logits h n m - rowMax h n)) (∑ m' : Fin 200, Ideal.exp (logits h n m' - rowMax h n))

/-- The messages: (A h)[n, d] = Σ_m A[n, m] h[m, d]. -/
def msg (A : Adj) (h : Hid) : Hid := fun n d => ∑ m : Fin 200, A n m * h m d

/-- The vertex update with the weight split in its two halves:
    tanh ((Σ_k h[n, k] W[k, d] + Σ_k ms[n, k] W[256 + k, d]) + b[d]). -/
def updSplit (W : Fin 512 → Fin 256 → EReal) (b : Fin 256 → EReal) (h ms : Hid) : Hid :=
  fun n d => Ideal.tanh (((∑ k : Fin 256, h n k * W ⟨k.val, by omega⟩ d)
    + (∑ k : Fin 256, ms n k * W ⟨256 + k.val, by omega⟩ d)) + b d)

/-- Row n of the concatenation [h, ms]: 512 entries. -/
def catRow (h ms : Hid) (n : Fin 200) (k : Fin 512) : EReal :=
  if hk : k.val < 256 then h n ⟨k.val, hk⟩ else ms n ⟨k.val - 256, by omega⟩

/-- The vertex update over the concatenation: tanh (Σ_k [h, ms][n, k] W[k, d] + b[d]). -/
def updCat (W : Fin 512 → Fin 256 → EReal) (b : Fin 256 → EReal) (h ms : Hid) : Hid :=
  fun n d => Ideal.tanh ((∑ k : Fin 512, catRow h ms n k * W k d) + b d)

/-- fc1 and its tanh: t[n, k] = tanh (Σ_j h[n, j] W1[j, k] + b1[k]). -/
def fc1 (W1 : Fin 256 → Fin 256 → EReal) (b1 : Fin 256 → EReal) (h : Hid) : Hid :=
  fun n k => Ideal.tanh ((∑ j : Fin 256, h n j * W1 j k) + b1 k)

/-- The readout with the node sum first: Σ_k (Σ_n t[n, k]) W2[k, d] + 200 · b2[d]. -/
def readSumFirst (W1 : Fin 256 → Fin 256 → EReal) (b1 : Fin 256 → EReal) (W2 : Fin 256 → Fin 256 → EReal)
    (b2 : Fin 256 → EReal) (h : Hid) : Fin 256 → EReal :=
  fun d => (∑ k : Fin 256, (∑ n : Fin 200, fc1 W1 b1 h n k) * W2 k d) + nodesPat * b2 d

/-- The readout with the node sum last: Σ_n (Σ_k t[n, k] W2[k, d] + b2[d]). -/
def readSumLast (W1 : Fin 256 → Fin 256 → EReal) (b1 : Fin 256 → EReal) (W2 : Fin 256 → Fin 256 → EReal)
    (b2 : Fin 256 → EReal) (h : Hid) : Fin 256 → EReal :=
  fun d => ∑ n : Fin 200, ((∑ k : Fin 256, fc1 W1 b1 h n k * W2 k d) + b2 d)

/-! ## One jet, in each spelling -/

/-- One message-passing round, first spelling. -/
def roundMul (W : Fin 512 → Fin 256 → EReal) (b : Fin 256 → EReal) (h : Hid) : Hid :=
  updSplit W b h (msg (attnMul h) h)

/-- One message-passing round, second spelling. -/
def roundDiv (W : Fin 512 → Fin 256 → EReal) (b : Fin 256 → EReal) (h : Hid) : Hid :=
  updCat W b h (msg (attnDiv h) h)

/-- The hidden state entering the third round, first spelling. -/
def hid2Mul (P : Params) (x : Fin 200 → Fin 8 → EReal) : Hid :=
  roundMul P.W1 P.b1 (roundMul P.W0 P.b0 (embed x P.Wemb P.bemb))

/-- The hidden state entering the third round, second spelling. -/
def hid2Div (P : Params) (x : Fin 200 → Fin 8 → EReal) : Hid :=
  roundDiv P.W1 P.b1 (roundDiv P.W0 P.b0 (embed x P.Wemb P.bemb))

/-- The adjacency result of a jet, first spelling: the third round's. -/
def jetAdjMul (P : Params) (x : Fin 200 → Fin 8 → EReal) : Adj := attnMul (hid2Mul P x)

/-- The adjacency result of a jet, second spelling. -/
def jetAdjDiv (P : Params) (x : Fin 200 → Fin 8 → EReal) : Adj := attnDiv (hid2Div P x)

/-- The readout result of a jet, first spelling. -/
def jetOutMul (P : Params) (x : Fin 200 → Fin 8 → EReal) : Fin 256 → EReal :=
  readSumFirst P.Wr1 P.br1 P.Wr2 P.br2 (roundMul P.W2 P.b2 (hid2Mul P x))

/-- The readout result of a jet, second spelling. -/
def jetOutDiv (P : Params) (x : Fin 200 → Fin 8 → EReal) : Fin 256 → EReal :=
  readSumLast P.Wr1 P.br1 P.Wr2 P.br2 (roundDiv P.W2 P.b2 (hid2Div P x))

end Cert.Mpnn

end
-- ==== Proof.SpecArrays.lean ====
/-
  The whole result arrays, as functions of the thirteen argument arrays.

  The arguments are the jets (128 × 200 × 8) and the twelve weight arrays; a bias is a vector of 256.
  Jet g of the batch is the 200 × 8 slice at g.  Result 0 is 128 × 256: row g is the readout of jet g.
  Result 1 is 128 × 200 × 200: slice g is the third round's adjacency of jet g.  Each is written in
  both spellings of Spec.lean.
-/
import proofs.«167048_g85813446574462_cont_9to1c4b_288_21_alg».proof.Proof.Spec
import Idealize.ShloMosaic.Lib.ValueIdx

noncomputable section

namespace Cert.Mpnn

open Idealize.ShloMosaic Idealize.ShloMosaic.ValueIdx

/-- Literal shapes of the arguments and results. -/
abbrev SJets : Shape := ⟨3, ![128, 200, 8]⟩
abbrev SWemb : Shape := ⟨2, ![8, 256]⟩
abbrev SBias : Shape := ⟨1, ![256]⟩
abbrev SWmp : Shape := ⟨2, ![512, 256]⟩
abbrev SWr : Shape := ⟨2, ![256, 256]⟩
abbrev SOut : Shape := ⟨2, ![128, 256]⟩
abbrev SAdj : Shape := ⟨3, ![128, 200, 200]⟩

/-- The network's weights read off the twelve weight arrays. -/
def argParams (a1 : SWemb.Idx → EReal) (a2 : SBias.Idx → EReal) (a3 : SWmp.Idx → EReal) (a4 : SBias.Idx → EReal)
    (a5 : SWmp.Idx → EReal) (a6 : SBias.Idx → EReal) (a7 : SWmp.Idx → EReal) (a8 : SBias.Idx → EReal)
    (a9 : SWr.Idx → EReal) (a10 : SBias.Idx → EReal) (a11 : SWr.Idx → EReal) (a12 : SBias.Idx → EReal) : Params where
  Wemb f d := a1 (ix2 f d)
  bemb d := a2 (ix1 d)
  W0 k d := a3 (ix2 k d)
  b0 d := a4 (ix1 d)
  W1 k d := a5 (ix2 k d)
  b1 d := a6 (ix1 d)
  W2 k d := a7 (ix2 k d)
  b2 d := a8 (ix1 d)
  Wr1 k d := a9 (ix2 k d)
  br1 d := a10 (ix1 d)
  Wr2 k d := a11 (ix2 k d)
  br2 d := a12 (ix1 d)

/-- Jet g of the batch. -/
def jetOf (a0 : SJets.Idx → EReal) (g : Fin 128) : Fin 200 → Fin 8 → EReal := fun n f => a0 (ix3 g n f)

/-- Result 0, first spelling: row g is the readout of jet g. -/
def wholeOutMul (P : Params) (a0 : SJets.Idx → EReal) : SOut.Idx → EReal := fun i => jetOutMul P (jetOf a0 (i 0)) (i 1)
/-- Result 0, second spelling. -/
def wholeOutDiv (P : Params) (a0 : SJets.Idx → EReal) : SOut.Idx → EReal := fun i => jetOutDiv P (jetOf a0 (i 0)) (i 1)
/-- Result 1, first spelling: slice g is the third round's adjacency of jet g. -/
def wholeAdjMul (P : Params) (a0 : SJets.Idx → EReal) : SAdj.Idx → EReal := fun i => jetAdjMul P (jetOf a0 (i 0)) (i 1) (i 2)
/-- Result 1, second spelling. -/
def wholeAdjDiv (P : Params) (a0 : SJets.Idx → EReal) : SAdj.Idx → EReal := fun i => jetAdjDiv P (jetOf a0 (i 0)) (i 1) (i 2)

end Cert.Mpnn

end
-- ==== Proof.JetPay.lean ====
/-
  One jet's two stored values as compositions of the body's payloads, over the values the body loads.

  The body treats its 32 jets alike: jet j's hidden state after the embedding is a payload of the loaded
  embedding weight, its bias row and the jet's 1 × 200 × 8 slice; a round is a payload chain (logits,
  exponential, reciprocal of the row sums, product, messages, update); the adjacency stored for a jet is
  the third round's, the readout a last chain of two payloads.  Named here once, over the first jet's
  payloads; every other jet's chain unfolds to the same operations.
-/
import proofs.«167048_g85813446574462_cont_9to1c4b_288_21_alg».proof.Proof.Gen.KernelIdeal.Skeleton
import proofs.«167048_g85813446574462_cont_9to1c4b_288_21_alg».proof.Proof.SpecArrays

noncomputable section

namespace Cert.KernelIdeal.JetValue

open Idealize.ShloMosaic Idealize.ShloMosaic.ValueIdx Cert.KernelIdeal Cert.KernelIdeal.Gen Cert.Mpnn

variable {F : FTy → Type} [FloatOps F]

/-- The hidden state after the embedding layer. -/
def hEmb (wE : Vec F S8x256 .f32) (bE : Vec F S1x256 .f32) (xj : Vec F S1x200x8 .f32) : FVec F S200x256 .f32 :=
  k0_pay11 wE bE xj

/-- The soft adjacency of a hidden state: exponentials of the scaled products, times the reciprocal row sums. -/
def adjOf (h : FVec F S200x256 .f32) : FVec F S200x200 .f32 :=
  k0_pay150 (k0_pay83 (k0_pay49 h)) (k0_pay115 (k0_pay83 (k0_pay49 h)))

/-- One message-passing round. -/
def roundOf (W : Vec F S512x256 .f32) (b : Vec F S1x256 .f32) (h : FVec F S200x256 .f32) : FVec F S200x256 .f32 :=
  k0_pay215 W (k0_pay6 b) h (k0_pay183 h (adjOf h))

/-- The hidden state entering the third round. -/
def hid2Of (wE : Vec F S8x256 .f32) (bE : Vec F S1x256 .f32) (W0 : Vec F S512x256 .f32) (b0 : Vec F S1x256 .f32)
    (W1 : Vec F S512x256 .f32) (b1 : Vec F S1x256 .f32) (xj : Vec F S1x200x8 .f32) : FVec F S200x256 .f32 :=
  roundOf W1 b1 (roundOf W0 b0 (hEmb wE bE xj))

/-- What is stored for a jet in the adjacency result. -/
def jetAdjPay (wE : Vec F S8x256 .f32) (bE : Vec F S1x256 .f32) (W0 : Vec F S512x256 .f32) (b0 : Vec F S1x256 .f32)
    (W1 : Vec F S512x256 .f32) (b1 : Vec F S1x256 .f32) (xj : Vec F S1x200x8 .f32) : FVec F S1x200x200 .f32 :=
  k0_pay693 (adjOf (hid2Of wE bE W0 b0 W1 b1 xj))

/-- What is stored for a jet in the readout result. -/
def jetOutPay (wE : Vec F S8x256 .f32) (bE : Vec F S1x256 .f32) (W0 : Vec F S512x256 .f32) (b0 : Vec F S1x256 .f32)
    (W1 : Vec F S512x256 .f32) (b1 : Vec F S1x256 .f32) (W2 : Vec F S512x256 .f32) (b2 : Vec F S1x256 .f32)
    (Wr1 : Vec F S256x256 .f32) (br1 : Vec F S1x256 .f32) (Wr2 : Vec F S256x256 .f32) (br2 : Vec F S1x256 .f32)
    (xj : Vec F S1x200x8 .f32) : FVec F S1x1x256 .f32 :=
  k0_pay692 (k0_pay690 Wr2 (k0_pay656 Wr1 (k0_pay9 br1) (roundOf W2 b2 (hid2Of wE bE W0 b0 W1 b1 xj))))
    (k0_pay691 (k0_pay10 br2))

/-- The network's weights read off the twelve weight blocks the body loads (a bias block is one row of 256). -/
def blkParams (wE : Vec Ideal S8x256 .f32) (bE : Vec Ideal S1x256 .f32) (W0 : Vec Ideal S512x256 .f32) (b0 : Vec Ideal S1x256 .f32)
    (W1 : Vec Ideal S512x256 .f32) (b1 : Vec Ideal S1x256 .f32) (W2 : Vec Ideal S512x256 .f32) (b2 : Vec Ideal S1x256 .f32)
    (Wr1 : Vec Ideal S256x256 .f32) (br1 : Vec Ideal S1x256 .f32) (Wr2 : Vec Ideal S256x256 .f32) (br2 : Vec Ideal S1x256 .f32) : Params where
  Wemb f d := wE (ix2 f d)
  bemb d := bE (ix2 0 d)
  W0 k d := W0 (ix2 k d)
  b0 d := b0 (ix2 0 d)
  W1 k d := W1 (ix2 k d)
  b1 d := b1 (ix2 0 d)
  W2 k d := W2 (ix2 k d)
  b2 d := b2 (ix2 0 d)
  Wr1 k d := Wr1 (ix2 k d)
  br1 d := br1 (ix2 0 d)
  Wr2 k d := Wr2 (ix2 k d)
  br2 d := br2 (ix2 0 d)

/-- A jet's 1 × 200 × 8 slice as its 200 × 8 matrix. -/
def jetIn (xj : Vec Ideal S1x200x8 .f32) : Fin 200 → Fin 8 → EReal := fun n f => xj (ix3 0 n f)

end Cert.KernelIdeal.JetValue

end
-- ==== Proof.KernelJet.lean ====
/-
  One jet's stored values, read at an index, are the first spelling of the network's mathematics.

  Each payload of the body is a short chain of vector operations.  Read at an index over the extended
  reals, a matrix product into the zero splat is the sum over the contracted coordinate of the products
  of the entries; a reduction over one axis is the sum over that axis; a shape cast, a broadcast and a
  slice each read one entry of their operand; the remaining operations act entry by entry.  Chaining
  these readings through the embedding, the three message-passing rounds and the readout gives the
  stage functions of the specification, with the weights read off the loaded blocks.
-/
import proofs.«167048_g85813446574462_cont_9to1c4b_288_21_alg».proof.Proof.JetPay
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.JetValue

open Idealize.ShloMosaic Idealize.ShloMosaic.ValueIdx Cert.KernelIdeal Cert.KernelIdeal.Gen Cert.Mpnn

/-! ## Matrix products into the zero splat, read at an index -/

/-- An m × k by k × n product into the zero splat, at (a, b): the sum over the contracted coordinate. -/
theorem matmul_plain_zero_apply {m k n : ℕ} (D : DotDims ⟨2, ![m, k]⟩ ⟨2, ![k, n]⟩ ⟨2, ![m, n]⟩)
    (hD : D = DotDims.plain m k n) (prec : Option ContractPrecision)
    (A : FVec Ideal ⟨2, ![m, k]⟩ .f32) (B : FVec Ideal ⟨2, ![k, n]⟩ .f32) (a : Fin m) (b : Fin n) :
    matmul D prec A B (constant (F := Ideal) ⟨2, ![m, n]⟩ .f32 0x00000000#32) (ix2 a b)
      = ∑ c : Fin k, A (ix2 a c) * B (ix2 c b) := by
  subst hD
  rw [← StackMember.dotGeneral_plain_apply prec A B a b]
  show FloatOps.matmul _ prec A B _ _ = FloatOps.dotGeneral _ prec _ A B _
  rw [Ideal.matmul_constant_zero_apply, Ideal.dotGeneral_apply]

/-- An m × k by n × k product contracting the last axis of both, into the zero splat, at (a, b). -/
theorem matmul_transposedRhs_zero_apply {m k n : ℕ} (D : DotDims ⟨2, ![m, k]⟩ ⟨2, ![n, k]⟩ ⟨2, ![m, n]⟩)
    (hD : D = DotDims.transposedRhs m k n) (prec : Option ContractPrecision)
    (A : FVec Ideal ⟨2, ![m, k]⟩ .f32) (B : FVec Ideal ⟨2, ![n, k]⟩ .f32) (a : Fin m) (b : Fin n) :
    matmul D prec A B (constant (F := Ideal) ⟨2, ![m, n]⟩ .f32 0x00000000#32) (ix2 a b)
      = ∑ c : Fin k, A (ix2 a c) * B (ix2 b c) := by
  subst hD
  simp only [matmul]
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have hl : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => exact (DotDims.lhsIdx_val_of_single (DotDims.transposedRhs m k n) (cl := 1) rfl _ _).trans hc
  have hr : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => exact (DotDims.rhsIdx_val_of_single (DotDims.transposedRhs m k n) (cr := 1) rfl _ _).trans hc
  rw [hl, hr]

/-! ## The keepdims column forms -/

/-- An [a] vector cast to [a, 1] reads, at (p, u), the operand at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, q), the operand at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## Sums over one axis of a matrix -/

/-- The sum over the columns of an a × b matrix, at row p (the accumulator is the zero pattern). -/
theorem multiReduction_rows_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ v 0x00000000#32 h hφ hacc (ix1 p) = ∑ q : Fin b, v (ix2 p q) := by
  refine (Ideal.multiReduction_add_single v 0x00000000#32 h hφ hacc (ix1 p)).trans ?_
  show ∑ q : Fin b, v (h.lift (ix1 p) q) = _
  refine Finset.sum_congr rfl fun q _ => congrArg v ?_
  funext c; apply Fin.ext
  match c with
  | ⟨0, _⟩ => rfl
  | ⟨1, _⟩ => rfl

/-- The sum over the rows of an a × b matrix, at column q (the accumulator is the zero pattern). -/
theorem multiReduction_cols_apply {a b : ℕ} (v : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction (F := Ideal) .add [0] ⟨1, ![b]⟩ v 0x00000000#32 h hφ hacc (ix1 q) = ∑ p : Fin a, v (ix2 p q) := by
  refine (Ideal.multiReduction_add_single v 0x00000000#32 h hφ hacc (ix1 q)).trans ?_
  show ∑ p : Fin a, v (h.lift (ix1 q) p) = _
  refine Finset.sum_congr rfl fun p _ => congrArg v ?_
  funext c; apply Fin.ext
  match c with
  | ⟨0, _⟩ => rfl
  | ⟨1, _⟩ => rfl

/-! ## The body's five products -/

/-- The embedding's product: 200 × 8 by 8 × 256. -/
theorem matmul_emb_apply (A : FVec Ideal S200x8 .f32) (B : FVec Ideal S8x256 .f32) (a : Fin 200) (b : Fin 256) :
    matmul dot_S200x8_S8x256_S200x256_1_0_0_1_n_n none A B (constant (F := Ideal) S200x256 .f32 0x00000000#32) (ix2 a b)
      = ∑ c : Fin 8, A (ix2 a c) * B (ix2 c b) :=
  matmul_plain_zero_apply _ rfl none A B a b

/-- The hidden state times its own transpose: 200 × 256 by 200 × 256, contracting the 256. -/
theorem matmul_gram_apply (A B : FVec Ideal S200x256 .f32) (a b : Fin 200) :
    matmul dot_S200x256_S200x256_S200x200_1_1_0_0_n_n none A B (constant (F := Ideal) S200x200 .f32 0x00000000#32) (ix2 a b)
      = ∑ c : Fin 256, A (ix2 a c) * B (ix2 b c) :=
  matmul_transposedRhs_zero_apply _ rfl none A B a b

/-- The adjacency times the hidden state: 200 × 200 by 200 × 256. -/
theorem matmul_msg_apply (A : FVec Ideal S200x200 .f32) (B : FVec Ideal S200x256 .f32) (a : Fin 200) (b : Fin 256) :
    matmul dot_S200x200_S200x256_S200x256_1_0_0_1_n_n none A B (constant (F := Ideal) S200x256 .f32 0x00000000#32) (ix2 a b)
      = ∑ c : Fin 200, A (ix2 a c) * B (ix2 c b) :=
  matmul_plain_zero_apply _ rfl none A B a b

/-- A hidden state times a 256 × 256 weight. -/
theorem matmul_hid_apply (A : FVec Ideal S200x256 .f32) (B : FVec Ideal S256x256 .f32) (a : Fin 200) (b : Fin 256) :
    matmul dot_S200x256_S256x256_S200x256_1_0_0_1_n_n none A B (constant (F := Ideal) S200x256 .f32 0x00000000#32) (ix2 a b)
      = ∑ c : Fin 256, A (ix2 a c) * B (ix2 c b) :=
  matmul_plain_zero_apply _ rfl none A B a b

/-- One row of 256 times a 256 × 256 weight. -/
theorem matmul_row_apply (A : FVec Ideal S1x256 .f32) (B : FVec Ideal S256x256 .f32) (a : Fin 1) (b : Fin 256) :
    matmul dot_S1x256_S256x256_S1x256_1_0_0_1_n_n none A B (constant (F := Ideal) S1x256 .f32 0x00000000#32) (ix2 a b)
      = ∑ c : Fin 256, A (ix2 a c) * B (ix2 c b) :=
  matmul_plain_zero_apply _ rfl none A B a b

/-! ## The payloads, read at an index -/

/-- A bias block recast to its own shape is itself. -/
theorem pay5_eq (b : Vec Ideal S1x256 .f32) : k0_pay5 (F := Ideal) b = b := shapeCast_self b _
theorem pay6_eq (b : Vec Ideal S1x256 .f32) : k0_pay6 (F := Ideal) b = b := shapeCast_self b _
theorem pay9_eq (b : Vec Ideal S1x256 .f32) : k0_pay9 (F := Ideal) b = b := shapeCast_self b _
theorem pay10_eq (b : Vec Ideal S1x256 .f32) : k0_pay10 (F := Ideal) b = b := shapeCast_self b _

/-- The scaled products of the hidden state's rows. -/
theorem pay49_apply (h : FVec Ideal S200x256 .f32) (n m : Fin 200) :
    k0_pay49 (F := Ideal) h (ix2 n m) = logits (fun n d => h (ix2 n d)) n m := by
  unfold k0_pay49 logits
  show matmul _ none h h _ (ix2 n m) * Ideal.ofBits .f32 0x3D800000#32 = _
  rw [matmul_gram_apply]

/-- The exponential acts entry by entry. -/
theorem pay83_apply (v : FVec Ideal S200x200 .f32) (i : S200x200.Idx) :
    k0_pay83 (F := Ideal) v i = Ideal.exp (v i) := rfl

/-- The reciprocal of a row's sum. -/
theorem pay115_apply (E : FVec Ideal S200x200 .f32) (n : Fin 200) (u : Fin 1) :
    k0_pay115 (F := Ideal) E (ix2 n u) = Ideal.div onePat (∑ q : Fin 200, E (ix2 n q)) := by
  unfold k0_pay115
  exact congrArg (Ideal.div onePat)
    ((shapeCast_a_a1_apply _ _ n u).trans (multiReduction_rows_apply E _ _ _ n))

/-- The exponentials times the reciprocal row sums. -/
theorem pay150_apply (E : FVec Ideal S200x200 .f32) (R : FVec Ideal S200x1 .f32) (n m : Fin 200) :
    k0_pay150 (F := Ideal) E R (ix2 n m) = E (ix2 n m) * R (ix2 n 0) := by
  unfold k0_pay150
  show E (ix2 n m) * broadcastTo S200x200 R _ (ix2 n m) = _
  rw [broadcastTo_a1_ab_apply]

/-- The messages. -/
theorem pay183_apply (h : FVec Ideal S200x256 .f32) (A : FVec Ideal S200x200 .f32) (n : Fin 200) (d : Fin 256) :
    k0_pay183 (F := Ideal) h A (ix2 n d) = ∑ m : Fin 200, A (ix2 n m) * h (ix2 m d) := by
  unfold k0_pay183
  exact matmul_msg_apply A h n d

/-- The vertex update, the weight read in its two halves. -/
theorem pay215_apply (W : Vec Ideal S512x256 .f32) (b : FVec Ideal S1x256 .f32) (h ms : FVec Ideal S200x256 .f32)
    (n : Fin 200) (d : Fin 256) :
    k0_pay215 (F := Ideal) W b h ms (ix2 n d)
      = updSplit (fun k d => W (ix2 k d)) (fun d => b (ix2 0 d)) (fun n d => h (ix2 n d)) (fun n d => ms (ix2 n d)) n d := by
  unfold k0_pay215 updSplit
  show Ideal.tanh ((matmul _ none h (extractStridedSlice S256x256 ![0, 0] W _) _ (ix2 n d)
      + matmul _ none ms (extractStridedSlice S256x256 ![256, 0] W _) _ (ix2 n d))
      + broadcastTo S200x256 b _ (ix2 n d)) = _
  rw [matmul_hid_apply, matmul_hid_apply, broadcastTo_1b_ab_apply]
  congr 3
  · refine Finset.sum_congr rfl fun k _ => ?_
    rw [slice2_axis0_apply 0 W _ k d ⟨k.val, by omega⟩ (Nat.zero_add _).symm]
  · refine Finset.sum_congr rfl fun k _ => ?_
    rw [slice2_axis0_apply 256 W _ k d ⟨256 + k.val, by omega⟩ rfl]

/-- The first readout layer, summed over the nodes. -/
theorem pay656_apply (Wr1 : Vec Ideal S256x256 .f32) (b : FVec Ideal S1x256 .f32) (h : FVec Ideal S200x256 .f32)
    (u : Fin 1) (k : Fin 256) :
    k0_pay656 (F := Ideal) Wr1 b h (ix2 u k)
      = ∑ n : Fin 200, fc1 (fun j k => Wr1 (ix2 j k)) (fun k => b (ix2 0 k)) (fun n d => h (ix2 n d)) n k := by
  unfold k0_pay656 fc1
  refine (shapeCast_a_1a_apply _ _ u k).trans ((multiReduction_cols_apply _ _ _ _ k).trans ?_)
  refine Finset.sum_congr rfl fun n _ => ?_
  show Ideal.tanh (matmul _ none h Wr1 _ (ix2 n k) + broadcastTo S200x256 b _ (ix2 n k)) = _
  rw [matmul_hid_apply, broadcastTo_1b_ab_apply]

/-- The second readout layer applied to the node sums. -/
theorem pay690_apply (Wr2 : Vec Ideal S256x256 .f32) (v : FVec Ideal S1x256 .f32) (u : Fin 1) (d : Fin 256) :
    k0_pay690 (F := Ideal) Wr2 v (ix2 u d) = ∑ k : Fin 256, v (ix2 u k) * Wr2 (ix2 k d) := by
  unfold k0_pay690
  exact matmul_row_apply v Wr2 u d

/-- The node count times the second readout bias. -/
theorem pay691_apply (b : FVec Ideal S1x256 .f32) (i : S1x256.Idx) :
    k0_pay691 (F := Ideal) b i = nodesPat * b i := rfl

/-- The readout stored with a leading unit axis. -/
theorem pay692_apply (x y : FVec Ideal S1x256 .f32) (u v : Fin 1) (d : Fin 256) :
    k0_pay692 (F := Ideal) x y (ix3 u v d) = x (ix2 v d) + y (ix2 v d) := by
  unfold k0_pay692
  rw [shapeCast_ab_1ab_apply]
  rfl

/-- The adjacency stored with a leading unit axis. -/
theorem pay693_apply (A : FVec Ideal S200x200 .f32) (u : Fin 1) (n m : Fin 200) :
    k0_pay693 (F := Ideal) A (ix3 u n m) = A (ix2 n m) := by
  unfold k0_pay693
  exact shapeCast_ab_1ab_apply A _ u n m

/-! ## One jet's chains -/

/-- The embedding payload at (n, d) is the embedding layer of the jet's matrix. -/
theorem hEmb_apply (wE : Vec Ideal S8x256 .f32) (bE : Vec Ideal S1x256 .f32) (xj : Vec Ideal S1x200x8 .f32)
    (n : Fin 200) (d : Fin 256) :
    hEmb (F := Ideal) wE bE xj (ix2 n d)
      = embed (jetIn xj) (fun f d => wE (ix2 f d)) (fun d => bE (ix2 0 d)) n d := by
  unfold hEmb k0_pay11 embed jetIn
  show Ideal.tanh (matmul (F := Ideal) _ none (shapeCast S200x8 xj _) wE _ (ix2 n d)
      + broadcastTo S200x256 (k0_pay5 (F := Ideal) bE) _ (ix2 n d)) = _
  rw [matmul_emb_apply, broadcastTo_1b_ab_apply, pay5_eq]
  congr 2
  refine Finset.sum_congr rfl fun f _ => ?_
  rw [shapeCast_1ab_ab_apply]

/-- The adjacency chain at (n, m) is the soft adjacency by a reciprocal multiply. -/
theorem adjOf_apply (h : FVec Ideal S200x256 .f32) (n m : Fin 200) :
    adjOf (F := Ideal) h (ix2 n m) = attnMul (fun n d => h (ix2 n d)) n m := by
  unfold adjOf attnMul
  rw [pay150_apply, pay115_apply, pay83_apply, pay49_apply]
  congr 2
  refine Finset.sum_congr rfl fun q _ => ?_
  rw [pay83_apply, pay49_apply]

/-- One round's chain at (n, d) is one message-passing round with the weight split in its halves. -/
theorem roundOf_apply (W : Vec Ideal S512x256 .f32) (b : Vec Ideal S1x256 .f32) (h : FVec Ideal S200x256 .f32)
    (n : Fin 200) (d : Fin 256) :
    roundOf (F := Ideal) W b h (ix2 n d)
      = roundMul (fun k d => W (ix2 k d)) (fun d => b (ix2 0 d)) (fun n d => h (ix2 n d)) n d := by
  unfold roundOf roundMul
  rw [pay215_apply, pay6_eq]
  congr 1
  funext n' k
  rw [pay183_apply]
  unfold msg
  refine Finset.sum_congr rfl fun m _ => ?_
  rw [adjOf_apply]

/-- The hidden state entering the third round, at (n, d). -/
theorem hid2Of_apply (wE : Vec Ideal S8x256 .f32) (bE : Vec Ideal S1x256 .f32) (W0 : Vec Ideal S512x256 .f32)
    (b0 : Vec Ideal S1x256 .f32) (W1 : Vec Ideal S512x256 .f32) (b1 : Vec Ideal S1x256 .f32)
    (W2 : Vec Ideal S512x256 .f32) (b2 : Vec Ideal S1x256 .f32) (Wr1 : Vec Ideal S256x256 .f32)
    (br1 : Vec Ideal S1x256 .f32) (Wr2 : Vec Ideal S256x256 .f32) (br2 : Vec Ideal S1x256 .f32)
    (xj : Vec Ideal S1x200x8 .f32) (n : Fin 200) (d : Fin 256) :
    hid2Of (F := Ideal) wE bE W0 b0 W1 b1 xj (ix2 n d)
      = hid2Mul (blkParams wE bE W0 b0 W1 b1 W2 b2 Wr1 br1 Wr2 br2) (jetIn xj) n d := by
  unfold hid2Of hid2Mul
  rw [roundOf_apply]
  show roundMul _ _ _ n d = roundMul (fun k d => W1 (ix2 k d)) (fun d => b1 (ix2 0 d)) _ n d
  congr 1
  funext n' d'
  rw [roundOf_apply]
  show roundMul _ _ _ n' d' = roundMul (fun k d => W0 (ix2 k d)) (fun d => b0 (ix2 0 d)) _ n' d'
  congr 1
  funext n'' d''
  exact hEmb_apply wE bE xj n'' d''

/-- What is stored for a jet in the adjacency result, at (0, n, m), is the third round's adjacency. -/
theorem jetAdjPay_apply (wE : Vec Ideal S8x256 .f32) (bE : Vec Ideal S1x256 .f32) (W0 : Vec Ideal S512x256 .f32)
    (b0 : Vec Ideal S1x256 .f32) (W1 : Vec Ideal S512x256 .f32) (b1 : Vec Ideal S1x256 .f32)
    (W2 : Vec Ideal S512x256 .f32) (b2 : Vec Ideal S1x256 .f32) (Wr1 : Vec Ideal S256x256 .f32)
    (br1 : Vec Ideal S1x256 .f32) (Wr2 : Vec Ideal S256x256 .f32) (br2 : Vec Ideal S1x256 .f32)
    (xj : Vec Ideal S1x200x8 .f32) (n m : Fin 200) :
    jetAdjPay (F := Ideal) wE bE W0 b0 W1 b1 xj (ix3 0 n m)
      = jetAdjMul (blkParams wE bE W0 b0 W1 b1 W2 b2 Wr1 br1 Wr2 br2) (jetIn xj) n m := by
  unfold jetAdjPay jetAdjMul
  rw [pay693_apply, adjOf_apply]
  congr 1
  funext n' d'
  exact hid2Of_apply wE bE W0 b0 W1 b1 W2 b2 Wr1 br1 Wr2 br2 xj n' d'

/-- What is stored for a jet in the readout result, at (0, 0, d), is the readout with the node sum first. -/
theorem jetOutPay_apply (wE : Vec Ideal S8x256 .f32) (bE : Vec Ideal S1x256 .f32) (W0 : Vec Ideal S512x256 .f32)
    (b0 : Vec Ideal S1x256 .f32) (W1 : Vec Ideal S512x256 .f32) (b1 : Vec Ideal S1x256 .f32)
    (W2 : Vec Ideal S512x256 .f32) (b2 : Vec Ideal S1x256 .f32) (Wr1 : Vec Ideal S256x256 .f32)
    (br1 : Vec Ideal S1x256 .f32) (Wr2 : Vec Ideal S256x256 .f32) (br2 : Vec Ideal S1x256 .f32)
    (xj : Vec Ideal S1x200x8 .f32) (d : Fin 256) :
    jetOutPay (F := Ideal) wE bE W0 b0 W1 b1 W2 b2 Wr1 br1 Wr2 br2 xj (ix3 0 0 d)
      = jetOutMul (blkParams wE bE W0 b0 W1 b1 W2 b2 Wr1 br1 Wr2 br2) (jetIn xj) d := by
  unfold jetOutPay jetOutMul readSumFirst
  rw [pay692_apply, pay690_apply, pay691_apply, pay10_eq, pay9_eq]
  show (∑ k : Fin 256, _ * Wr2 (ix2 k d)) + nodesPat * br2 (ix2 0 d) = (∑ k : Fin 256, _ * Wr2 (ix2 k d)) + nodesPat * br2 (ix2 0 d)
  congr 2
  funext k
  rw [pay656_apply]
  congr 1
  refine Finset.sum_congr rfl fun n' _ => ?_
  show fc1 _ _ _ n' k = fc1 (fun j k => Wr1 (ix2 j k)) (fun k => br1 (ix2 0 k)) _ n' k
  congr 1
  funext n'' d''
  rw [roundOf_apply]
  show roundMul _ _ _ n'' d'' = roundMul (fun k d => W2 (ix2 k d)) (fun d => b2 (ix2 0 d)) _ n'' d''
  congr 1
  funext a c
  exact hid2Of_apply wE bE W0 b0 W1 b1 W2 b2 Wr1 br1 Wr2 br2 xj a c

end Cert.KernelIdeal.JetValue

end
-- ==== Proof.KernelBlock.lean ====
/-
  The body's two stored blocks, read at an index.

  The body handles 32 jets.  For jet j it loads the jet's 1 × 200 × 8 slice of the input block and the
  twelve weight blocks whole, and stores the jet's readout row at row j of the 32 × 1 × 256 block and the
  jet's third-round adjacency at slice j of the 32 × 200 × 200 block.  The 32 stores of a block tile it, so
  the block read at (j, ·, ·) is jet j's stored payload at (0, ·, ·), which is the network's value on jet j.
-/
import proofs.«167048_g85813446574462_cont_9to1c4b_288_21_alg».proof.Proof.Gen.KernelIdeal.Frame
import proofs.«167048_g85813446574462_cont_9to1c4b_288_21_alg».proof.Proof.KernelJet
import Idealize.ShloMosaic.Lib.Pipeline.Value
import Idealize.ShloMosaic.Lib.ValueIdx

noncomputable section

namespace Cert.KernelIdeal.JetValue

open Idealize.ShloMosaic Idealize.ShloMosaic.ValueIdx Cert.KernelIdeal Cert.KernelIdeal.Gen Cert.Mpnn

/-! ## The rectangles of jet j -/

/-- Jet j's slice of the input block is in bounds. -/
theorem inb_in (j : Fin 32) : ∀ a, (![j.val, 0, 0] : Fin 3 → Nat) a + S1x200x8.size a ≤ S32x200x8.size a := by
  have hj := j.isLt
  intro a
  match a with
  | ⟨0, _⟩ => show j.val + 1 ≤ 32; omega
  | ⟨1, _⟩ => show 0 + 200 ≤ 200; omega
  | ⟨2, _⟩ => show 0 + 8 ≤ 8; omega

/-- Jet j's row of the readout block is in bounds. -/
theorem inb_out (j : Fin 32) : ∀ a, (![j.val, 0, 0] : Fin 3 → Nat) a + S1x1x256.size a ≤ S32x1x256.size a := by
  have hj := j.isLt
  intro a
  match a with
  | ⟨0, _⟩ => show j.val + 1 ≤ 32; omega
  | ⟨1, _⟩ => show 0 + 1 ≤ 1; omega
  | ⟨2, _⟩ => show 0 + 256 ≤ 256; omega

/-- Jet j's slice of the adjacency block is in bounds. -/
theorem inb_adj (j : Fin 32) : ∀ a, (![j.val, 0, 0] : Fin 3 → Nat) a + S1x200x200.size a ≤ S32x200x200.size a := by
  have hj := j.isLt
  intro a
  match a with
  | ⟨0, _⟩ => show j.val + 1 ≤ 32; omega
  | ⟨1, _⟩ => show 0 + 200 ≤ 200; omega
  | ⟨2, _⟩ => show 0 + 200 ≤ 200; omega

/-- Jet j's 1 × 200 × 8 slice of the input block. -/
abbrev inRect (j : Fin 32) : Rect S32x200x8 := Rect.unit (s := S32x200x8) ![j.val, 0, 0] S1x200x8.size (inb_in j)
/-- Row j of the readout block. -/
abbrev outRect (j : Fin 32) : Rect S32x1x256 := Rect.unit (s := S32x1x256) ![j.val, 0, 0] S1x1x256.size (inb_out j)
/-- Slice j of the adjacency block. -/
abbrev adjRect (j : Fin 32) : Rect S32x200x200 := Rect.unit (s := S32x200x200) ![j.val, 0, 0] S1x200x200.size (inb_adj j)

section Pieces
variable {F : FTy → Type} [FloatOps F]

/-- The store of jet j's readout: its row, and the readout chain over the loaded blocks. -/
def pieceOut (x0 : Vec F S32x200x8 .f32) (x1 : Vec F S8x256 .f32) (x2 : Vec F S1x256 .f32)
    (x3 : Vec F S512x256 .f32) (x4 : Vec F S1x256 .f32) (x5 : Vec F S512x256 .f32) (x6 : Vec F S1x256 .f32)
    (x7 : Vec F S512x256 .f32) (x8 : Vec F S1x256 .f32) (x9 : Vec F S256x256 .f32) (x10 : Vec F S1x256 .f32)
    (x11 : Vec F S256x256 .f32) (x12 : Vec F S1x256 .f32) (j : Fin 32) : View.Piece (Elt F) S32x1x256 .f32 :=
  ⟨outRect j, jetOutPay (View.ld x1 Gen.r0_0) (View.ld x2 Gen.r0_1) (View.ld x3 Gen.r0_2) (View.ld x4 Gen.r0_1)
    (View.ld x5 Gen.r0_2) (View.ld x6 Gen.r0_1) (View.ld x7 Gen.r0_2) (View.ld x8 Gen.r0_1) (View.ld x9 Gen.r0_3)
    (View.ld x10 Gen.r0_1) (View.ld x11 Gen.r0_3) (View.ld x12 Gen.r0_1) (View.ld x0 (inRect j))⟩

/-- The store of jet j's adjacency: its slice, and the adjacency chain over the loaded blocks. -/
def pieceAdj (x0 : Vec F S32x200x8 .f32) (x1 : Vec F S8x256 .f32) (x2 : Vec F S1x256 .f32)
    (x3 : Vec F S512x256 .f32) (x4 : Vec F S1x256 .f32) (x5 : Vec F S512x256 .f32) (x6 : Vec F S1x256 .f32)
    (x7 : Vec F S512x256 .f32) (x8 : Vec F S1x256 .f32) (x9 : Vec F S256x256 .f32) (x10 : Vec F S1x256 .f32)
    (x11 : Vec F S256x256 .f32) (x12 : Vec F S1x256 .f32) (j : Fin 32) : View.Piece (Elt F) S32x200x200 .f32 :=
  ⟨adjRect j, jetAdjPay (View.ld x1 Gen.r0_0) (View.ld x2 Gen.r0_1) (View.ld x3 Gen.r0_2) (View.ld x4 Gen.r0_1)
    (View.ld x5 Gen.r0_2) (View.ld x6 Gen.r0_1) (View.ld x0 (inRect j))⟩

end Pieces

/-! ## What the loads read -/

theorem zeros2 : (![0, 0] : Fin 2 → Nat) = fun _ => 0 := funext fun a => by
  match a with
  | ⟨0, _⟩ => rfl
  | ⟨1, _⟩ => rfl

/-- A weight block loaded whole is the block. -/
theorem ld_r0_0 (x : Vec Ideal S8x256 .f32) : View.ld x Gen.r0_0 = x := View.ld_unit_zero (S := S8x256) zeros2 _ x
theorem ld_r0_1 (x : Vec Ideal S1x256 .f32) : View.ld x Gen.r0_1 = x := View.ld_unit_zero (S := S1x256) zeros2 _ x
theorem ld_r0_2 (x : Vec Ideal S512x256 .f32) : View.ld x Gen.r0_2 = x := View.ld_unit_zero (S := S512x256) zeros2 _ x
theorem ld_r0_3 (x : Vec Ideal S256x256 .f32) : View.ld x Gen.r0_3 = x := View.ld_unit_zero (S := S256x256) zeros2 _ x

/-- Jet j's slice, read at (0, n, f), is the input block at (j, n, f). -/
theorem inRect_idx (j : Fin 32) (n : Fin 200) (f : Fin 8) :
    (inRect j).idx (ix3 (0 : Fin 1) n f) = ix3 j n f := by
  funext a; apply Fin.ext
  match a with
  | ⟨0, _⟩ => show j.val + 1 * 0 = j.val; omega
  | ⟨1, _⟩ => show 0 + 1 * n.val = n.val; omega
  | ⟨2, _⟩ => show 0 + 1 * f.val = f.val; omega

theorem jetIn_ld (x0 : Vec Ideal S32x200x8 .f32) (j : Fin 32) :
    jetIn (View.ld x0 (inRect j)) = fun n f => x0 (ix3 j n f) := by
  funext n f
  show x0 ((inRect j).idx (ix3 (0 : Fin 1) n f)) = x0 (ix3 j n f)
  rw [inRect_idx]

/-- Row j's index (0, 0, d) sits at (j, 0, d) of the readout block. -/
theorem outRect_emb (j : Fin 32) (d : Fin 256) :
    (outRect j).emb (ix3 (0 : Fin 1) (0 : Fin 1) d) = ix3 j (0 : Fin 1) d := by
  funext a; apply Fin.ext
  match a with
  | ⟨0, _⟩ => show j.val + 1 * 0 = j.val; omega
  | ⟨1, _⟩ => show 0 + 1 * 0 = 0; omega
  | ⟨2, _⟩ => show 0 + 1 * d.val = d.val; omega

/-- Slice j's index (0, n, m) sits at (j, n, m) of the adjacency block. -/
theorem adjRect_emb (j : Fin 32) (n m : Fin 200) :
    (adjRect j).emb (ix3 (0 : Fin 1) n m) = ix3 j n m := by
  funext a; apply Fin.ext
  match a with
  | ⟨0, _⟩ => show j.val + 1 * 0 = j.val; omega
  | ⟨1, _⟩ => show 0 + 1 * n.val = n.val; omega
  | ⟨2, _⟩ => show 0 + 1 * m.val = m.val; omega

/-! ## One jet's stores are the network's values on that jet -/

/-- The readout of the jet the block index names. -/
def outG (x0 : Vec Ideal S32x200x8 .f32) (x1 : Vec Ideal S8x256 .f32) (x2 : Vec Ideal S1x256 .f32)
    (x3 : Vec Ideal S512x256 .f32) (x4 : Vec Ideal S1x256 .f32) (x5 : Vec Ideal S512x256 .f32) (x6 : Vec Ideal S1x256 .f32)
    (x7 : Vec Ideal S512x256 .f32) (x8 : Vec Ideal S1x256 .f32) (x9 : Vec Ideal S256x256 .f32) (x10 : Vec Ideal S1x256 .f32)
    (x11 : Vec Ideal S256x256 .f32) (x12 : Vec Ideal S1x256 .f32) : S32x1x256.Idx → EReal :=
  fun y => jetOutMul (blkParams x1 x2 x3 x4 x5 x6 x7 x8 x9 x10 x11 x12) (fun n f => x0 (ix3 (y 0) n f)) (y 2)

/-- The third-round adjacency of the jet the block index names. -/
def adjG (x0 : Vec Ideal S32x200x8 .f32) (x1 : Vec Ideal S8x256 .f32) (x2 : Vec Ideal S1x256 .f32)
    (x3 : Vec Ideal S512x256 .f32) (x4 : Vec Ideal S1x256 .f32) (x5 : Vec Ideal S512x256 .f32) (x6 : Vec Ideal S1x256 .f32)
    (x7 : Vec Ideal S512x256 .f32) (x8 : Vec Ideal S1x256 .f32) (x9 : Vec Ideal S256x256 .f32) (x10 : Vec Ideal S1x256 .f32)
    (x11 : Vec Ideal S256x256 .f32) (x12 : Vec Ideal S1x256 .f32) : S32x200x200.Idx → EReal :=
  fun y => jetAdjMul (blkParams x1 x2 x3 x4 x5 x6 x7 x8 x9 x10 x11 x12) (fun n f => x0 (ix3 (y 0) n f)) (y 1) (y 2)

theorem pieceOut_val (x0 : Vec Ideal S32x200x8 .f32) (x1 : Vec Ideal S8x256 .f32) (x2 : Vec Ideal S1x256 .f32)
    (x3 : Vec Ideal S512x256 .f32) (x4 : Vec Ideal S1x256 .f32) (x5 : Vec Ideal S512x256 .f32) (x6 : Vec Ideal S1x256 .f32)
    (x7 : Vec Ideal S512x256 .f32) (x8 : Vec Ideal S1x256 .f32) (x9 : Vec Ideal S256x256 .f32) (x10 : Vec Ideal S1x256 .f32)
    (x11 : Vec Ideal S256x256 .f32) (x12 : Vec Ideal S1x256 .f32) (j : Fin 32) (d : Fin 256) :
    (pieceOut (F := Ideal) x0 x1 x2 x3 x4 x5 x6 x7 x8 x9 x10 x11 x12 j).2 (ix3 (0 : Fin 1) (0 : Fin 1) d)
      = jetOutMul (blkParams x1 x2 x3 x4 x5 x6 x7 x8 x9 x10 x11 x12) (fun n f => x0 (ix3 j n f)) d := by
  show jetOutPay (F := Ideal) _ _ _ _ _ _ _ _ _ _ _ _ _ (ix3 0 0 d) = _
  rw [jetOutPay_apply, jetIn_ld, ld_r0_0, ld_r0_1, ld_r0_1, ld_r0_1, ld_r0_1, ld_r0_1, ld_r0_1, ld_r0_2, ld_r0_2, ld_r0_2,
    ld_r0_3, ld_r0_3]

theorem pieceAdj_val (x0 : Vec Ideal S32x200x8 .f32) (x1 : Vec Ideal S8x256 .f32) (x2 : Vec Ideal S1x256 .f32)
    (x3 : Vec Ideal S512x256 .f32) (x4 : Vec Ideal S1x256 .f32) (x5 : Vec Ideal S512x256 .f32) (x6 : Vec Ideal S1x256 .f32)
    (x7 : Vec Ideal S512x256 .f32) (x8 : Vec Ideal S1x256 .f32) (x9 : Vec Ideal S256x256 .f32) (x10 : Vec Ideal S1x256 .f32)
    (x11 : Vec Ideal S256x256 .f32) (x12 : Vec Ideal S1x256 .f32) (j : Fin 32) (n m : Fin 200) :
    (pieceAdj (F := Ideal) x0 x1 x2 x3 x4 x5 x6 x7 x8 x9 x10 x11 x12 j).2 (ix3 (0 : Fin 1) n m)
      = jetAdjMul (blkParams x1 x2 x3 x4 x5 x6 x7 x8 x9 x10 x11 x12) (fun n f => x0 (ix3 j n f)) n m := by
  show jetAdjPay (F := Ideal) _ _ _ _ _ _ _ (ix3 0 n m) = _
  rw [jetAdjPay_apply (W2 := x7) (b2 := x8) (Wr1 := x9) (br1 := x10) (Wr2 := x11) (br2 := x12), jetIn_ld, ld_r0_0, ld_r0_1,
    ld_r0_1, ld_r0_1, ld_r0_2, ld_r0_2]

/-- Jet j's readout store agrees with the block function on its row. -/
theorem pieceOut_ok (x0 : Vec Ideal S32x200x8 .f32) (x1 : Vec Ideal S8x256 .f32) (x2 : Vec Ideal S1x256 .f32)
    (x3 : Vec Ideal S512x256 .f32) (x4 : Vec Ideal S1x256 .f32) (x5 : Vec Ideal S512x256 .f32) (x6 : Vec Ideal S1x256 .f32)
    (x7 : Vec Ideal S512x256 .f32) (x8 : Vec Ideal S1x256 .f32) (x9 : Vec Ideal S256x256 .f32) (x10 : Vec Ideal S1x256 .f32)
    (x11 : Vec Ideal S256x256 .f32) (x12 : Vec Ideal S1x256 .f32) (j : Fin 32) :
    ∀ x : (pieceOut (F := Ideal) x0 x1 x2 x3 x4 x5 x6 x7 x8 x9 x10 x11 x12 j).1.shape.Idx,
      (pieceOut (F := Ideal) x0 x1 x2 x3 x4 x5 x6 x7 x8 x9 x10 x11 x12 j).2 x = outG x0 x1 x2 x3 x4 x5 x6 x7 x8 x9 x10 x11 x12 ((pieceOut (F := Ideal) x0 x1 x2 x3 x4 x5 x6 x7 x8 x9 x10 x11 x12 j).1.emb x) := by
  intro x
  obtain ⟨u, v, d, rfl⟩ : ∃ (u v : Fin 1) (d : Fin 256), x = ix3 u v d := ⟨x 0, x 1, x 2, eq_ix3 (n0 := 1) (n1 := 1) (n2 := 256) x⟩
  obtain rfl : u = 0 := Subsingleton.elim _ _
  obtain rfl : v = 0 := Subsingleton.elim _ _
  rw [pieceOut_val]
  show _ = outG x0 x1 x2 x3 x4 x5 x6 x7 x8 x9 x10 x11 x12 ((outRect j).emb (ix3 (0 : Fin 1) (0 : Fin 1) d))
  rw [outRect_emb]
  rfl

/-- Jet j's adjacency store agrees with the block function on its slice. -/
theorem pieceAdj_ok (x0 : Vec Ideal S32x200x8 .f32) (x1 : Vec Ideal S8x256 .f32) (x2 : Vec Ideal S1x256 .f32)
    (x3 : Vec Ideal S512x256 .f32) (x4 : Vec Ideal S1x256 .f32) (x5 : Vec Ideal S512x256 .f32) (x6 : Vec Ideal S1x256 .f32)
    (x7 : Vec Ideal S512x256 .f32) (x8 : Vec Ideal S1x256 .f32) (x9 : Vec Ideal S256x256 .f32) (x10 : Vec Ideal S1x256 .f32)
    (x11 : Vec Ideal S256x256 .f32) (x12 : Vec Ideal S1x256 .f32) (j : Fin 32) :
    ∀ x : (pieceAdj (F := Ideal) x0 x1 x2 x3 x4 x5 x6 x7 x8 x9 x10 x11 x12 j).1.shape.Idx,
      (pieceAdj (F := Ideal) x0 x1 x2 x3 x4 x5 x6 x7 x8 x9 x10 x11 x12 j).2 x = adjG x0 x1 x2 x3 x4 x5 x6 x7 x8 x9 x10 x11 x12 ((pieceAdj (F := Ideal) x0 x1 x2 x3 x4 x5 x6 x7 x8 x9 x10 x11 x12 j).1.emb x) := by
  intro x
  obtain ⟨u, n, m, rfl⟩ : ∃ (u : Fin 1) (n m : Fin 200), x = ix3 u n m := ⟨x 0, x 1, x 2, eq_ix3 (n0 := 1) (n1 := 200) (n2 := 200) x⟩
  obtain rfl : u = 0 := Subsingleton.elim _ _
  rw [pieceAdj_val]
  show _ = adjG x0 x1 x2 x3 x4 x5 x6 x7 x8 x9 x10 x11 x12 ((adjRect j).emb (ix3 (0 : Fin 1) n m))
  rw [adjRect_emb]
  rfl

/-! ## Thirty-two stores, last jet first -/

/-- A property of every jet's item holds of every member of the list of the 32 items. -/
theorem forall_mem_jets {α : Type} (f : Fin 32 → α) (P : α → Prop) (h : ∀ j, P (f j)) :
    ∀ p ∈ [f 31, f 30, f 29, f 28, f 27, f 26, f 25, f 24, f 23, f 22, f 21, f 20, f 19, f 18, f 17, f 16, f 15, f 14, f 13, f 12, f 11, f 10, f 9, f 8, f 7, f 6, f 5, f 4, f 3, f 2, f 1, f 0], P p := by
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact h _

/-! ## The two blocks as the 32 stores -/

section Blocks
variable {F : FTy → Type} [FloatOps F]

/-- The readout block is what the 32 readout stores leave, last jet first. -/
theorem out13_eq (x0 : Vec F S32x200x8 .f32) (x1 : Vec F S8x256 .f32) (x2 : Vec F S1x256 .f32)
    (x3 : Vec F S512x256 .f32) (x4 : Vec F S1x256 .f32) (x5 : Vec F S512x256 .f32) (x6 : Vec F S1x256 .f32)
    (x7 : Vec F S512x256 .f32) (x8 : Vec F S1x256 .f32) (x9 : Vec F S256x256 .f32) (x10 : Vec F S1x256 .f32)
    (x11 : Vec F S256x256 .f32) (x12 : Vec F S1x256 .f32) :
    Gen.out0_13 x0 x1 x2 x3 x4 x5 x6 x7 x8 x9 x10 x11 x12
      = View.canon [pieceOut x0 x1 x2 x3 x4 x5 x6 x7 x8 x9 x10 x11 x12 31, pieceOut x0 x1 x2 x3 x4 x5 x6 x7 x8 x9 x10 x11 x12 30, pieceOut x0 x1 x2 x3 x4 x5 x6 x7 x8 x9 x10 x11 x12 29, pieceOut x0 x1 x2 x3 x4 x5 x6 x7 x8 x9 x10 x11 x12 28, pieceOut x0 x1 x2 x3 x4 x5 x6 x7 x8 x9 x10 x11 x12 27, pieceOut x0 x1 x2 x3 x4 x5 x6 x7 x8 x9 x10 x11 x12 26, pieceOut x0 x1 x2 x3 x4 x5 x6 x7 x8 x9 x10 x11 x12 25, pieceOut x0 x1 x2 x3 x4 x5 x6 x7 x8 x9 x10 x11 x12 24, pieceOut x0 x1 x2 x3 x4 x5 x6 x7 x8 x9 x10 x11 x12 23, pieceOut x0 x1 x2 x3 x4 x5 x6 x7 x8 x9 x10 x11 x12 22, pieceOut x0 x1 x2 x3 x4 x5 x6 x7 x8 x9 x10 x11 x12 21, pieceOut x0 x1 x2 x3 x4 x5 x6 x7 x8 x9 x10 x11 x12 20, pieceOut x0 x1 x2 x3 x4 x5 x6 x7 x8 x9 x10 x11 x12 19, pieceOut x0 x1 x2 x3 x4 x5 x6 x7 x8 x9 x10 x11 x12 18, pieceOut x0 x1 x2 x3 x4 x5 x6 x7 x8 x9 x10 x11 x12 17, pieceOut x0 x1 x2 x3 x4 x5 x6 x7 x8 x9 x10 x11 x12 16, pieceOut x0 x1 x2 x3 x4 x5 x6 x7 x8 x9 x10 x11 x12 15, pieceOut x0 x1 x2 x3 x4 x5 x6 x7 x8 x9 x10 x11 x12 14, pieceOut x0 x1 x2 x3 x4 x5 x6 x7 x8 x9 x10 x11 x12 13, pieceOut x0 x1 x2 x3 x4 x5 x6 x7 x8 x9 x10 x11 x12 12, pieceOut x0 x1 x2 x3 x4 x5 x6 x7 x8 x9 x10 x11 x12 11, pieceOut x0 x1 x2 x3 x4 x5 x6 x7 x8 x9 x10 x11 x12 10, pieceOut x0 x1 x2 x3 x4 x5 x6 x7 x8 x9 x10 x11 x12 9, pieceOut x0 x1 x2 x3 x4 x5 x6 x7 x8 x9 x10 x11 x12 8, pieceOut x0 x1 x2 x3 x4 x5 x6 x7 x8 x9 x10 x11 x12 7, pieceOut x0 x1 x2 x3 x4 x5 x6 x7 x8 x9 x10 x11 x12 6, pieceOut x0 x1 x2 x3 x4 x5 x6 x7 x8 x9 x10 x11 x12 5, pieceOut x0 x1 x2 x3 x4 x5 x6 x7 x8 x9 x10 x11 x12 4, pieceOut x0 x1 x2 x3 x4 x5 x6 x7 x8 x9 x10 x11 x12 3, pieceOut x0 x1 x2 x3 x4 x5 x6 x7 x8 x9 x10 x11 x12 2, pieceOut x0 x1 x2 x3 x4 x5 x6 x7 x8 x9 x10 x11 x12 1, pieceOut x0 x1 x2 x3 x4 x5 x6 x7 x8 x9 x10 x11 x12 0] := rfl

/-- The adjacency block is what the 32 adjacency stores leave, last jet first. -/
theorem out14_eq (x0 : Vec F S32x200x8 .f32) (x1 : Vec F S8x256 .f32) (x2 : Vec F S1x256 .f32)
    (x3 : Vec F S512x256 .f32) (x4 : Vec F S1x256 .f32) (x5 : Vec F S512x256 .f32) (x6 : Vec F S1x256 .f32)
    (x7 : Vec F S512x256 .f32) (x8 : Vec F S1x256 .f32) (x9 : Vec F S256x256 .f32) (x10 : Vec F S1x256 .f32)
    (x11 : Vec F S256x256 .f32) (x12 : Vec F S1x256 .f32) :
    Gen.out0_14 x0 x1 x2 x3 x4 x5 x6 x7 x8 x9 x10 x11 x12
      = View.canon [pieceAdj x0 x1 x2 x3 x4 x5 x6 x7 x8 x9 x10 x11 x12 31, pieceAdj x0 x1 x2 x3 x4 x5 x6 x7 x8 x9 x10 x11 x12 30, pieceAdj x0 x1 x2 x3 x4 x5 x6 x7 x8 x9 x10 x11 x12 29, pieceAdj x0 x1 x2 x3 x4 x5 x6 x7 x8 x9 x10 x11 x12 28, pieceAdj x0 x1 x2 x3 x4 x5 x6 x7 x8 x9 x10 x11 x12 27, pieceAdj x0 x1 x2 x3 x4 x5 x6 x7 x8 x9 x10 x11 x12 26, pieceAdj x0 x1 x2 x3 x4 x5 x6 x7 x8 x9 x10 x11 x12 25, pieceAdj x0 x1 x2 x3 x4 x5 x6 x7 x8 x9 x10 x11 x12 24, pieceAdj x0 x1 x2 x3 x4 x5 x6 x7 x8 x9 x10 x11 x12 23, pieceAdj x0 x1 x2 x3 x4 x5 x6 x7 x8 x9 x10 x11 x12 22, pieceAdj x0 x1 x2 x3 x4 x5 x6 x7 x8 x9 x10 x11 x12 21, pieceAdj x0 x1 x2 x3 x4 x5 x6 x7 x8 x9 x10 x11 x12 20, pieceAdj x0 x1 x2 x3 x4 x5 x6 x7 x8 x9 x10 x11 x12 19, pieceAdj x0 x1 x2 x3 x4 x5 x6 x7 x8 x9 x10 x11 x12 18, pieceAdj x0 x1 x2 x3 x4 x5 x6 x7 x8 x9 x10 x11 x12 17, pieceAdj x0 x1 x2 x3 x4 x5 x6 x7 x8 x9 x10 x11 x12 16, pieceAdj x0 x1 x2 x3 x4 x5 x6 x7 x8 x9 x10 x11 x12 15, pieceAdj x0 x1 x2 x3 x4 x5 x6 x7 x8 x9 x10 x11 x12 14, pieceAdj x0 x1 x2 x3 x4 x5 x6 x7 x8 x9 x10 x11 x12 13, pieceAdj x0 x1 x2 x3 x4 x5 x6 x7 x8 x9 x10 x11 x12 12, pieceAdj x0 x1 x2 x3 x4 x5 x6 x7 x8 x9 x10 x11 x12 11, pieceAdj x0 x1 x2 x3 x4 x5 x6 x7 x8 x9 x10 x11 x12 10, pieceAdj x0 x1 x2 x3 x4 x5 x6 x7 x8 x9 x10 x11 x12 9, pieceAdj x0 x1 x2 x3 x4 x5 x6 x7 x8 x9 x10 x11 x12 8, pieceAdj x0 x1 x2 x3 x4 x5 x6 x7 x8 x9 x10 x11 x12 7, pieceAdj x0 x1 x2 x3 x4 x5 x6 x7 x8 x9 x10 x11 x12 6, pieceAdj x0 x1 x2 x3 x4 x5 x6 x7 x8 x9 x10 x11 x12 5, pieceAdj x0 x1 x2 x3 x4 x5 x6 x7 x8 x9 x10 x11 x12 4, pieceAdj x0 x1 x2 x3 x4 x5 x6 x7 x8 x9 x10 x11 x12 3, pieceAdj x0 x1 x2 x3 x4 x5 x6 x7 x8 x9 x10 x11 x12 2, pieceAdj x0 x1 x2 x3 x4 x5 x6 x7 x8 x9 x10 x11 x12 1, pieceAdj x0 x1 x2 x3 x4 x5 x6 x7 x8 x9 x10 x11 x12 0] := rfl

end Blocks

/-- The readout block at (j, 0, d) is the readout of jet j at d. -/
theorem out13_apply (x0 : Vec Ideal S32x200x8 .f32) (x1 : Vec Ideal S8x256 .f32) (x2 : Vec Ideal S1x256 .f32)
    (x3 : Vec Ideal S512x256 .f32) (x4 : Vec Ideal S1x256 .f32) (x5 : Vec Ideal S512x256 .f32) (x6 : Vec Ideal S1x256 .f32)
    (x7 : Vec Ideal S512x256 .f32) (x8 : Vec Ideal S1x256 .f32) (x9 : Vec Ideal S256x256 .f32) (x10 : Vec Ideal S1x256 .f32)
    (x11 : Vec Ideal S256x256 .f32) (x12 : Vec Ideal S1x256 .f32) (j : Fin 32) (d : Fin 256) :
    Gen.out0_13 (F := Ideal) x0 x1 x2 x3 x4 x5 x6 x7 x8 x9 x10 x11 x12 (ix3 j 0 d)
      = Cert.Mpnn.jetOutMul (blkParams x1 x2 x3 x4 x5 x6 x7 x8 x9 x10 x11 x12) (fun n f => x0 (ix3 j n f)) d := by
  rw [out13_eq]
  exact View.canon_apply_of_pieces (outG x0 x1 x2 x3 x4 x5 x6 x7 x8 x9 x10 x11 x12) _
    (forall_mem_jets (pieceOut (F := Ideal) x0 x1 x2 x3 x4 x5 x6 x7 x8 x9 x10 x11 x12) (fun p => ∀ x : p.1.shape.Idx, p.2 x = outG x0 x1 x2 x3 x4 x5 x6 x7 x8 x9 x10 x11 x12 (p.1.emb x))
      (pieceOut_ok x0 x1 x2 x3 x4 x5 x6 x7 x8 x9 x10 x11 x12)) (ix3 j 0 d)
    (Gen.cover0_13 (F := Ideal) _ _ _ _ _ _ _ _ _ _ _ _ _ _ _ _ _ _ _ _ _ _ _ _ _ _ _ _ _ _ _ _ (ix3 j 0 d))

/-- The adjacency block at (j, n, m) is the third round's adjacency of jet j at (n, m). -/
theorem out14_apply (x0 : Vec Ideal S32x200x8 .f32) (x1 : Vec Ideal S8x256 .f32) (x2 : Vec Ideal S1x256 .f32)
    (x3 : Vec Ideal S512x256 .f32) (x4 : Vec Ideal S1x256 .f32) (x5 : Vec Ideal S512x256 .f32) (x6 : Vec Ideal S1x256 .f32)
    (x7 : Vec Ideal S512x256 .f32) (x8 : Vec Ideal S1x256 .f32) (x9 : Vec Ideal S256x256 .f32) (x10 : Vec Ideal S1x256 .f32)
    (x11 : Vec Ideal S256x256 .f32) (x12 : Vec Ideal S1x256 .f32) (j : Fin 32) (n m : Fin 200) :
    Gen.out0_14 (F := Ideal) x0 x1 x2 x3 x4 x5 x6 x7 x8 x9 x10 x11 x12 (ix3 j n m)
      = Cert.Mpnn.jetAdjMul (blkParams x1 x2 x3 x4 x5 x6 x7 x8 x9 x10 x11 x12) (fun n f => x0 (ix3 j n f)) n m := by
  rw [out14_eq]
  exact View.canon_apply_of_pieces (adjG x0 x1 x2 x3 x4 x5 x6 x7 x8 x9 x10 x11 x12) _
    (forall_mem_jets (pieceAdj (F := Ideal) x0 x1 x2 x3 x4 x5 x6 x7 x8 x9 x10 x11 x12) (fun p => ∀ x : p.1.shape.Idx, p.2 x = adjG x0 x1 x2 x3 x4 x5 x6 x7 x8 x9 x10 x11 x12 (p.1.emb x))
      (pieceAdj_ok x0 x1 x2 x3 x4 x5 x6 x7 x8 x9 x10 x11 x12)) (ix3 j n m)
    (Gen.cover0_14 (F := Ideal) _ _ _ _ _ _ _ _ _ _ _ _ _ _ _ _ _ _ _ _ _ _ _ _ _ _ _ _ _ _ _ _ (ix3 j n m))

end Cert.KernelIdeal.JetValue

end
-- ==== Proof.CastRead.lean ====
/-
  Two reshapes read at an index.

  A vector of 256 viewed as one row of 256 reads, at (0, d), the vector at d; a stack of 128 one-row
  matrices of 256 columns viewed as a 128 × 256 matrix reads, at (g, d), the stack at (g, 0, d).  In each
  case the two indices have the same row-major position.
-/
import Idealize.ShloMosaic.Lib.ValueIdx
import Idealize.ShloMosaic.Lib.Pipeline.Value

namespace Cert.Mpnn

open Idealize.ShloMosaic Idealize.ShloMosaic.ValueIdx

/-- A vector of 256 reshaped to a 1 × 256 matrix reads, at (0, d), the vector at d. -/
theorem cast_row256_apply {α : Type} (v : (⟨1, ![256]⟩ : Shape).Idx → α) (h : (⟨1, ![256]⟩ : Shape).ShapeCasts ⟨2, ![1, 256]⟩) (d : Fin 256) :
    shapeCast (⟨2, ![1, 256]⟩ : Shape) v h (ix2 0 d) = v (ix1 d) := by
  refine shapeCast_apply v h (ix2 0 d) (ix1 d) ?_
  rw [Shape.rowMajor_val_one, Shape.rowMajor_val_two]
  show d.val = 0 * 256 + d.val
  omega

/-- A 128 × 1 × 256 array reshaped to a 128 × 256 matrix reads, at (g, d), the array at (g, 0, d). -/
theorem cast_out_apply {α : Type} (v : (⟨3, ![128, 1, 256]⟩ : Shape).Idx → α) (h : (⟨3, ![128, 1, 256]⟩ : Shape).ShapeCasts ⟨2, ![128, 256]⟩) (g : Fin 128) (d : Fin 256) :
    shapeCast (⟨2, ![128, 256]⟩ : Shape) v h (ix2 g d) = v (ix3 g 0 d) := by
  refine shapeCast_apply v h (ix2 g d) (ix3 g 0 d) ?_
  rw [Shape.rowMajor_val_three, Shape.rowMajor_val_two]
  show (g.val * 1 + 0) * 256 + d.val = g.val * 256 + d.val
  omega

end Cert.Mpnn
-- ==== Proof.KernelRun.lean ====
/-
  The kernel program's two result arrays as functions of its thirteen arguments.

  The program views each of the six bias vectors as one row of 256, runs the body at four grid points, and
  views the 128 × 1 × 256 readout array as a 128 × 256 matrix.  Grid point t handles jets 32 t … 32 t + 31:
  its input block is those rows of the jet array, the twelve weight blocks are the weight arrays whole, and
  its two output blocks are rows 32 t … 32 t + 31 of the readout array and of the adjacency array.  By the
  block lemmas, entry (j, ·, ·) of an output block is the network's value on jet j of the input block; jet j
  of block t is jet 32 t + j of the batch.  So each point writes back its block of ONE whole-array function
  of the arguments; the four blocks cover the array; the array ends holding that function, and the final
  view reads the readout matrix off it.
-/
import proofs.«167048_g85813446574462_cont_9to1c4b_288_21_alg».proof.Proof.Gen.KernelIdeal.Frame
import proofs.«167048_g85813446574462_cont_9to1c4b_288_21_alg».proof.Proof.KernelBlock
import proofs.«167048_g85813446574462_cont_9to1c4b_288_21_alg».proof.Proof.CastRead
import proofs.«167048_g85813446574462_cont_9to1c4b_288_21_alg».proof.Proof.SpecArrays
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.RunValue

open Cert.KernelIdeal Cert.KernelIdeal.Gen Cert.KernelIdeal.JetValue Cert.Mpnn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays as the region finds them -/

/-- Bias row 0 as the region finds it is argument 2 viewed as one row of 256. -/
theorem bias0 (c : Dev nD) (d : Fin 256) :
    (V m c main_v0 : S1x256.Idx → EReal) (ix2 0 d) = (m ((c.tc : Thread nD τ).loc main_arg2) : S256.Idx → EReal) (ix1 d) := by
  have e : (V m c main_v0 : S1x256.Idx → EReal) = shapeCast S1x256 (m ((c.tc : Thread nD τ).loc main_arg2)) shapeCasts_S256_S1x256 := by
    dsimp only [Gen.V, Gen.V0]
    simp only [Gen.hostOps0, List.flatten_cons, List.flatten_nil, List.append_nil]
    after_results; rfl
  rw [e]; exact cast_row256_apply _ _ d

/-- Bias row 1 as the region finds it is argument 4 viewed as one row of 256. -/
theorem bias1 (c : Dev nD) (d : Fin 256) :
    (V m c main_v1 : S1x256.Idx → EReal) (ix2 0 d) = (m ((c.tc : Thread nD τ).loc main_arg4) : S256.Idx → EReal) (ix1 d) := by
  have e : (V m c main_v1 : S1x256.Idx → EReal) = shapeCast S1x256 (m ((c.tc : Thread nD τ).loc main_arg4)) shapeCasts_S256_S1x256 := by
    dsimp only [Gen.V, Gen.V0]
    simp only [Gen.hostOps0, List.flatten_cons, List.flatten_nil, List.append_nil]
    after_results; rfl
  rw [e]; exact cast_row256_apply _ _ d

/-- Bias row 2 as the region finds it is argument 6 viewed as one row of 256. -/
theorem bias2 (c : Dev nD) (d : Fin 256) :
    (V m c main_v2 : S1x256.Idx → EReal) (ix2 0 d) = (m ((c.tc : Thread nD τ).loc main_arg6) : S256.Idx → EReal) (ix1 d) := by
  have e : (V m c main_v2 : S1x256.Idx → EReal) = shapeCast S1x256 (m ((c.tc : Thread nD τ).loc main_arg6)) shapeCasts_S256_S1x256 := by
    dsimp only [Gen.V, Gen.V0]
    simp only [Gen.hostOps0, List.flatten_cons, List.flatten_nil, List.append_nil]
    after_results; rfl
  rw [e]; exact cast_row256_apply _ _ d

/-- Bias row 3 as the region finds it is argument 8 viewed as one row of 256. -/
theorem bias3 (c : Dev nD) (d : Fin 256) :
    (V m c main_v3 : S1x256.Idx → EReal) (ix2 0 d) = (m ((c.tc : Thread nD τ).loc main_arg8) : S256.Idx → EReal) (ix1 d) := by
  have e : (V m c main_v3 : S1x256.Idx → EReal) = shapeCast S1x256 (m ((c.tc : Thread nD τ).loc main_arg8)) shapeCasts_S256_S1x256 := by
    dsimp only [Gen.V, Gen.V0]
    simp only [Gen.hostOps0, List.flatten_cons, List.flatten_nil, List.append_nil]
    after_results; rfl
  rw [e]; exact cast_row256_apply _ _ d

/-- Bias row 4 as the region finds it is argument 10 viewed as one row of 256. -/
theorem bias4 (c : Dev nD) (d : Fin 256) :
    (V m c main_v4 : S1x256.Idx → EReal) (ix2 0 d) = (m ((c.tc : Thread nD τ).loc main_arg10) : S256.Idx → EReal) (ix1 d) := by
  have e : (V m c main_v4 : S1x256.Idx → EReal) = shapeCast S1x256 (m ((c.tc : Thread nD τ).loc main_arg10)) shapeCasts_S256_S1x256 := by
    dsimp only [Gen.V, Gen.V0]
    simp only [Gen.hostOps0, List.flatten_cons, List.flatten_nil, List.append_nil]
    after_results; rfl
  rw [e]; exact cast_row256_apply _ _ d

/-- Bias row 5 as the region finds it is argument 12 viewed as one row of 256. -/
theorem bias5 (c : Dev nD) (d : Fin 256) :
    (V m c main_v5 : S1x256.Idx → EReal) (ix2 0 d) = (m ((c.tc : Thread nD τ).loc main_arg12) : S256.Idx → EReal) (ix1 d) := by
  have e : (V m c main_v5 : S1x256.Idx → EReal) = shapeCast S1x256 (m ((c.tc : Thread nD τ).loc main_arg12)) shapeCasts_S256_S1x256 := by
    dsimp only [Gen.V, Gen.V0]
    simp only [Gen.hostOps0, List.flatten_cons, List.flatten_nil, List.append_nil]
    after_results; rfl
  rw [e]; exact cast_row256_apply _ _ d

/-- The weights the body reads off its blocks are the weights read off the arguments as launched. -/
theorem params_eq (c : Dev nD) :
    blkParams (V m c main_arg1) (V m c main_v0) (V m c main_arg3) (V m c main_v1) (V m c main_arg5) (V m c main_v2)
        (V m c main_arg7) (V m c main_v3) (V m c main_arg9) (V m c main_v4) (V m c main_arg11) (V m c main_v5)
      = argParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [V_main_arg1, V_main_arg3, V_main_arg5, V_main_arg7, V_main_arg9, V_main_arg11]
  unfold blkParams argParams
  congr 1
  · funext d; exact bias0 m c d
  · funext d; exact bias1 m c d
  · funext d; exact bias2 m c d
  · funext d; exact bias3 m c d
  · funext d; exact bias4 m c d
  · funext d; exact bias5 m c d

/-! ## The index maps, decided over the four grid points -/

/-- The jet window, the readout window and the adjacency window are at block (t, 0, 0) at point t. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx13 : ∀ t : Fin cfg0.N, win0_13.index t (0 : Fin 3) = t.val ∧ win0_13.index t (1 : Fin 3) = 0 ∧ win0_13.index t (2 : Fin 3) = 0 :=
  (by decide +kernel : ∀ t : Fin grid0.N, _)
theorem idx14 : ∀ t : Fin cfg0.N, win0_14.index t (0 : Fin 3) = t.val ∧ win0_14.index t (1 : Fin 3) = 0 ∧ win0_14.index t (2 : Fin 3) = 0 :=
  (by decide +kernel : ∀ t : Fin grid0.N, _)
/-- Weight window 1 is at block (0, 0) at every point. -/
theorem idxW1 : ∀ t : Fin cfg0.N, win0_1.index t (0 : Fin 2) = 0 ∧ win0_1.index t (1 : Fin 2) = 0 :=
  (by decide +kernel : ∀ t : Fin grid0.N, _)
/-- Weight window 2 is at block (0, 0) at every point. -/
theorem idxW2 : ∀ t : Fin cfg0.N, win0_2.index t (0 : Fin 2) = 0 ∧ win0_2.index t (1 : Fin 2) = 0 :=
  (by decide +kernel : ∀ t : Fin grid0.N, _)
/-- Weight window 3 is at block (0, 0) at every point. -/
theorem idxW3 : ∀ t : Fin cfg0.N, win0_3.index t (0 : Fin 2) = 0 ∧ win0_3.index t (1 : Fin 2) = 0 :=
  (by decide +kernel : ∀ t : Fin grid0.N, _)
/-- Weight window 4 is at block (0, 0) at every point. -/
theorem idxW4 : ∀ t : Fin cfg0.N, win0_4.index t (0 : Fin 2) = 0 ∧ win0_4.index t (1 : Fin 2) = 0 :=
  (by decide +kernel : ∀ t : Fin grid0.N, _)
/-- Weight window 5 is at block (0, 0) at every point. -/
theorem idxW5 : ∀ t : Fin cfg0.N, win0_5.index t (0 : Fin 2) = 0 ∧ win0_5.index t (1 : Fin 2) = 0 :=
  (by decide +kernel : ∀ t : Fin grid0.N, _)
/-- Weight window 6 is at block (0, 0) at every point. -/
theorem idxW6 : ∀ t : Fin cfg0.N, win0_6.index t (0 : Fin 2) = 0 ∧ win0_6.index t (1 : Fin 2) = 0 :=
  (by decide +kernel : ∀ t : Fin grid0.N, _)
/-- Weight window 7 is at block (0, 0) at every point. -/
theorem idxW7 : ∀ t : Fin cfg0.N, win0_7.index t (0 : Fin 2) = 0 ∧ win0_7.index t (1 : Fin 2) = 0 :=
  (by decide +kernel : ∀ t : Fin grid0.N, _)
/-- Weight window 8 is at block (0, 0) at every point. -/
theorem idxW8 : ∀ t : Fin cfg0.N, win0_8.index t (0 : Fin 2) = 0 ∧ win0_8.index t (1 : Fin 2) = 0 :=
  (by decide +kernel : ∀ t : Fin grid0.N, _)
/-- Weight window 9 is at block (0, 0) at every point. -/
theorem idxW9 : ∀ t : Fin cfg0.N, win0_9.index t (0 : Fin 2) = 0 ∧ win0_9.index t (1 : Fin 2) = 0 :=
  (by decide +kernel : ∀ t : Fin grid0.N, _)
/-- Weight window 10 is at block (0, 0) at every point. -/
theorem idxW10 : ∀ t : Fin cfg0.N, win0_10.index t (0 : Fin 2) = 0 ∧ win0_10.index t (1 : Fin 2) = 0 :=
  (by decide +kernel : ∀ t : Fin grid0.N, _)
/-- Weight window 11 is at block (0, 0) at every point. -/
theorem idxW11 : ∀ t : Fin cfg0.N, win0_11.index t (0 : Fin 2) = 0 ∧ win0_11.index t (1 : Fin 2) = 0 :=
  (by decide +kernel : ∀ t : Fin grid0.N, _)
/-- Weight window 12 is at block (0, 0) at every point. -/
theorem idxW12 : ∀ t : Fin cfg0.N, win0_12.index t (0 : Fin 2) = 0 ∧ win0_12.index t (1 : Fin 2) = 0 :=
  (by decide +kernel : ∀ t : Fin grid0.N, _)

/-! ## Each input block, read off its array -/

/-- Window 1's block at every point is its whole array. -/
theorem iblk1 (c : Dev nD) (t : Fin cfg0.N) : (iblk m c 1 t : Vec Ideal S8x256 .f32) = V m c main_arg1 := by
  obtain ⟨e0, e1⟩ := idxW1 t
  funext y
  unfold iblk
  rw [View.read_apply]
  show V m c main_arg1 _ = V m c main_arg1 y
  congr 1
  funext a; apply Fin.ext
  match a with
  | ⟨0, _⟩ => show win0_1.index t (0 : Fin 2) * 8 + 1 * (y 0).val = (y 0).val; rw [e0]; omega
  | ⟨1, _⟩ => show win0_1.index t (1 : Fin 2) * 256 + 1 * (y 1).val = (y 1).val; rw [e1]; omega

/-- Window 2's block at every point is its whole array. -/
theorem iblk2 (c : Dev nD) (t : Fin cfg0.N) : (iblk m c 2 t : Vec Ideal S1x256 .f32) = V m c main_v0 := by
  obtain ⟨e0, e1⟩ := idxW2 t
  funext y
  unfold iblk
  rw [View.read_apply]
  show V m c main_v0 _ = V m c main_v0 y
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- Window 3's block at every point is its whole array. -/
theorem iblk3 (c : Dev nD) (t : Fin cfg0.N) : (iblk m c 3 t : Vec Ideal S512x256 .f32) = V m c main_arg3 := by
  obtain ⟨e0, e1⟩ := idxW3 t
  funext y
  unfold iblk
  rw [View.read_apply]
  show V m c main_arg3 _ = V m c main_arg3 y
  congr 1
  funext a; apply Fin.ext
  match a with
  | ⟨0, _⟩ => show win0_3.index t (0 : Fin 2) * 512 + 1 * (y 0).val = (y 0).val; rw [e0]; omega
  | ⟨1, _⟩ => show win0_3.index t (1 : Fin 2) * 256 + 1 * (y 1).val = (y 1).val; rw [e1]; omega

/-- Window 4's block at every point is its whole array. -/
theorem iblk4 (c : Dev nD) (t : Fin cfg0.N) : (iblk m c 4 t : Vec Ideal S1x256 .f32) = V m c main_v1 := by
  obtain ⟨e0, e1⟩ := idxW4 t
  funext y
  unfold iblk
  rw [View.read_apply]
  show V m c main_v1 _ = V m c main_v1 y
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- Window 5's block at every point is its whole array. -/
theorem iblk5 (c : Dev nD) (t : Fin cfg0.N) : (iblk m c 5 t : Vec Ideal S512x256 .f32) = V m c main_arg5 := by
  obtain ⟨e0, e1⟩ := idxW5 t
  funext y
  unfold iblk
  rw [View.read_apply]
  show V m c main_arg5 _ = V m c main_arg5 y
  congr 1
  funext a; apply Fin.ext
  match a with
  | ⟨0, _⟩ => show win0_5.index t (0 : Fin 2) * 512 + 1 * (y 0).val = (y 0).val; rw [e0]; omega
  | ⟨1, _⟩ => show win0_5.index t (1 : Fin 2) * 256 + 1 * (y 1).val = (y 1).val; rw [e1]; omega

/-- Window 6's block at every point is its whole array. -/
theorem iblk6 (c : Dev nD) (t : Fin cfg0.N) : (iblk m c 6 t : Vec Ideal S1x256 .f32) = V m c main_v2 := by
  obtain ⟨e0, e1⟩ := idxW6 t
  funext y
  unfold iblk
  rw [View.read_apply]
  show V m c main_v2 _ = V m c main_v2 y
  congr 1
  funext a; apply Fin.ext
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega

/-- Window 7's block at every point is its whole array. -/
theorem iblk7 (c : Dev nD) (t : Fin cfg0.N) : (iblk m c 7 t : Vec Ideal S512x256 .f32) = V m c main_arg7 := by
  obtain ⟨e0, e1⟩ := idxW7 t
  funext y
  unfold iblk
  rw [View.read_apply]
  show V m c main_arg7 _ = V m c main_arg7 y
  congr 1
  funext a; apply Fin.ext
  match a with
  | ⟨0, _⟩ => show win0_7.index t (0 : Fin 2) * 512 + 1 * (y 0).val = (y 0).val; rw [e0]; omega
  | ⟨1, _⟩ => show win0_7.index t (1 : Fin 2) * 256 + 1 * (y 1).val = (y 1).val; rw [e1]; omega

/-- Window 8's block at every point is its whole array. -/
theorem iblk8 (c : Dev nD) (t : Fin cfg0.N) : (iblk m c 8 t : Vec Ideal S1x256 .f32) = V m c main_v3 := by
  obtain ⟨e0, e1⟩ := idxW8 t
  funext y
  unfold iblk
  rw [View.read_apply]
  show V m c main_v3 _ = V m c main_v3 y
  congr 1
  funext a; apply Fin.ext
  match a with
  | ⟨0, _⟩ => show win0_8.index t (0 : Fin 2) * 1 + 1 * (y 0).val = (y 0).val; rw [e0]; omega
  | ⟨1, _⟩ => show win0_8.index t (1 : Fin 2) * 256 + 1 * (y 1).val = (y 1).val; rw [e1]; omega

/-- Window 9's block at every point is its whole array. -/
theorem iblk9 (c : Dev nD) (t : Fin cfg0.N) : (iblk m c 9 t : Vec Ideal S256x256 .f32) = V m c main_arg9 := by
  obtain ⟨e0, e1⟩ := idxW9 t
  funext y
  unfold iblk
  rw [View.read_apply]
  show V m c main_arg9 _ = V m c main_arg9 y
  congr 1
  funext a; apply Fin.ext
  match a with
  | ⟨0, _⟩ => show win0_9.index t (0 : Fin 2) * 256 + 1 * (y 0).val = (y 0).val; rw [e0]; omega
  | ⟨1, _⟩ => show win0_9.index t (1 : Fin 2) * 256 + 1 * (y 1).val = (y 1).val; rw [e1]; omega

/-- Window 10's block at every point is its whole array. -/
theorem iblk10 (c : Dev nD) (t : Fin cfg0.N) : (iblk m c 10 t : Vec Ideal S1x256 .f32) = V m c main_v4 := by
  obtain ⟨e0, e1⟩ := idxW10 t
  funext y
  unfold iblk
  rw [View.read_apply]
  show V m c main_v4 _ = V m c main_v4 y
  congr 1
  funext a; apply Fin.ext
  match a with
  | ⟨0, _⟩ => show win0_10.index t (0 : Fin 2) * 1 + 1 * (y 0).val = (y 0).val; rw [e0]; omega
  | ⟨1, _⟩ => show win0_10.index t (1 : Fin 2) * 256 + 1 * (y 1).val = (y 1).val; rw [e1]; omega

/-- Window 11's block at every point is its whole array. -/
theorem iblk11 (c : Dev nD) (t : Fin cfg0.N) : (iblk m c 11 t : Vec Ideal S256x256 .f32) = V m c main_arg11 := by
  obtain ⟨e0, e1⟩ := idxW11 t
  funext y
  unfold iblk
  rw [View.read_apply]
  show V m c main_arg11 _ = V m c main_arg11 y
  congr 1
  funext a; apply Fin.ext
  match a with
  | ⟨0, _⟩ => show win0_11.index t (0 : Fin 2) * 256 + 1 * (y 0).val = (y 0).val; rw [e0]; omega
  | ⟨1, _⟩ => show win0_11.index t (1 : Fin 2) * 256 + 1 * (y 1).val = (y 1).val; rw [e1]; omega

/-- Window 12's block at every point is its whole array. -/
theorem iblk12 (c : Dev nD) (t : Fin cfg0.N) : (iblk m c 12 t : Vec Ideal S1x256 .f32) = V m c main_v5 := by
  obtain ⟨e0, e1⟩ := idxW12 t
  funext y
  unfold iblk
  rw [View.read_apply]
  show V m c main_v5 _ = V m c main_v5 y
  congr 1
  funext a; apply Fin.ext
  match a with
  | ⟨0, _⟩ => show win0_12.index t (0 : Fin 2) * 1 + 1 * (y 0).val = (y 0).val; rw [e0]; omega
  | ⟨1, _⟩ => show win0_12.index t (1 : Fin 2) * 256 + 1 * (y 1).val = (y 1).val; rw [e1]; omega

/-- There are four grid points. -/
theorem t_lt (t : Fin cfg0.N) : t.val < 4 := by
  exact Nat.lt_of_lt_of_eq t.isLt (show cfg0.N = 4 from N_0)

/-- Jet j of point t's block is jet 32 t + j of the batch. -/
def jetIx (t : Fin cfg0.N) (j : Fin 32) : Fin 128 := ⟨32 * t.val + j.val, by have := t_lt t; omega⟩

/-- The jet window's block at point t is rows 32 t … 32 t + 31 of the jet array. -/
theorem iblk0_apply (c : Dev nD) (t : Fin cfg0.N) (j : Fin 32) (n : Fin 200) (f : Fin 8) :
    (iblk m c 0 t : Vec Ideal S32x200x8 .f32) (ix3 j n f)
      = (m ((c.tc : Thread nD τ).loc main_arg0) : S128x200x8.Idx → EReal) (ix3 (jetIx t j) n f) := by
  obtain ⟨e0, e1, e2⟩ := idx0 t
  unfold iblk
  rw [View.read_apply]
  show V m c main_arg0 _ = m ((c.tc : Thread nD τ).loc main_arg0) _
  rw [V_main_arg0]
  congr 1
  funext a; apply Fin.ext
  match a with
  | ⟨0, _⟩ => show win0_0.index t (0 : Fin 3) * 32 + 1 * j.val = 32 * t.val + j.val; rw [e0]; omega
  | ⟨1, _⟩ => show win0_0.index t (1 : Fin 3) * 200 + 1 * n.val = n.val; rw [e1]; omega
  | ⟨2, _⟩ => show win0_0.index t (2 : Fin 3) * 8 + 1 * f.val = f.val; rw [e2]; omega

/-! ## The weights and the two whole-array functions -/

/-- The weights read off the twelve weight arguments as launched. -/
abbrev P (c : Dev nD) : Params := argParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- The readout array: entry (g, 0, d) is the readout of jet g at d. -/
abbrev G13 (c : Dev nD) : S128x1x256.Idx → EReal := fun i => jetOutMul (P m c) (jetOf (m ((c.tc : Thread nD τ).loc main_arg0)) (i 0)) (i 2)

/-- The adjacency array: slice g is the third round's adjacency of jet g. -/
abbrev G14 (c : Dev nD) : S128x200x200.Idx → EReal := wholeAdjMul (P m c) (m ((c.tc : Thread nD τ).loc main_arg0))

/-! ## What a point writes back -/

/-- The readout block of a body run on a block of 32 jets that are jets g 0 … g 31 of a batch. -/
theorem out13_blk (x0 : Vec Ideal S32x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (b0 : S128x200x8.Idx → EReal) (g : Fin 32 → Fin 128)
    (h0 : ∀ j n f, x0 (ix3 j n f) = b0 (ix3 (g j) n f)) (y : S32x1x256.Idx) :
    Gen.out0_13 (F := Ideal) x0 x1 x2 x3 x4 x5 x6 x7 x8 x9 x10 x11 x12 y
      = jetOutMul (blkParams x1 x2 x3 x4 x5 x6 x7 x8 x9 x10 x11 x12) (jetOf b0 (g (y 0))) (y 2) := by
  obtain ⟨j, z, d, rfl⟩ : ∃ j z d, y = ix3 j z d := ⟨y 0, y 1, y 2, eq_ix3 y⟩
  obtain rfl : z = 0 := Subsingleton.elim _ _
  rw [out13_apply]
  show jetOutMul _ (fun n f => x0 (ix3 j n f)) d = jetOutMul _ (fun n f => b0 (ix3 (g j) n f)) d
  congr 1
  funext n f
  exact h0 j n f

/-- The adjacency block of a body run on a block of 32 jets that are jets g 0 … g 31 of a batch. -/
theorem out14_blk (x0 : Vec Ideal S32x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (b0 : S128x200x8.Idx → EReal) (g : Fin 32 → Fin 128)
    (h0 : ∀ j n f, x0 (ix3 j n f) = b0 (ix3 (g j) n f)) (y : S32x200x200.Idx) :
    Gen.out0_14 (F := Ideal) x0 x1 x2 x3 x4 x5 x6 x7 x8 x9 x10 x11 x12 y
      = jetAdjMul (blkParams x1 x2 x3 x4 x5 x6 x7 x8 x9 x10 x11 x12) (jetOf b0 (g (y 0))) (y 1) (y 2) := by
  obtain ⟨j, n', m', rfl⟩ : ∃ j n' m', y = ix3 j n' m' := ⟨y 0, y 1, y 2, eq_ix3 y⟩
  rw [out14_apply]
  show jetAdjMul _ (fun n f => x0 (ix3 j n f)) n' m' = jetAdjMul _ (fun n f => b0 (ix3 (g j) n f)) n' m'
  congr 1
  funext n f
  exact h0 j n f

/-- Point t writes back its block of the readout array. -/
theorem flushed13_eq (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  obtain ⟨e0, e1, e2⟩ := idx13 t
  funext y
  refine (out13_blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (m ((c.tc : Thread nD τ).loc main_arg0)) (jetIx t) (fun j n f => iblk0_apply m c t j n f) y).trans ?_
  rw [iblk1 m c t, iblk2 m c t, iblk3 m c t, iblk4 m c t, iblk5 m c t, iblk6 m c t, iblk7 m c t, iblk8 m c t, iblk9 m c t, iblk10 m c t, iblk11 m c t, iblk12 m c t, params_eq m c, View.read_apply]
  have h0 : (((cfg0.win 13).blk t).view.emb y) 0 = jetIx t (y 0) := Fin.ext (by
    show win0_13.index t (0 : Fin 3) * 32 + 1 * (y 0).val = 32 * t.val + (y 0).val; rw [e0]; omega)
  have h2 : (((cfg0.win 13).blk t).view.emb y) 2 = y 2 := Fin.ext (by
    show win0_13.index t (2 : Fin 3) * 256 + 1 * (y 2).val = (y 2).val; rw [e2]; omega)
  show jetOutMul _ (jetOf _ (jetIx t (y 0))) (y 2) = jetOutMul _ (jetOf _ ((((cfg0.win 13).blk t).view.emb y) 0)) ((((cfg0.win 13).blk t).view.emb y) 2)
  rw [h0, h2]

/-- Point t writes back its block of the adjacency array. -/
theorem flushed14_eq (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after0_14]
  obtain ⟨e0, e1, e2⟩ := idx14 t
  funext y
  refine (out14_blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (m ((c.tc : Thread nD τ).loc main_arg0)) (jetIx t) (fun j n f => iblk0_apply m c t j n f) y).trans ?_
  rw [iblk1 m c t, iblk2 m c t, iblk3 m c t, iblk4 m c t, iblk5 m c t, iblk6 m c t, iblk7 m c t, iblk8 m c t, iblk9 m c t, iblk10 m c t, iblk11 m c t, iblk12 m c t, params_eq m c, View.read_apply]
  have h0 : (((cfg0.win 14).blk t).view.emb y) 0 = jetIx t (y 0) := Fin.ext (by
    show win0_14.index t (0 : Fin 3) * 32 + 1 * (y 0).val = 32 * t.val + (y 0).val; rw [e0]; omega)
  have h1 : (((cfg0.win 14).blk t).view.emb y) 1 = y 1 := Fin.ext (by
    show win0_14.index t (1 : Fin 3) * 200 + 1 * (y 1).val = (y 1).val; rw [e1]; omega)
  have h2 : (((cfg0.win 14).blk t).view.emb y) 2 = y 2 := Fin.ext (by
    show win0_14.index t (2 : Fin 3) * 200 + 1 * (y 2).val = (y 2).val; rw [e2]; omega)
  show jetAdjMul _ (jetOf _ (jetIx t (y 0))) (y 1) (y 2) = jetAdjMul _ (jetOf _ ((((cfg0.win 14).blk t).view.emb y) 0)) ((((cfg0.win 14).blk t).view.emb y) 1) ((((cfg0.win 14).blk t).view.emb y) 2)
  rw [h0, h1, h2]

/-! ## The four blocks cover each array -/

/-- An index of the readout array is in point t's block iff each coordinate is in the block's range. -/
theorem mem_blk13 (t : Fin cfg0.N) (i : S128x1x256.Idx) :
    i ∈ ((cfg0.win 13).blk t).view.set ↔ ∀ a : Fin 3, win0_13.index t a * S32x1x256.size a ≤ (i a).val ∧ (i a).val < win0_13.index t a * S32x1x256.size a + S32x1x256.size a := by
  show i ∈ ((View.whole main_v6_0).slice (win0_13.rect t)).set ↔ _
  rw [View.set_slice_whole, Rect.mem_set_unit]
  exact Iff.rfl

/-- An index of the adjacency array is in point t's block iff each coordinate is in the block's range. -/
theorem mem_blk14 (t : Fin cfg0.N) (i : S128x200x200.Idx) :
    i ∈ ((cfg0.win 14).blk t).view.set ↔ ∀ a : Fin 3, win0_14.index t a * S32x200x200.size a ≤ (i a).val ∧ (i a).val < win0_14.index t a * S32x200x200.size a + S32x200x200.size a := by
  show i ∈ ((View.whole main_v6_1).slice (win0_14.rect t)).set ↔ _
  rw [View.set_slice_whole, Rect.mem_set_unit]
  exact Iff.rfl

/-- Row g of the readout array lies in the block of point g / 32. -/
theorem cover13 (i : S128x1x256.Idx) :
    ∃ t : Fin cfg0.N, (cfg0.win 13).flush t = true ∧ i ∈ ((cfg0.win 13).blk t).view.set := by
  have hi0 : (i 0).val < 128 := (i 0).isLt
  have hi1 : (i 1).val < 1 := (i 1).isLt
  have hi2 : (i 2).val < 256 := (i 2).isLt
  have hN : (i 0).val / 32 < cfg0.N := by rw [show cfg0.N = 4 from N_0]; omega
  obtain ⟨e0, e1, e2⟩ := idx13 ⟨(i 0).val / 32, hN⟩
  have e0' : win0_13.index ⟨(i 0).val / 32, hN⟩ (0 : Fin 3) = (i 0).val / 32 := e0
  refine ⟨⟨(i 0).val / 32, hN⟩, flush0_13 _, ?_⟩
  rw [mem_blk13]
  intro a
  match a with
  | ⟨0, _⟩ => show win0_13.index ⟨(i 0).val / 32, hN⟩ (0 : Fin 3) * 32 ≤ (i 0).val ∧ (i 0).val < win0_13.index ⟨(i 0).val / 32, hN⟩ (0 : Fin 3) * 32 + 32; rw [e0']; omega
  | ⟨1, _⟩ => show win0_13.index ⟨(i 0).val / 32, hN⟩ (1 : Fin 3) * 1 ≤ (i 1).val ∧ (i 1).val < win0_13.index ⟨(i 0).val / 32, hN⟩ (1 : Fin 3) * 1 + 1; rw [e1]; omega
  | ⟨2, _⟩ => show win0_13.index ⟨(i 0).val / 32, hN⟩ (2 : Fin 3) * 256 ≤ (i 2).val ∧ (i 2).val < win0_13.index ⟨(i 0).val / 32, hN⟩ (2 : Fin 3) * 256 + 256; rw [e2]; omega

/-- Slice g of the adjacency array lies in the block of point g / 32. -/
theorem cover14 (i : S128x200x200.Idx) :
    ∃ t : Fin cfg0.N, (cfg0.win 14).flush t = true ∧ i ∈ ((cfg0.win 14).blk t).view.set := by
  have hi0 : (i 0).val < 128 := (i 0).isLt
  have hi1 : (i 1).val < 200 := (i 1).isLt
  have hi2 : (i 2).val < 200 := (i 2).isLt
  have hN : (i 0).val / 32 < cfg0.N := by rw [show cfg0.N = 4 from N_0]; omega
  obtain ⟨e0, e1, e2⟩ := idx14 ⟨(i 0).val / 32, hN⟩
  have e0' : win0_14.index ⟨(i 0).val / 32, hN⟩ (0 : Fin 3) = (i 0).val / 32 := e0
  refine ⟨⟨(i 0).val / 32, hN⟩, flush0_14 _, ?_⟩
  rw [mem_blk14]
  intro a
  match a with
  | ⟨0, _⟩ => show win0_14.index ⟨(i 0).val / 32, hN⟩ (0 : Fin 3) * 32 ≤ (i 0).val ∧ (i 0).val < win0_14.index ⟨(i 0).val / 32, hN⟩ (0 : Fin 3) * 32 + 32; rw [e0']; omega
  | ⟨1, _⟩ => show win0_14.index ⟨(i 0).val / 32, hN⟩ (1 : Fin 3) * 200 ≤ (i 1).val ∧ (i 1).val < win0_14.index ⟨(i 0).val / 32, hN⟩ (1 : Fin 3) * 200 + 200; rw [e1]; omega
  | ⟨2, _⟩ => show win0_14.index ⟨(i 0).val / 32, hN⟩ (2 : Fin 3) * 200 ≤ (i 2).val ∧ (i 2).val < win0_14.index ⟨(i 0).val / 32, hN⟩ (2 : Fin 3) * 200 + 200; rw [e2]; omega

/-! ## The arrays after the region -/

/-- The readout array ends holding the readout of every jet. -/
theorem final13 (c : Dev nD) : (dats m 0 c).arrAt 13 cfg0.N = G13 m c :=
  (dats m 0 c).arrAt_eq_of_cover 13 (G13 m c) (fun t _ => flushed13_eq m c t) cover13

/-- The adjacency array ends holding the third round's adjacency of every jet. -/
theorem final14 (c : Dev nD) : (dats m 0 c).arrAt 14 cfg0.N = G14 m c :=
  (dats m 0 c).arrAt_eq_of_cover 14 (G14 m c) (fun t _ => flushed14_eq m c t) cover14

/-! ## The view after the region -/

/-- The readout matrix: the readout array viewed as 128 × 256. -/
theorem tail_v7 (c : Dev nD) :
    Pipeline.afterTail₀ cfgs (dats m) 0 (V0 m) [hostOps1] c main_v7 = wholeOutMul (P m c) (m ((c.tc : Thread nD τ).loc main_arg0)) := by
  unfold Pipeline.afterTail₀
  show StableHlo.after hostOps1 _ (Proc.devRef .tc main_v7) = _
  after_results
  rw [(Pipeline.withArrays_arr spec0 launch0.win.arr_inj c _ _ 13).trans (final13 m c)]
  funext i
  obtain ⟨g, d, rfl⟩ : ∃ g d, i = ix2 g d := ⟨i 0, i 1, eq_ix2 i⟩
  show shapeCast S128x256 (G13 m c) shapeCasts_S128x1x256_S128x256 (ix2 g d) = _
  rw [cast_out_apply]
  rfl

/-! ## The run, read -/

/-- Every fair execution of the program terminates with the readout matrix and the adjacency array at the
    network's values on the arguments as launched, and the arguments unchanged. -/
theorem run : θ_run (defs (F := Ideal)) (onTc (τ := τ) (main (F := Ideal))) ⟨m, fun _ => 0, ρ⟩ (fun r => ∀ c : Dev nD,
      r.2.mem ((c.tc : Thread nD τ).loc main_v7) = wholeOutMul (argParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg0))
      ∧ r.2.mem ((c.tc : Thread nD τ).loc main_v6_1) = wholeAdjMul (argParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun r h c =>
    ⟨((h c).2 main_v7 (Pipeline.mem_restRefs_of main_v7 (by decide) (by decide))).trans (tail_v7 m c),
      ((h c).1 14).trans (final14 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      ((h c).1 11).trans (((dats m 0 c).arrAt_in 11 rfl _).trans ((A_eq m c 11).trans (V_main_arg11 m c))),
      (((h c).2 main_arg12 (Pipeline.mem_restRefs_of main_arg12 (by decide) (by decide))).trans (W_main_arg12 m (dats m) c))⟩)
    (run_main m ρ)

end Cert.KernelIdeal.RunValue

end
-- ==== Proof.RefStages.lean ====
/-
  The reference's stages over the whole batch, spelt with its own operations.

  The reference computes all 128 jets at once: an embedding (a contraction of the feature axis, a bias
  broadcast over batch and nodes, tanh), three rounds (the batched products h hᵀ scaled by 1/16, the row
  maximum taken with -∞, the shifted exponentials, their row sums, the quotient; the batched product A h;
  the concatenation [h, A h] contracted with the 512-row weight, a bias, tanh), and a readout (two layers
  of 256, the second's result summed over the node axis).  Each stage is named here once; the three rounds
  are one definition at three weights.
-/
import proofs.«167048_g85813446574462_cont_9to1c4b_288_21_alg».proof.ReferenceIdeal
import proofs.«167048_g85813446574462_cont_9to1c4b_288_21_alg».proof.Proof.Gen.ReferenceIdeal
import proofs.«167048_g85813446574462_cont_9to1c4b_288_21_alg».proof.Proof.SpecArrays

noncomputable section

namespace Cert.ReferenceIdeal.RefValue

open Idealize.ShloMosaic Cert.ReferenceIdeal Cert.ReferenceIdeal.Gen

variable {F : FTy → Type} [FloatOps F]

/-- A bias vector copied to every jet and node. -/
def biasB (b : FVec F S256 .f32) : FVec F S128x200x256 .f32 :=
  broadcastInDim S128x200x256 ![0, 1, 2] bcast_S1x1x256_S128x200x256_0_1_2 (broadcastInDim S1x1x256 ![2] bcast_S256_S1x1x256_2 b)

/-- The embedding layer over the batch. -/
def rEmbed (a0 : FVec F S128x200x8 .f32) (a1 : FVec F S8x256 .f32) (a2 : FVec F S256 .f32) : FVec F S128x200x256 .f32 :=
  Host.tanh (addf (Host.dotGeneral dot_S128x200x8_S8x256_S128x200x256_2_0_01_1_n_n none a0 a1) (biasB a2))

/-- The scaled products h hᵀ, jet by jet. -/
def rLogits (h : FVec F S128x200x256 .f32) : FVec F S128x200x200 .f32 :=
  mulf (Host.dotGeneral dot_S128x200x256_S128x200x256_S128x200x200_2_2_1_1_0_0 none h h)
    (broadcastInDim S128x200x200 ![] bcast_S_S128x200x200 (constant S_ .f32 0x3D800000#32))

/-- Each row's maximum, taken from -∞ and once more with -∞. -/
def rRowMax (l : FVec F S128x200x200 .f32) : FVec F S128x200 .f32 :=
  maximumf (broadcastInDim S128x200 ![] bcast_S_S128x200 (constant S_ .f32 0xFF800000#32))
    (Host.reduce FloatOps.maximumf l (constant S_ .f32 0xFF800000#32) reducesTo_S128x200x200_S128x200_d2 h_S_)

/-- A value per row copied along the row. -/
def rowB (v : FVec F S128x200 .f32) : FVec F S128x200x200 .f32 :=
  broadcastInDim S128x200x200 ![0, 1, 2] bcast_S128x200x1_S128x200x200_0_1_2 (broadcastInDim S128x200x1 ![0, 1] bcast_S128x200_S128x200x1_0_1 v)

/-- The shifted exponentials. -/
def rExp (l : FVec F S128x200x200 .f32) : FVec F S128x200x200 .f32 := Host.exp (subf l (rowB (rRowMax l)))

/-- The soft adjacency: shifted exponentials over their row sums. -/
def rAttn (h : FVec F S128x200x256 .f32) : FVec F S128x200x200 .f32 :=
  Host.divf (rExp (rLogits h))
    (rowB (Host.reduceAdd (rExp (rLogits h)) (constant S_ .f32 0x00000000#32) reducesTo_S128x200x200_S128x200_d2 h_S_))

/-- The messages A h, jet by jet. -/
def rMsg (A : FVec F S128x200x200 .f32) (h : FVec F S128x200x256 .f32) : FVec F S128x200x256 .f32 :=
  Host.dotGeneral dot_S128x200x200_S128x200x256_S128x200x256_2_1_1_2_0_0 none A h

/-- One message-passing round over the batch. -/
def rRound (W : FVec F S512x256 .f32) (b : FVec F S256 .f32) (h : FVec F S128x200x256 .f32) : FVec F S128x200x256 .f32 :=
  Host.tanh (addf (Host.dotGeneral dot_S128x200x512_S512x256_S128x200x256_2_0_01_1_n_n none
    (concatenate S128x200x512 2 [⟨S128x200x256, h⟩, ⟨S128x200x256, rMsg (rAttn h) h⟩] concatenates_S128x200x256_S128x200x256_S128x200x512_d2) W) (biasB b))

/-- The hidden states entering the third round. -/
def rHid2 (a0 : FVec F S128x200x8 .f32) (a1 : FVec F S8x256 .f32) (a2 : FVec F S256 .f32) (a3 : FVec F S512x256 .f32) (a4 : FVec F S256 .f32)
    (a5 : FVec F S512x256 .f32) (a6 : FVec F S256 .f32) : FVec F S128x200x256 .f32 :=
  rRound a5 a6 (rRound a3 a4 (rEmbed a0 a1 a2))

/-- Result 1: the third round's adjacency. -/
def rAdj (a0 : FVec F S128x200x8 .f32) (a1 : FVec F S8x256 .f32) (a2 : FVec F S256 .f32) (a3 : FVec F S512x256 .f32) (a4 : FVec F S256 .f32)
    (a5 : FVec F S512x256 .f32) (a6 : FVec F S256 .f32) : FVec F S128x200x200 .f32 :=
  rAttn (rHid2 a0 a1 a2 a3 a4 a5 a6)

/-- A readout layer before its nonlinearity: h W + b. -/
def rLin (W : FVec F S256x256 .f32) (b : FVec F S256 .f32) (h : FVec F S128x200x256 .f32) : FVec F S128x200x256 .f32 :=
  addf (Host.dotGeneral dot_S128x200x256_S256x256_S128x200x256_2_0_01_1_n_n none h W) (biasB b)

/-- Result 0: the readout, summed over the nodes last. -/
def rOut (a0 : FVec F S128x200x8 .f32) (a1 : FVec F S8x256 .f32) (a2 : FVec F S256 .f32) (a3 : FVec F S512x256 .f32) (a4 : FVec F S256 .f32)
    (a5 : FVec F S512x256 .f32) (a6 : FVec F S256 .f32) (a7 : FVec F S512x256 .f32) (a8 : FVec F S256 .f32)
    (a9 : FVec F S256x256 .f32) (a10 : FVec F S256 .f32) (a11 : FVec F S256x256 .f32) (a12 : FVec F S256 .f32) : FVec F S128x256 .f32 :=
  Host.reduceAdd (rLin a11 a12 (Host.tanh (rLin a9 a10 (rRound a7 a8 (rHid2 a0 a1 a2 a3 a4 a5 a6)))))
    (constant S_ .f32 0x00000000#32) reducesTo_S128x200x256_S128x256_d1 h_S_

end Cert.ReferenceIdeal.RefValue

end
-- ==== Proof.RefOps.lean ====
/-
  The reference's @main as eight stretches of host operations: the embedding; for each of the three
  message-passing rounds its attention (logits, shifted softmax, messages) and its update (concatenation,
  product with the weight, bias, tanh); the readout.  Its whole operation list is their concatenation; a
  stretch is short enough to be read back operation by operation from any contents of the buffers.
-/
import proofs.«167048_g85813446574462_cont_9to1c4b_288_21_alg».proof.Proof.RefStages
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The embedding layer (and the zero adjacency the reference starts from, which no later operation reads). -/
abbrev opsEmb : List (HloOp τ sig (Elt F)) :=
  [ binary main_arg0 main_arg1 main_v0 ((fun l r => Host.dotGeneral dot_S128x200x8_S8x256_S128x200x256_2_0_01_1_n_n none l r) : (⟨S128x200x8, .f32⟩ : BufTy).Contents (Elt F) → (⟨S8x256, .f32⟩ : BufTy).Contents (Elt F) → (⟨S128x200x256, .f32⟩ : BufTy).Contents (Elt F)),
    unary main_arg2 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v0 main_v2 main_v3 (addf : (⟨S128x200x256, .f32⟩ : BufTy).Contents (Elt F) → (⟨S128x200x256, .f32⟩ : BufTy).Contents (Elt F) → (⟨S128x200x256, .f32⟩ : BufTy).Contents (Elt F)),
    unary main_v3 main_v4 (Host.tanh : (⟨S128x200x256, .f32⟩ : BufTy).Contents (Elt F) → (⟨S128x200x256, .f32⟩ : BufTy).Contents (Elt F)),
    nullary main_cst (constant S_ .f32 0x00000000#32),
    unary main_cst main_v5 (broadcastInDim S128x200x200 ![] bcast_S_S128x200x200 : (⟨S_, .f32⟩ : BufTy).Contents (Elt F) → (⟨S128x200x200, .f32⟩ : BufTy).Contents (Elt F)) ]

/-- First round, attention: logits, shifted softmax, messages. -/
abbrev opsAttn0 : List (HloOp τ sig (Elt F)) :=
  [ binary main_v4 main_v4 main_v6 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_0 (constant S_ .f32 0x3D800000#32),
    unary main_cst_0 main_v7 (broadcastInDim S128x200x200 ![] bcast_S_S128x200x200 : (⟨S_, .f32⟩ : BufTy).Contents (Elt F) → (⟨S128x200x200, .f32⟩ : BufTy).Contents (Elt F)),
    binary main_v6 main_v7 main_v8 (mulf : (⟨S128x200x200, .f32⟩ : BufTy).Contents (Elt F) → (⟨S128x200x200, .f32⟩ : BufTy).Contents (Elt F) → (⟨S128x200x200, .f32⟩ : BufTy).Contents (Elt F)),
    nullary main_cst_1 (constant S_ .f32 0xFF800000#32),
    binary main_v8 main_cst_1 main_v9 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_2 (constant S_ .f32 0xFF800000#32),
    unary main_cst_2 main_v10 (broadcastInDim S128x200 ![] bcast_S_S128x200 : (⟨S_, .f32⟩ : BufTy).Contents (Elt F) → (⟨S128x200, .f32⟩ : BufTy).Contents (Elt F)),
    binary main_v10 main_v9 main_v11 (maximumf : (⟨S128x200, .f32⟩ : BufTy).Contents (Elt F) → (⟨S128x200, .f32⟩ : BufTy).Contents (Elt F) → (⟨S128x200, .f32⟩ : BufTy).Contents (Elt F)),
    unary main_v11 main_v12 (broadcastInDim S128x200x1 ![0, 1] bcast_S128x200_S128x200x1_0_1 : (⟨S128x200, .f32⟩ : BufTy).Contents (Elt F) → (⟨S128x200x1, .f32⟩ : BufTy).Contents (Elt F)),
    unary main_v12 main_v13 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v8 main_v13 main_v14 (subf : (⟨S128x200x200, .f32⟩ : BufTy).Contents (Elt F) → (⟨S128x200x200, .f32⟩ : BufTy).Contents (Elt F) → (⟨S128x200x200, .f32⟩ : BufTy).Contents (Elt F)),
    unary main_v14 main_v15 (Host.exp : (⟨S128x200x200, .f32⟩ : BufTy).Contents (Elt F) → (⟨S128x200x200, .f32⟩ : BufTy).Contents (Elt F)),
    nullary main_cst_3 (constant S_ .f32 0x00000000#32),
    binary main_v15 main_cst_3 main_v16 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v16 main_v17 (broadcastInDim S128x200x1 ![0, 1] bcast_S128x200_S128x200x1_0_1 : (⟨S128x200, .f32⟩ : BufTy).Contents (Elt F) → (⟨S128x200x1, .f32⟩ : BufTy).Contents (Elt F)),
    unary main_v17 main_v18 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v15 main_v18 main_v19 (Host.divf : (⟨S128x200x200, .f32⟩ : BufTy).Contents (Elt F) → (⟨S128x200x200, .f32⟩ : BufTy).Contents (Elt F) → (⟨S128x200x200, .f32⟩ : BufTy).Contents (Elt F)),
    binary main_v19 main_v4 main_v20 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)) ]

/-- First round, update: concatenation, product with the weight, bias, tanh. -/
abbrev opsUpd0 : List (HloOp τ sig (Elt F)) :=
  [ binary main_v4 main_v20 main_v21 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v21 main_arg3 main_v22 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg4 main_v23 (broadcastInDim S1x1x256 ![2] bcast_S256_S1x1x256_2 : (⟨S256, .f32⟩ : BufTy).Contents (Elt F) → (⟨S1x1x256, .f32⟩ : BufTy).Contents (Elt F)),
    unary main_v23 main_v24 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v22 main_v24 main_v25 (addf : (⟨S128x200x256, .f32⟩ : BufTy).Contents (Elt F) → (⟨S128x200x256, .f32⟩ : BufTy).Contents (Elt F) → (⟨S128x200x256, .f32⟩ : BufTy).Contents (Elt F)),
    unary main_v25 main_v26 (Host.tanh : (⟨S128x200x256, .f32⟩ : BufTy).Contents (Elt F) → (⟨S128x200x256, .f32⟩ : BufTy).Contents (Elt F)) ]

/-- Second round, attention. -/
abbrev opsAttn1 : List (HloOp τ sig (Elt F)) :=
  [ binary main_v26 main_v26 main_v27 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_4 (constant S_ .f32 0x3D800000#32),
    unary main_cst_4 main_v28 (broadcastInDim S128x200x200 ![] bcast_S_S128x200x200 : (⟨S_, .f32⟩ : BufTy).Contents (Elt F) → (⟨S128x200x200, .f32⟩ : BufTy).Contents (Elt F)),
    binary main_v27 main_v28 main_v29 (mulf : (⟨S128x200x200, .f32⟩ : BufTy).Contents (Elt F) → (⟨S128x200x200, .f32⟩ : BufTy).Contents (Elt F) → (⟨S128x200x200, .f32⟩ : BufTy).Contents (Elt F)),
    nullary main_cst_5 (constant S_ .f32 0xFF800000#32),
    binary main_v29 main_cst_5 main_v30 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_6 (constant S_ .f32 0xFF800000#32),
    unary main_cst_6 main_v31 (broadcastInDim S128x200 ![] bcast_S_S128x200 : (⟨S_, .f32⟩ : BufTy).Contents (Elt F) → (⟨S128x200, .f32⟩ : BufTy).Contents (Elt F)),
    binary main_v31 main_v30 main_v32 (maximumf : (⟨S128x200, .f32⟩ : BufTy).Contents (Elt F) → (⟨S128x200, .f32⟩ : BufTy).Contents (Elt F) → (⟨S128x200, .f32⟩ : BufTy).Contents (Elt F)),
    unary main_v32 main_v33 (broadcastInDim S128x200x1 ![0, 1] bcast_S128x200_S128x200x1_0_1 : (⟨S128x200, .f32⟩ : BufTy).Contents (Elt F) → (⟨S128x200x1, .f32⟩ : BufTy).Contents (Elt F)),
    unary main_v33 main_v34 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v29 main_v34 main_v35 (subf : (⟨S128x200x200, .f32⟩ : BufTy).Contents (Elt F) → (⟨S128x200x200, .f32⟩ : BufTy).Contents (Elt F) → (⟨S128x200x200, .f32⟩ : BufTy).Contents (Elt F)),
    unary main_v35 main_v36 (Host.exp : (⟨S128x200x200, .f32⟩ : BufTy).Contents (Elt F) → (⟨S128x200x200, .f32⟩ : BufTy).Contents (Elt F)),
    nullary main_cst_7 (constant S_ .f32 0x00000000#32),
    binary main_v36 main_cst_7 main_v37 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v37 main_v38 (broadcastInDim S128x200x1 ![0, 1] bcast_S128x200_S128x200x1_0_1 : (⟨S128x200, .f32⟩ : BufTy).Contents (Elt F) → (⟨S128x200x1, .f32⟩ : BufTy).Contents (Elt F)),
    unary main_v38 main_v39 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v36 main_v39 main_v40 (Host.divf : (⟨S128x200x200, .f32⟩ : BufTy).Contents (Elt F) → (⟨S128x200x200, .f32⟩ : BufTy).Contents (Elt F) → (⟨S128x200x200, .f32⟩ : BufTy).Contents (Elt F)),
    binary main_v40 main_v26 main_v41 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)) ]

/-- Second round, update. -/
abbrev opsUpd1 : List (HloOp τ sig (Elt F)) :=
  [ binary main_v26 main_v41 main_v42 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v42 main_arg5 main_v43 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg6 main_v44 (broadcastInDim S1x1x256 ![2] bcast_S256_S1x1x256_2 : (⟨S256, .f32⟩ : BufTy).Contents (Elt F) → (⟨S1x1x256, .f32⟩ : BufTy).Contents (Elt F)),
    unary main_v44 main_v45 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v43 main_v45 main_v46 (addf : (⟨S128x200x256, .f32⟩ : BufTy).Contents (Elt F) → (⟨S128x200x256, .f32⟩ : BufTy).Contents (Elt F) → (⟨S128x200x256, .f32⟩ : BufTy).Contents (Elt F)),
    unary main_v46 main_v47 (Host.tanh : (⟨S128x200x256, .f32⟩ : BufTy).Contents (Elt F) → (⟨S128x200x256, .f32⟩ : BufTy).Contents (Elt F)) ]

/-- Third round, attention. -/
abbrev opsAttn2 : List (HloOp τ sig (Elt F)) :=
  [ binary main_v47 main_v47 main_v48 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_8 (constant S_ .f32 0x3D800000#32),
    unary main_cst_8 main_v49 (broadcastInDim S128x200x200 ![] bcast_S_S128x200x200 : (⟨S_, .f32⟩ : BufTy).Contents (Elt F) → (⟨S128x200x200, .f32⟩ : BufTy).Contents (Elt F)),
    binary main_v48 main_v49 main_v50 (mulf : (⟨S128x200x200, .f32⟩ : BufTy).Contents (Elt F) → (⟨S128x200x200, .f32⟩ : BufTy).Contents (Elt F) → (⟨S128x200x200, .f32⟩ : BufTy).Contents (Elt F)),
    nullary main_cst_9 (constant S_ .f32 0xFF800000#32),
    binary main_v50 main_cst_9 main_v51 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_10 (constant S_ .f32 0xFF800000#32),
    unary main_cst_10 main_v52 (broadcastInDim S128x200 ![] bcast_S_S128x200 : (⟨S_, .f32⟩ : BufTy).Contents (Elt F) → (⟨S128x200, .f32⟩ : BufTy).Contents (Elt F)),
    binary main_v52 main_v51 main_v53 (maximumf : (⟨S128x200, .f32⟩ : BufTy).Contents (Elt F) → (⟨S128x200, .f32⟩ : BufTy).Contents (Elt F) → (⟨S128x200, .f32⟩ : BufTy).Contents (Elt F)),
    unary main_v53 main_v54 (broadcastInDim S128x200x1 ![0, 1] bcast_S128x200_S128x200x1_0_1 : (⟨S128x200, .f32⟩ : BufTy).Contents (Elt F) → (⟨S128x200x1, .f32⟩ : BufTy).Contents (Elt F)),
    unary main_v54 main_v55 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v50 main_v55 main_v56 (subf : (⟨S128x200x200, .f32⟩ : BufTy).Contents (Elt F) → (⟨S128x200x200, .f32⟩ : BufTy).Contents (Elt F) → (⟨S128x200x200, .f32⟩ : BufTy).Contents (Elt F)),
    unary main_v56 main_v57 (Host.exp : (⟨S128x200x200, .f32⟩ : BufTy).Contents (Elt F) → (⟨S128x200x200, .f32⟩ : BufTy).Contents (Elt F)),
    nullary main_cst_11 (constant S_ .f32 0x00000000#32),
    binary main_v57 main_cst_11 main_v58 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v58 main_v59 (broadcastInDim S128x200x1 ![0, 1] bcast_S128x200_S128x200x1_0_1 : (⟨S128x200, .f32⟩ : BufTy).Contents (Elt F) → (⟨S128x200x1, .f32⟩ : BufTy).Contents (Elt F)),
    unary main_v59 main_v60 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v57 main_v60 main_v61 (Host.divf : (⟨S128x200x200, .f32⟩ : BufTy).Contents (Elt F) → (⟨S128x200x200, .f32⟩ : BufTy).Contents (Elt F) → (⟨S128x200x200, .f32⟩ : BufTy).Contents (Elt F)),
    binary main_v61 main_v47 main_v62 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)) ]

/-- Third round, update. -/
abbrev opsUpd2 : List (HloOp τ sig (Elt F)) :=
  [ binary main_v47 main_v62 main_v63 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v63 main_arg7 main_v64 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg8 main_v65 (broadcastInDim S1x1x256 ![2] bcast_S256_S1x1x256_2 : (⟨S256, .f32⟩ : BufTy).Contents (Elt F) → (⟨S1x1x256, .f32⟩ : BufTy).Contents (Elt F)),
    unary main_v65 main_v66 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v64 main_v66 main_v67 (addf : (⟨S128x200x256, .f32⟩ : BufTy).Contents (Elt F) → (⟨S128x200x256, .f32⟩ : BufTy).Contents (Elt F) → (⟨S128x200x256, .f32⟩ : BufTy).Contents (Elt F)),
    unary main_v67 main_v68 (Host.tanh : (⟨S128x200x256, .f32⟩ : BufTy).Contents (Elt F) → (⟨S128x200x256, .f32⟩ : BufTy).Contents (Elt F)) ]

/-- The readout: two layers, then the sum over the nodes. -/
abbrev opsRead : List (HloOp τ sig (Elt F)) :=
  [ binary main_v68 main_arg9 main_v69 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg10 main_v70 (broadcastInDim S1x1x256 ![2] bcast_S256_S1x1x256_2 : (⟨S256, .f32⟩ : BufTy).Contents (Elt F) → (⟨S1x1x256, .f32⟩ : BufTy).Contents (Elt F)),
    unary main_v70 main_v71 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v69 main_v71 main_v72 (addf : (⟨S128x200x256, .f32⟩ : BufTy).Contents (Elt F) → (⟨S128x200x256, .f32⟩ : BufTy).Contents (Elt F) → (⟨S128x200x256, .f32⟩ : BufTy).Contents (Elt F)),
    unary main_v72 main_v73 (Host.tanh : (⟨S128x200x256, .f32⟩ : BufTy).Contents (Elt F) → (⟨S128x200x256, .f32⟩ : BufTy).Contents (Elt F)),
    binary main_v73 main_arg11 main_v74 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg12 main_v75 (broadcastInDim S1x1x256 ![2] bcast_S256_S1x1x256_2 : (⟨S256, .f32⟩ : BufTy).Contents (Elt F) → (⟨S1x1x256, .f32⟩ : BufTy).Contents (Elt F)),
    unary main_v75 main_v76 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v74 main_v76 main_v77 (addf : (⟨S128x200x256, .f32⟩ : BufTy).Contents (Elt F) → (⟨S128x200x256, .f32⟩ : BufTy).Contents (Elt F) → (⟨S128x200x256, .f32⟩ : BufTy).Contents (Elt F)),
    nullary main_cst_12 (constant S_ .f32 0x00000000#32),
    binary main_v77 main_cst_12 main_v78 ((fun x v => Host.reduceAdd x v reducesTo_S128x200x256_S128x256_d1 h_S_) : (⟨S128x200x256, .f32⟩ : BufTy).Contents (Elt F) → (⟨S_, .f32⟩ : BufTy).Contents (Elt F) → (⟨S128x256, .f32⟩ : BufTy).Contents (Elt F)) ]

/-- @main's operations, in order. -/
abbrev ops : List (HloOp τ sig (Elt F)) :=
  opsEmb ++ (opsAttn0 ++ (opsUpd0 ++ (opsAttn1 ++ (opsUpd1 ++ (opsAttn2 ++ (opsUpd2 ++ opsRead))))))

end Cert.ReferenceIdeal.RefValue

end
-- ==== Proof.RefFacts.lean ====
/-
  The reference's @main is the run of its operation list, and what that run leaves in the buffers.

  @main is a straight line of 93 host operations and nothing else: no kernel, no scoped buffer, no
  semaphore.  Written as the list of its eight stretches (the embedding; the attention and the update of each
  of the three rounds; the readout), it is the sequence of that list; every operation touches TensorCore
  buffers only and none allocates.  So every fair execution from any memory ends, and leaves each buffer at
  the fold of the operations' results over the contents at launch.
-/
import proofs.«167048_g85813446574462_cont_9to1c4b_288_21_alg».proof.Proof.RefOps
import Idealize.ShloMosaic.Lib.Pipeline.Regions

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## @main is the sequence of its operations -/

/-- The first window of the printed @main: operations 1 … 60, which end three operations into the third round's attention. -/
theorem main_part0_eq (c : Dev nD) : main_part0 (F := F) c
    = seq (opsEmb ++ (opsAttn0 ++ (opsUpd0 ++ (opsAttn1 ++ (opsUpd1 ++ opsAttn2.take 3))))) := by chain_rfl

/-- The second window: operations 61 … 93. -/
theorem main_part1_eq (c : Dev nD) : main_part1 (F := F) c = seq (opsAttn2.drop 3 ++ (opsUpd2 ++ opsRead)) := by chain_rfl

/-- The operation list, cut where the printed windows cut it. -/
theorem ops_windows : (ops : List (HloOp τ sig (Elt F)))
    = (opsEmb ++ (opsAttn0 ++ (opsUpd0 ++ (opsAttn1 ++ (opsUpd1 ++ opsAttn2.take 3)))))
      ++ (opsAttn2.drop 3 ++ (opsUpd2 ++ opsRead)) := by
  show opsEmb ++ (opsAttn0 ++ (opsUpd0 ++ (opsAttn1 ++ (opsUpd1 ++ (opsAttn2 ++ (opsUpd2 ++ opsRead)))))) = _
  simp only [List.append_assoc]
  rw [← List.append_assoc (opsAttn2.take 3), List.take_append_drop]

/-- The printed @main, two windows run one after the other, is the sequence of the eight stretches' concatenation:
    each window unfolds to the chain of its own steps, and two sequences run one after the other are the sequence of the concatenation. -/
theorem main_eq (c : Dev nD) : main (F := F) c = seq (ops (F := F)) := by
  rw [ops_windows, seq_append, ← main_part0_eq c, ← main_part1_eq c]
  rfl

/-- The signature scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-! ## A property of every operation, stretch by stretch -/

/-- A property of every entry of two lists holds of every entry of their concatenation (the conjunction form). -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- The same in the membership form. -/
theorem mem_append_forall {α : Type} {p : α → Prop} {l₁ l₂ : List α} (h₁ : ∀ x ∈ l₁, p x) (h₂ : ∀ x ∈ l₂, p x) :
    ∀ x ∈ l₁ ++ l₂, p x :=
  fun x hx => (List.mem_append.1 hx).elim (h₁ x) (h₂ x)

/-- Every operation of the embedding's stretch reads and writes TensorCore buffers only. -/
theorem opsEmb_sub : (opsEmb : List (HloOp τ sig (Elt F))).Forall fun op => op.bufs ⊆ tcRefs τ sig :=
  ⟨binary_bufs_sub .., unary_bufs_sub .., unary_bufs_sub .., binary_bufs_sub .., unary_bufs_sub .., nullary_bufs_sub .., unary_bufs_sub ..⟩
/-- Every operation of the first round's attention stretch reads and writes TensorCore buffers only. -/
theorem opsAttn0_sub : (opsAttn0 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
/-- Every operation of the first round's update stretch reads and writes TensorCore buffers only. -/
theorem opsUpd0_sub : (opsUpd0 : List (HloOp τ sig (Elt F))).Forall fun op => op.bufs ⊆ tcRefs τ sig :=
  ⟨binary_bufs_sub .., binary_bufs_sub .., unary_bufs_sub .., unary_bufs_sub .., binary_bufs_sub .., unary_bufs_sub ..⟩
/-- Every operation of the second round's attention stretch reads and writes TensorCore buffers only. -/
theorem opsAttn1_sub : (opsAttn1 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
/-- Every operation of the second round's update stretch reads and writes TensorCore buffers only. -/
theorem opsUpd1_sub : (opsUpd1 : List (HloOp τ sig (Elt F))).Forall fun op => op.bufs ⊆ tcRefs τ sig :=
  ⟨binary_bufs_sub .., binary_bufs_sub .., unary_bufs_sub .., unary_bufs_sub .., binary_bufs_sub .., unary_bufs_sub ..⟩
/-- Every operation of the third round's attention stretch reads and writes TensorCore buffers only. -/
theorem opsAttn2_sub : (opsAttn2 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
/-- Every operation of the third round's update stretch reads and writes TensorCore buffers only. -/
theorem opsUpd2_sub : (opsUpd2 : List (HloOp τ sig (Elt F))).Forall fun op => op.bufs ⊆ tcRefs τ sig :=
  ⟨binary_bufs_sub .., binary_bufs_sub .., unary_bufs_sub .., unary_bufs_sub .., binary_bufs_sub .., unary_bufs_sub ..⟩
/-- Every operation of the readout's stretch reads and writes TensorCore buffers only. -/
theorem opsRead_sub : (opsRead : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub .., nullary_bufs_sub .., binary_bufs_sub ..⟩

/-- Every operation of @main reads and writes TensorCore buffers only. -/
theorem ops_sub : (ops : List (HloOp τ sig (Elt F))).Forall fun op => op.bufs ⊆ tcRefs τ sig :=
  forall_append opsEmb_sub
    (forall_append opsAttn0_sub (forall_append opsUpd0_sub (forall_append opsAttn1_sub (forall_append opsUpd1_sub (forall_append opsAttn2_sub (forall_append opsUpd2_sub (opsRead_sub)))))))

/-- No operation of the embedding's stretch allocates a buffer. -/
theorem opsEmb_fresh : ∀ op ∈ (opsEmb : List (HloOp τ sig (Elt F))), op.fresh = ∅ := by
  intro _ h; (repeat (cases h with | head => rfl | tail _ h => ?_)); exact nomatch h
/-- No operation of the first round's attention stretch allocates a buffer. -/
theorem opsAttn0_fresh : ∀ op ∈ (opsAttn0 : List (HloOp τ sig (Elt F))), op.fresh = ∅ := by
  intro _ h; (repeat (cases h with | head => rfl | tail _ h => ?_)); exact nomatch h
/-- No operation of the first round's update stretch allocates a buffer. -/
theorem opsUpd0_fresh : ∀ op ∈ (opsUpd0 : List (HloOp τ sig (Elt F))), op.fresh = ∅ := by
  intro _ h; (repeat (cases h with | head => rfl | tail _ h => ?_)); exact nomatch h
/-- No operation of the second round's attention stretch allocates a buffer. -/
theorem opsAttn1_fresh : ∀ op ∈ (opsAttn1 : List (HloOp τ sig (Elt F))), op.fresh = ∅ := by
  intro _ h; (repeat (cases h with | head => rfl | tail _ h => ?_)); exact nomatch h
/-- No operation of the second round's update stretch allocates a buffer. -/
theorem opsUpd1_fresh : ∀ op ∈ (opsUpd1 : List (HloOp τ sig (Elt F))), op.fresh = ∅ := by
  intro _ h; (repeat (cases h with | head => rfl | tail _ h => ?_)); exact nomatch h
/-- No operation of the third round's attention stretch allocates a buffer. -/
theorem opsAttn2_fresh : ∀ op ∈ (opsAttn2 : List (HloOp τ sig (Elt F))), op.fresh = ∅ := by
  intro _ h; (repeat (cases h with | head => rfl | tail _ h => ?_)); exact nomatch h
/-- No operation of the third round's update stretch allocates a buffer. -/
theorem opsUpd2_fresh : ∀ op ∈ (opsUpd2 : List (HloOp τ sig (Elt F))), op.fresh = ∅ := by
  intro _ h; (repeat (cases h with | head => rfl | tail _ h => ?_)); exact nomatch h
/-- No operation of the readout's stretch allocates a buffer. -/
theorem opsRead_fresh : ∀ op ∈ (opsRead : List (HloOp τ sig (Elt F))), op.fresh = ∅ := by
  intro _ h; (repeat (cases h with | head => rfl | tail _ h => ?_)); exact nomatch h

/-- No operation of @main allocates a buffer: each determines its results. -/
theorem ops_fresh : ∀ op ∈ (ops : List (HloOp τ sig (Elt F))), op.fresh = ∅ :=
  mem_append_forall opsEmb_fresh
    (mem_append_forall opsAttn0_fresh (mem_append_forall opsUpd0_fresh (mem_append_forall opsAttn1_fresh (mem_append_forall opsUpd1_fresh (mem_append_forall opsAttn2_fresh (mem_append_forall opsUpd2_fresh (opsRead_fresh)))))))

/-! ## The run -/

/-- On every device, for any float values, from any memory with zero counters: every weakly fair execution of
    @main terminates, and leaves every TensorCore buffer at the fold of the operations' results over the contents
    at launch. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = after (ops (F := F)) (launchContents m d) (Proc.devRef .tc b) :=
  run_seq scopedRefs_eq scopedSems_eq defs main (fun _ => ops) main_eq (fun _ => ops_sub) m ρ (fun _ => ops_fresh)

end Cert.ReferenceIdeal.RefValue

end
-- ==== Proof.RefAfter.lean ====
/-
  What the reference's buffers hold after its operations.

  The reference's operations are eight stretches run in order: the embedding, three rounds of attention and
  update, the readout.  Each stretch is read from any contents of the buffers: what it writes is a stage of
  RefStages applied to what it reads, and what it does not write it keeps.  Composing the eight readings, the
  readout's buffer holds rOut of the thirteen arguments, the third round's adjacency buffer holds rAdj of the
  first seven, and the arguments, which no stretch writes, are as they were.
-/
import proofs.«167048_g85813446574462_cont_9to1c4b_288_21_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The references that the operations of opsEmb write. -/
abbrev opsEmb_W : List (Ref sig .tc) := [main_v0, main_v1, main_v2, main_v3, main_v4, main_cst, main_v5]
theorem opsEmb_writes : (opsEmb : List (HloOp τ sig (Elt F))).Forall fun op => op.writes ⊆ (opsEmb_W.map (Proc.devRef (τ := τ) .tc)).toFinset := by
  simp only [List.Forall]
  exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A buffer that opsEmb does not write keeps its contents through it. -/
theorem opsEmb_keeps (W : Valuation τ sig (Elt F)) (b : Ref sig .tc) (hb : b ∉ opsEmb_W) :
    after (opsEmb (F := F)) W (Proc.devRef .tc b) = W (Proc.devRef .tc b) :=
  after_of_writes_sub opsEmb _ opsEmb_writes hb

/-- The references that the operations of opsAttn0 write. -/
abbrev opsAttn0_W : List (Ref sig .tc) := [main_v6, main_cst_0, main_v7, main_v8, main_cst_1, main_v9, main_cst_2, main_v10, main_v11, main_v12, main_v13, main_v14, main_v15, main_cst_3, main_v16, main_v17, main_v18, main_v19, main_v20]
theorem opsAttn0_writes : (opsAttn0 : List (HloOp τ sig (Elt F))).Forall fun op => op.writes ⊆ (opsAttn0_W.map (Proc.devRef (τ := τ) .tc)).toFinset := by
  simp only [List.Forall]
  exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A buffer that opsAttn0 does not write keeps its contents through it. -/
theorem opsAttn0_keeps (W : Valuation τ sig (Elt F)) (b : Ref sig .tc) (hb : b ∉ opsAttn0_W) :
    after (opsAttn0 (F := F)) W (Proc.devRef .tc b) = W (Proc.devRef .tc b) :=
  after_of_writes_sub opsAttn0 _ opsAttn0_writes hb

/-- The references that the operations of opsUpd0 write. -/
abbrev opsUpd0_W : List (Ref sig .tc) := [main_v21, main_v22, main_v23, main_v24, main_v25, main_v26]
theorem opsUpd0_writes : (opsUpd0 : List (HloOp τ sig (Elt F))).Forall fun op => op.writes ⊆ (opsUpd0_W.map (Proc.devRef (τ := τ) .tc)).toFinset := by
  simp only [List.Forall]
  exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A buffer that opsUpd0 does not write keeps its contents through it. -/
theorem opsUpd0_keeps (W : Valuation τ sig (Elt F)) (b : Ref sig .tc) (hb : b ∉ opsUpd0_W) :
    after (opsUpd0 (F := F)) W (Proc.devRef .tc b) = W (Proc.devRef .tc b) :=
  after_of_writes_sub opsUpd0 _ opsUpd0_writes hb

/-- The references that the operations of opsAttn1 write. -/
abbrev opsAttn1_W : List (Ref sig .tc) := [main_v27, main_cst_4, main_v28, main_v29, main_cst_5, main_v30, main_cst_6, main_v31, main_v32, main_v33, main_v34, main_v35, main_v36, main_cst_7, main_v37, main_v38, main_v39, main_v40, main_v41]
theorem opsAttn1_writes : (opsAttn1 : List (HloOp τ sig (Elt F))).Forall fun op => op.writes ⊆ (opsAttn1_W.map (Proc.devRef (τ := τ) .tc)).toFinset := by
  simp only [List.Forall]
  exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A buffer that opsAttn1 does not write keeps its contents through it. -/
theorem opsAttn1_keeps (W : Valuation τ sig (Elt F)) (b : Ref sig .tc) (hb : b ∉ opsAttn1_W) :
    after (opsAttn1 (F := F)) W (Proc.devRef .tc b) = W (Proc.devRef .tc b) :=
  after_of_writes_sub opsAttn1 _ opsAttn1_writes hb

/-- The references that the operations of opsUpd1 write. -/
abbrev opsUpd1_W : List (Ref sig .tc) := [main_v42, main_v43, main_v44, main_v45, main_v46, main_v47]
theorem opsUpd1_writes : (opsUpd1 : List (HloOp τ sig (Elt F))).Forall fun op => op.writes ⊆ (opsUpd1_W.map (Proc.devRef (τ := τ) .tc)).toFinset := by
  simp only [List.Forall]
  exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A buffer that opsUpd1 does not write keeps its contents through it. -/
theorem opsUpd1_keeps (W : Valuation τ sig (Elt F)) (b : Ref sig .tc) (hb : b ∉ opsUpd1_W) :
    after (opsUpd1 (F := F)) W (Proc.devRef .tc b) = W (Proc.devRef .tc b) :=
  after_of_writes_sub opsUpd1 _ opsUpd1_writes hb

/-- The references that the operations of opsAttn2 write. -/
abbrev opsAttn2_W : List (Ref sig .tc) := [main_v48, main_cst_8, main_v49, main_v50, main_cst_9, main_v51, main_cst_10, main_v52, main_v53, main_v54, main_v55, main_v56, main_v57, main_cst_11, main_v58, main_v59, main_v60, main_v61, main_v62]
theorem opsAttn2_writes : (opsAttn2 : List (HloOp τ sig (Elt F))).Forall fun op => op.writes ⊆ (opsAttn2_W.map (Proc.devRef (τ := τ) .tc)).toFinset := by
  simp only [List.Forall]
  exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A buffer that opsAttn2 does not write keeps its contents through it. -/
theorem opsAttn2_keeps (W : Valuation τ sig (Elt F)) (b : Ref sig .tc) (hb : b ∉ opsAttn2_W) :
    after (opsAttn2 (F := F)) W (Proc.devRef .tc b) = W (Proc.devRef .tc b) :=
  after_of_writes_sub opsAttn2 _ opsAttn2_writes hb

/-- The references that the operations of opsUpd2 write. -/
abbrev opsUpd2_W : List (Ref sig .tc) := [main_v63, main_v64, main_v65, main_v66, main_v67, main_v68]
theorem opsUpd2_writes : (opsUpd2 : List (HloOp τ sig (Elt F))).Forall fun op => op.writes ⊆ (opsUpd2_W.map (Proc.devRef (τ := τ) .tc)).toFinset := by
  simp only [List.Forall]
  exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A buffer that opsUpd2 does not write keeps its contents through it. -/
theorem opsUpd2_keeps (W : Valuation τ sig (Elt F)) (b : Ref sig .tc) (hb : b ∉ opsUpd2_W) :
    after (opsUpd2 (F := F)) W (Proc.devRef .tc b) = W (Proc.devRef .tc b) :=
  after_of_writes_sub opsUpd2 _ opsUpd2_writes hb

/-- The references that the operations of opsRead write. -/
abbrev opsRead_W : List (Ref sig .tc) := [main_v69, main_v70, main_v71, main_v72, main_v73, main_v74, main_v75, main_v76, main_v77, main_cst_12, main_v78]
theorem opsRead_writes : (opsRead : List (HloOp τ sig (Elt F))).Forall fun op => op.writes ⊆ (opsRead_W.map (Proc.devRef (τ := τ) .tc)).toFinset := by
  simp only [List.Forall]
  exact ⟨by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide),
    by simp only [nullary_writes, unary_writes, binary_writes, Finset.singleton_subset_iff, List.mem_toFinset]; exact List.mem_map_of_mem (by decide)⟩
/-- A buffer that opsRead does not write keeps its contents through it. -/
theorem opsRead_keeps (W : Valuation τ sig (Elt F)) (b : Ref sig .tc) (hb : b ∉ opsRead_W) :
    after (opsRead (F := F)) W (Proc.devRef .tc b) = W (Proc.devRef .tc b) :=
  after_of_writes_sub opsRead _ opsRead_writes hb

/-! ## Each stretch read from any contents -/

/-- The embedding stretch, from any contents. -/
theorem emb_read (W : Valuation τ sig (Elt F)) :
    after (opsEmb (F := F)) W (Proc.devRef .tc main_v4) = rEmbed (W (Proc.devRef .tc main_arg0)) (W (Proc.devRef .tc main_arg1)) (W (Proc.devRef .tc main_arg2)) := by
  after_results_simp
  rfl

/-- Round 0, attention, from any contents: the adjacency buffer holds the soft adjacency of the hidden state. -/
theorem attn0_adj (W : Valuation τ sig (Elt F)) :
    after (opsAttn0 (F := F)) W (Proc.devRef .tc main_v19) = rAttn (W (Proc.devRef .tc main_v4)) := by
  after_results_simp
  rfl
/-- Round 0, attention, from any contents: the messages buffer holds the messages. -/
theorem attn0_msg (W : Valuation τ sig (Elt F)) :
    after (opsAttn0 (F := F)) W (Proc.devRef .tc main_v20) = rMsg (rAttn (W (Proc.devRef .tc main_v4))) (W (Proc.devRef .tc main_v4)) := by
  after_results_simp
  rfl

/-- Round 0, update, from any contents: tanh of the concatenation [h, messages] times the weight, plus the bias. -/
theorem upd0_read (W : Valuation τ sig (Elt F)) :
    after (opsUpd0 (F := F)) W (Proc.devRef .tc main_v26)
      = Host.tanh (addf (Host.dotGeneral dot_S128x200x512_S512x256_S128x200x256_2_0_01_1_n_n none
          (concatenate S128x200x512 2 [⟨S128x200x256, W (Proc.devRef .tc main_v4)⟩, ⟨S128x200x256, W (Proc.devRef .tc main_v20)⟩] concatenates_S128x200x256_S128x200x256_S128x200x512_d2)
          (W (Proc.devRef .tc main_arg3))) (biasB (W (Proc.devRef .tc main_arg4)))) := by
  after_results
  rfl

/-- Round 1, attention, from any contents: the adjacency buffer holds the soft adjacency of the hidden state. -/
theorem attn1_adj (W : Valuation τ sig (Elt F)) :
    after (opsAttn1 (F := F)) W (Proc.devRef .tc main_v40) = rAttn (W (Proc.devRef .tc main_v26)) := by
  after_results_simp
  rfl
/-- Round 1, attention, from any contents: the messages buffer holds the messages. -/
theorem attn1_msg (W : Valuation τ sig (Elt F)) :
    after (opsAttn1 (F := F)) W (Proc.devRef .tc main_v41) = rMsg (rAttn (W (Proc.devRef .tc main_v26))) (W (Proc.devRef .tc main_v26)) := by
  after_results_simp
  rfl

/-- Round 1, update, from any contents: tanh of the concatenation [h, messages] times the weight, plus the bias. -/
theorem upd1_read (W : Valuation τ sig (Elt F)) :
    after (opsUpd1 (F := F)) W (Proc.devRef .tc main_v47)
      = Host.tanh (addf (Host.dotGeneral dot_S128x200x512_S512x256_S128x200x256_2_0_01_1_n_n none
          (concatenate S128x200x512 2 [⟨S128x200x256, W (Proc.devRef .tc main_v26)⟩, ⟨S128x200x256, W (Proc.devRef .tc main_v41)⟩] concatenates_S128x200x256_S128x200x256_S128x200x512_d2)
          (W (Proc.devRef .tc main_arg5))) (biasB (W (Proc.devRef .tc main_arg6)))) := by
  after_results
  rfl

/-- Round 2, attention, from any contents: the adjacency buffer holds the soft adjacency of the hidden state. -/
theorem attn2_adj (W : Valuation τ sig (Elt F)) :
    after (opsAttn2 (F := F)) W (Proc.devRef .tc main_v61) = rAttn (W (Proc.devRef .tc main_v47)) := by
  after_results_simp
  rfl
/-- Round 2, attention, from any contents: the messages buffer holds the messages. -/
theorem attn2_msg (W : Valuation τ sig (Elt F)) :
    after (opsAttn2 (F := F)) W (Proc.devRef .tc main_v62) = rMsg (rAttn (W (Proc.devRef .tc main_v47))) (W (Proc.devRef .tc main_v47)) := by
  after_results_simp
  rfl

/-- Round 2, update, from any contents: tanh of the concatenation [h, messages] times the weight, plus the bias. -/
theorem upd2_read (W : Valuation τ sig (Elt F)) :
    after (opsUpd2 (F := F)) W (Proc.devRef .tc main_v68)
      = Host.tanh (addf (Host.dotGeneral dot_S128x200x512_S512x256_S128x200x256_2_0_01_1_n_n none
          (concatenate S128x200x512 2 [⟨S128x200x256, W (Proc.devRef .tc main_v47)⟩, ⟨S128x200x256, W (Proc.devRef .tc main_v62)⟩] concatenates_S128x200x256_S128x200x256_S128x200x512_d2)
          (W (Proc.devRef .tc main_arg7))) (biasB (W (Proc.devRef .tc main_arg8)))) := by
  after_results
  rfl

/-- The readout stretch, from any contents. -/
theorem read_read (W : Valuation τ sig (Elt F)) :
    after (opsRead (F := F)) W (Proc.devRef .tc main_v78)
      = Host.reduceAdd (rLin (W (Proc.devRef .tc main_arg11)) (W (Proc.devRef .tc main_arg12)) (Host.tanh (rLin (W (Proc.devRef .tc main_arg9)) (W (Proc.devRef .tc main_arg10)) (W (Proc.devRef .tc main_v68)))))
          (constant S_ .f32 0x00000000#32) reducesTo_S128x200x256_S128x256_d1 h_S_ := by
  after_results_simp
  rfl

/-! ## The contents after each stretch -/

/-- The contents after the first k stretches. -/
abbrev val1 (V : Valuation τ sig (Elt F)) : Valuation τ sig (Elt F) := after opsEmb V
abbrev val2 (V : Valuation τ sig (Elt F)) : Valuation τ sig (Elt F) := after opsAttn0 (val1 V)
abbrev val3 (V : Valuation τ sig (Elt F)) : Valuation τ sig (Elt F) := after opsUpd0 (val2 V)
abbrev val4 (V : Valuation τ sig (Elt F)) : Valuation τ sig (Elt F) := after opsAttn1 (val3 V)
abbrev val5 (V : Valuation τ sig (Elt F)) : Valuation τ sig (Elt F) := after opsUpd1 (val4 V)
abbrev val6 (V : Valuation τ sig (Elt F)) : Valuation τ sig (Elt F) := after opsAttn2 (val5 V)
abbrev val7 (V : Valuation τ sig (Elt F)) : Valuation τ sig (Elt F) := after opsUpd2 (val6 V)
abbrev val8 (V : Valuation τ sig (Elt F)) : Valuation τ sig (Elt F) := after opsRead (val7 V)

/-- The contents after all the operations are the contents after the eighth stretch. -/
theorem after_ops_eq (V : Valuation τ sig (Elt F)) : after (ops (F := F)) V = val8 V := by
  simp only [ops, StableHlo.after_append]

/-- A reference that no stretch writes. -/
abbrev Unwritten (b : Ref sig .tc) : Prop := b ∉ opsEmb_W ∧ b ∉ opsAttn0_W ∧ b ∉ opsUpd0_W ∧ b ∉ opsAttn1_W ∧ b ∉ opsUpd1_W ∧ b ∉ opsAttn2_W ∧ b ∉ opsUpd2_W ∧ b ∉ opsRead_W
theorem val1_orig (V : Valuation τ sig (Elt F)) (b : Ref sig .tc) (h : Unwritten b) : val1 V (Proc.devRef .tc b) = V (Proc.devRef .tc b) :=
  (opsEmb_keeps _ b h.1)
theorem val2_orig (V : Valuation τ sig (Elt F)) (b : Ref sig .tc) (h : Unwritten b) : val2 V (Proc.devRef .tc b) = V (Proc.devRef .tc b) :=
  (opsAttn0_keeps _ b h.2.1).trans (val1_orig V b h)
theorem val3_orig (V : Valuation τ sig (Elt F)) (b : Ref sig .tc) (h : Unwritten b) : val3 V (Proc.devRef .tc b) = V (Proc.devRef .tc b) :=
  (opsUpd0_keeps _ b h.2.2.1).trans (val2_orig V b h)
theorem val4_orig (V : Valuation τ sig (Elt F)) (b : Ref sig .tc) (h : Unwritten b) : val4 V (Proc.devRef .tc b) = V (Proc.devRef .tc b) :=
  (opsAttn1_keeps _ b h.2.2.2.1).trans (val3_orig V b h)
theorem val5_orig (V : Valuation τ sig (Elt F)) (b : Ref sig .tc) (h : Unwritten b) : val5 V (Proc.devRef .tc b) = V (Proc.devRef .tc b) :=
  (opsUpd1_keeps _ b h.2.2.2.2.1).trans (val4_orig V b h)
theorem val6_orig (V : Valuation τ sig (Elt F)) (b : Ref sig .tc) (h : Unwritten b) : val6 V (Proc.devRef .tc b) = V (Proc.devRef .tc b) :=
  (opsAttn2_keeps _ b h.2.2.2.2.2.1).trans (val5_orig V b h)
theorem val7_orig (V : Valuation τ sig (Elt F)) (b : Ref sig .tc) (h : Unwritten b) : val7 V (Proc.devRef .tc b) = V (Proc.devRef .tc b) :=
  (opsUpd2_keeps _ b h.2.2.2.2.2.2.1).trans (val6_orig V b h)
theorem val8_orig (V : Valuation τ sig (Elt F)) (b : Ref sig .tc) (h : Unwritten b) : val8 V (Proc.devRef .tc b) = V (Proc.devRef .tc b) :=
  (opsRead_keeps _ b h.2.2.2.2.2.2.2).trans (val7_orig V b h)

/-- The hidden states entering the first, second and third rounds, and the one the readout reads. -/
abbrev hid0 (V : Valuation τ sig (Elt F)) := rEmbed (V (Proc.devRef .tc main_arg0)) (V (Proc.devRef .tc main_arg1)) (V (Proc.devRef .tc main_arg2))
abbrev hid1 (V : Valuation τ sig (Elt F)) := rRound (V (Proc.devRef .tc main_arg3)) (V (Proc.devRef .tc main_arg4)) (hid0 V)
abbrev hid2 (V : Valuation τ sig (Elt F)) := rRound (V (Proc.devRef .tc main_arg5)) (V (Proc.devRef .tc main_arg6)) (hid1 V)
abbrev hid3 (V : Valuation τ sig (Elt F)) := rRound (V (Proc.devRef .tc main_arg7)) (V (Proc.devRef .tc main_arg8)) (hid2 V)

theorem val1_v4 (V : Valuation τ sig (Elt F)) : val1 V (Proc.devRef .tc main_v4) = hid0 V := emb_read V
theorem val2_v4 (V : Valuation τ sig (Elt F)) : val2 V (Proc.devRef .tc main_v4) = hid0 V :=
  (opsAttn0_keeps _ main_v4 (by decide)).trans (val1_v4 V)
theorem val2_v20 (V : Valuation τ sig (Elt F)) : val2 V (Proc.devRef .tc main_v20) = rMsg (rAttn (hid0 V)) (hid0 V) := by
  rw [val2, attn0_msg, val1_v4]
theorem val3_v26 (V : Valuation τ sig (Elt F)) : val3 V (Proc.devRef .tc main_v26) = hid1 V := by
  rw [val3, upd0_read, val2_v4, val2_v20, val2_orig V main_arg3 (by decide), val2_orig V main_arg4 (by decide)]
  rfl
theorem val4_v26 (V : Valuation τ sig (Elt F)) : val4 V (Proc.devRef .tc main_v26) = hid1 V :=
  (opsAttn1_keeps _ main_v26 (by decide)).trans (val3_v26 V)
theorem val4_v41 (V : Valuation τ sig (Elt F)) : val4 V (Proc.devRef .tc main_v41) = rMsg (rAttn (hid1 V)) (hid1 V) := by
  rw [val4, attn1_msg, val3_v26]
theorem val5_v47 (V : Valuation τ sig (Elt F)) : val5 V (Proc.devRef .tc main_v47) = hid2 V := by
  rw [val5, upd1_read, val4_v26, val4_v41, val4_orig V main_arg5 (by decide), val4_orig V main_arg6 (by decide)]
  rfl
theorem val6_v47 (V : Valuation τ sig (Elt F)) : val6 V (Proc.devRef .tc main_v47) = hid2 V :=
  (opsAttn2_keeps _ main_v47 (by decide)).trans (val5_v47 V)
theorem val6_v61 (V : Valuation τ sig (Elt F)) : val6 V (Proc.devRef .tc main_v61) = rAttn (hid2 V) := by
  rw [val6, attn2_adj, val5_v47]
theorem val6_v62 (V : Valuation τ sig (Elt F)) : val6 V (Proc.devRef .tc main_v62) = rMsg (rAttn (hid2 V)) (hid2 V) := by
  rw [val6, attn2_msg, val5_v47]
theorem val7_v68 (V : Valuation τ sig (Elt F)) : val7 V (Proc.devRef .tc main_v68) = hid3 V := by
  rw [val7, upd2_read, val6_v47, val6_v62, val6_orig V main_arg7 (by decide), val6_orig V main_arg8 (by decide)]
  rfl
theorem val7_v61 (V : Valuation τ sig (Elt F)) : val7 V (Proc.devRef .tc main_v61) = rAttn (hid2 V) :=
  (opsUpd2_keeps _ main_v61 (by decide)).trans (val6_v61 V)
theorem val8_v61 (V : Valuation τ sig (Elt F)) : val8 V (Proc.devRef .tc main_v61) = rAttn (hid2 V) :=
  (opsRead_keeps _ main_v61 (by decide)).trans (val7_v61 V)
theorem val8_v78 (V : Valuation τ sig (Elt F)) :
    val8 V (Proc.devRef .tc main_v78)
      = Host.reduceAdd (rLin (V (Proc.devRef .tc main_arg11)) (V (Proc.devRef .tc main_arg12)) (Host.tanh (rLin (V (Proc.devRef .tc main_arg9)) (V (Proc.devRef .tc main_arg10)) (hid3 V))))
          (constant S_ .f32 0x00000000#32) reducesTo_S128x200x256_S128x256_d1 h_S_ := by
  rw [val8, read_read, val7_v68, val7_orig V main_arg9 (by decide), val7_orig V main_arg10 (by decide),
    val7_orig V main_arg11 (by decide), val7_orig V main_arg12 (by decide)]

/-! ## The results and the arguments after all the operations -/

theorem after_ops_out (V : Valuation τ sig (Elt F)) :
    after (ops (F := F)) V (Proc.devRef .tc main_v78) = rOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops_eq, val8_v78]
  rfl

theorem after_ops_adj (V : Valuation τ sig (Elt F)) :
    after (ops (F := F)) V (Proc.devRef .tc main_v61) = rAdj (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops_eq, val8_v61]
  rfl

theorem after_ops_arg0 (V : Valuation τ sig (Elt F)) :
    after (ops (F := F)) V (Proc.devRef .tc main_arg0) = V (Proc.devRef .tc main_arg0) := by
  rw [after_ops_eq]
  exact val8_orig V main_arg0 (by decide)

theorem after_ops_arg1 (V : Valuation τ sig (Elt F)) :
    after (ops (F := F)) V (Proc.devRef .tc main_arg1) = V (Proc.devRef .tc main_arg1) := by
  rw [after_ops_eq]
  exact val8_orig V main_arg1 (by decide)

theorem after_ops_arg2 (V : Valuation τ sig (Elt F)) :
    after (ops (F := F)) V (Proc.devRef .tc main_arg2) = V (Proc.devRef .tc main_arg2) := by
  rw [after_ops_eq]
  exact val8_orig V main_arg2 (by decide)

theorem after_ops_arg3 (V : Valuation τ sig (Elt F)) :
    after (ops (F := F)) V (Proc.devRef .tc main_arg3) = V (Proc.devRef .tc main_arg3) := by
  rw [after_ops_eq]
  exact val8_orig V main_arg3 (by decide)

theorem after_ops_arg4 (V : Valuation τ sig (Elt F)) :
    after (ops (F := F)) V (Proc.devRef .tc main_arg4) = V (Proc.devRef .tc main_arg4) := by
  rw [after_ops_eq]
  exact val8_orig V main_arg4 (by decide)

theorem after_ops_arg5 (V : Valuation τ sig (Elt F)) :
    after (ops (F := F)) V (Proc.devRef .tc main_arg5) = V (Proc.devRef .tc main_arg5) := by
  rw [after_ops_eq]
  exact val8_orig V main_arg5 (by decide)

theorem after_ops_arg6 (V : Valuation τ sig (Elt F)) :
    after (ops (F := F)) V (Proc.devRef .tc main_arg6) = V (Proc.devRef .tc main_arg6) := by
  rw [after_ops_eq]
  exact val8_orig V main_arg6 (by decide)

theorem after_ops_arg7 (V : Valuation τ sig (Elt F)) :
    after (ops (F := F)) V (Proc.devRef .tc main_arg7) = V (Proc.devRef .tc main_arg7) := by
  rw [after_ops_eq]
  exact val8_orig V main_arg7 (by decide)

theorem after_ops_arg8 (V : Valuation τ sig (Elt F)) :
    after (ops (F := F)) V (Proc.devRef .tc main_arg8) = V (Proc.devRef .tc main_arg8) := by
  rw [after_ops_eq]
  exact val8_orig V main_arg8 (by decide)

theorem after_ops_arg9 (V : Valuation τ sig (Elt F)) :
    after (ops (F := F)) V (Proc.devRef .tc main_arg9) = V (Proc.devRef .tc main_arg9) := by
  rw [after_ops_eq]
  exact val8_orig V main_arg9 (by decide)

theorem after_ops_arg10 (V : Valuation τ sig (Elt F)) :
    after (ops (F := F)) V (Proc.devRef .tc main_arg10) = V (Proc.devRef .tc main_arg10) := by
  rw [after_ops_eq]
  exact val8_orig V main_arg10 (by decide)

theorem after_ops_arg11 (V : Valuation τ sig (Elt F)) :
    after (ops (F := F)) V (Proc.devRef .tc main_arg11) = V (Proc.devRef .tc main_arg11) := by
  rw [after_ops_eq]
  exact val8_orig V main_arg11 (by decide)

theorem after_ops_arg12 (V : Valuation τ sig (Elt F)) :
    after (ops (F := F)) V (Proc.devRef .tc main_arg12) = V (Proc.devRef .tc main_arg12) := by
  rw [after_ops_eq]
  exact val8_orig V main_arg12 (by decide)

end Cert.ReferenceIdeal.RefValue

end
-- ==== Proof.RefAttn.lean ====
/-
  The reference's attention stages read at an index.

  Over the batch of 128 jets the reference forms, jet by jet, the scaled products h hᵀ / 16, each row's
  maximum (from -∞, and once more with -∞), the shifted exponentials, their row sums and the quotient; and
  the messages A h.  At jet g, row n, column m these are the shifted softmax of the logits of jet g's
  hidden state, and the sum over m of A[n, m] h[m, d].
-/
import proofs.«167048_g85813446574462_cont_9to1c4b_288_21_alg».proof.Proof.RefStages
import Idealize.ShloMosaic.Lib.ValueIdx
import Idealize.ShloMosaic.Lib.Pipeline.Value
import Idealize.ShloMosaic.Lib.IdealHost
import Idealize.ShloMosaic.Lib.StackMember
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen

open Idealize.ShloMosaic.StackMember

/-! ## The two batched products at an index -/

/-- The product of a stack by the transposes of a stack (batch axes 0 and 0, contracting axes 2 and 2), read at an
    index: the sum over the contracted coordinate of the products of the two members' entries. -/
theorem dotGeneral_stackT_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The messages at an index: the sum over m of A[g, n, m] h[g, m, d]. -/
theorem rMsg_apply (A : FVec Ideal S128x200x200 .f32) (h : FVec Ideal S128x200x256 .f32) (g : Fin 128) (n : Fin 200) (d : Fin 256) :
    rMsg (F := Ideal) A h (ix3 g n d) = Cert.Mpnn.msg (fun n m => A (ix3 g n m)) (fun n d => h (ix3 g n d)) n d := by
  unfold rMsg Cert.Mpnn.msg
  exact dotGeneral_stack_apply (G := 128) (m := 200) (n := 256) (k := 200)
    dot_S128x200x200_S128x200x256_S128x200x256_2_1_1_2_0_0_wf none A h g n d

/-- The constant 1/16 copied to every jet, row and column reads its pattern everywhere. -/
theorem scaleB_apply (j : S128x200x200.Idx) :
    broadcastInDim S128x200x200 ![] bcast_S_S128x200x200 (constant (F := Ideal) S_ .f32 0x3D800000#32) j
      = Ideal.ofBits .f32 0x3D800000#32 := by
  rw [broadcastInDim_scalar_apply]; rfl

/-- The logits at an index: jet g's scaled products. -/
theorem rLogits_apply (h : FVec Ideal S128x200x256 .f32) (g : Fin 128) (n m : Fin 200) :
    rLogits (F := Ideal) h (ix3 g n m) = Cert.Mpnn.logits (fun n d => h (ix3 g n d)) n m := by
  unfold rLogits Cert.Mpnn.logits
  rw [mulf_apply, scaleB_apply]
  congr 1
  exact dotGeneral_stackT_apply (G := 128) (m := 200) (n := 200) (k := 256)
    dot_S128x200x256_S128x200x256_S128x200x200_2_2_1_1_0_0_wf none h h g n m

/-! ## A value per row copied along the row -/

/-- A value per row, copied along the row, reads the row's value. -/
theorem rowB_apply (v : FVec Ideal S128x200 .f32) (g : Fin 128) (n m : Fin 200) :
    rowB (F := Ideal) v (ix3 g n m) = v (ix2 g n) := by
  unfold rowB
  rw [broadcastInDim_apply _ _ _ (ix3 g n m) (ix3 g n (0 : Fin 1)) (fun a => by
        match a with
        | ⟨0, _⟩ => rfl
        | ⟨1, _⟩ => rfl
        | ⟨2, _⟩ => rfl),
    broadcastInDim_apply _ _ _ (ix3 g n (0 : Fin 1)) (ix2 g n) (fun a => by
        match a with
        | ⟨0, _⟩ => rfl
        | ⟨1, _⟩ => rfl)]

/-! ## The row maximum, the shifted exponentials and their row sums -/

/-- The index of row (g, n) with column m inserted on the reduced axis is (g, n, m). -/
theorem lift_row (hr : S128x200x200.Reduces [2] S128x200) (g : Fin 128) (n m : Fin 200) :
    hr.lift (ix2 g n) m = ix3 g n m := by
  funext ax; apply Fin.ext
  match ax with
  | ⟨0, _⟩ => rfl
  | ⟨1, _⟩ => rfl
  | ⟨2, _⟩ => rfl

/-- The row maximum at (g, n): the maximum with -∞ of the fold of max from -∞ over the row. -/
theorem rRowMax_apply (l : FVec Ideal S128x200x200 .f32) (g : Fin 128) (n : Fin 200) :
    rRowMax (F := Ideal) l (ix2 g n)
      = max (Ideal.ofBits .f32 0xFF800000#32)
          ((Finset.univ : Finset (Fin 200)).fold max (Ideal.ofBits .f32 0xFF800000#32) (fun m => l (ix3 g n m))) := by
  unfold rRowMax
  rw [maximumf_apply, broadcastInDim_scalar_apply,
    Host.reduce_eq_fold_single FloatOps.maximumf l _ reducesTo_S128x200x200_S128x200_d2
      (by decide : S128x200x200.Reduces [2] S128x200) h_S_ (ix2 g n)]
  have e : (l ∘ (by decide : S128x200x200.Reduces [2] S128x200).lift (ix2 g n)) = fun m : Fin 200 => l (ix3 g n m) :=
    funext fun m => congrArg l (lift_row _ g n m)
  rw [e]
  rfl

/-- The shifted exponential at an index. -/
theorem rExp_apply (l : FVec Ideal S128x200x200 .f32) (g : Fin 128) (n m : Fin 200) :
    rExp (F := Ideal) l (ix3 g n m) = Ideal.exp (l (ix3 g n m) - rRowMax (F := Ideal) l (ix2 g n)) := by
  unfold rExp
  show FloatOps.hostUnary .exp (subf l (rowB (rRowMax l)) (ix3 g n m)) = _
  rw [Ideal.hostUnary_exp_def, subf_apply, rowB_apply]

/-- The sum along a row from the zero constant, at (g, n): the sum over the columns. -/
theorem rowSum_apply (x : FVec Ideal S128x200x200 .f32) (g : Fin 128) (n : Fin 200) :
    Host.reduceAdd (F := Ideal) x (constant S_ .f32 0x00000000#32) reducesTo_S128x200x200_S128x200_d2 h_S_ (ix2 g n)
      = ∑ m : Fin 200, x (ix3 g n m) := by
  rw [hostReduceAdd_apply,
    Ideal.hostReduceAdd_single _ (by decide : S128x200x200.Reduces [2] S128x200),
    constant_apply, Ideal.ofBits_zero_f32, zero_add]
  exact Finset.sum_congr rfl fun m _ => congrArg x (lift_row _ g n m)

/-- The row maximum of the logits is the row maximum of jet g's logits. -/
theorem rRowMax_logits (h : FVec Ideal S128x200x256 .f32) (g : Fin 128) (n : Fin 200) :
    rRowMax (F := Ideal) (rLogits (F := Ideal) h) (ix2 g n) = Cert.Mpnn.rowMax (fun n d => h (ix3 g n d)) n := by
  rw [rRowMax_apply]
  unfold Cert.Mpnn.rowMax
  simp only [rLogits_apply]

/-- The soft adjacency at an index: the shifted softmax of jet g's logits. -/
theorem rAttn_apply (h : FVec Ideal S128x200x256 .f32) (g : Fin 128) (n m : Fin 200) :
    rAttn (F := Ideal) h (ix3 g n m) = Cert.Mpnn.attnDiv (fun n d => h (ix3 g n d)) n m := by
  unfold rAttn Cert.Mpnn.attnDiv
  rw [hostDivf_apply, rowB_apply, rowSum_apply]
  simp only [rExp_apply, rLogits_apply, rRowMax_logits]

end Cert.ReferenceIdeal.RefValue

end
-- ==== Proof.RefJet.lean ====
/-
  The reference's stages read jet by jet.

  The reference computes the whole batch of 128 jets at once.  Read at the entry (g, n, d) of the batch,
  each of its stages is the corresponding stage of one jet's network applied to jet g alone: a product
  with a weight matrix contracts the feature axis and leaves jet and node alone, a bias is copied to every
  jet and node, the concatenation [h, A h] along the feature axis is the row of 512 entries, and the
  readout's sum runs over the nodes of one jet.  So the two result arrays are, slice by slice, the
  network's results on each jet, in the spelling that subtracts the row maximum and divides.
-/
import proofs.«167048_g85813446574462_cont_9to1c4b_288_21_alg».proof.Proof.RefAttn
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal Cert.ReferenceIdeal.Gen
open scoped BigOperators

/-! ## A product with a weight matrix, read at an entry

The three products of the network that carry no jet axis in the weight (the embedding, a round's update,
a readout layer) contract the last axis of a 128 × 200 × K array with the first axis of a K × 256 matrix:
entry (g, n, d) is Σ_k l[g, n, k] · r[k, d]. -/

/-- The dimension numbers of such a product: contract axis 2 of the left with axis 0 of the right; the left's
    axes 0 and 1, then the right's axis 1, are the result's. -/
abbrev featDot (K : Nat)
    (wf : DotDims.WF (⟨3, ![128, 200, K]⟩ : Shape) ⟨2, ![K, 256]⟩ ⟨3, ![128, 200, 256]⟩ [2] [0] [0, 1] [1] [] []) :
    DotDims (⟨3, ![128, 200, K]⟩ : Shape) ⟨2, ![K, 256]⟩ ⟨3, ![128, 200, 256]⟩ where
  lhsContracting := [2]
  rhsContracting := [0]
  lhsNonContracting := [0, 1]
  rhsNonContracting := [1]
  lhsBatch := []
  rhsBatch := []
  wf := wf

section FeatDot
variable (K : Nat)
  (wf : DotDims.WF (⟨3, ![128, 200, K]⟩ : Shape) ⟨2, ![K, 256]⟩ ⟨3, ![128, 200, 256]⟩ [2] [0] [0, 1] [1] [] [])

/-- The left operand's jet coordinate is the result's. -/
theorem featDot_lhs_0 (i : (⟨3, ![128, 200, 256]⟩ : Shape).Idx) (q : (featDot K wf).contr.Idx) :
    ((featDot K wf).lhsIdx i q 0).val = (i 0).val := by
  unfold DotDims.lhsIdx
  rw [dif_neg (show ¬(0 : Fin (⟨3, ![128, 200, K]⟩ : Shape).rank) ∈ (featDot K wf).lhsBatch from List.not_mem_nil),
    dif_pos (show (0 : Fin (⟨3, ![128, 200, K]⟩ : Shape).rank) ∈ (featDot K wf).lhsNonContracting from List.mem_cons_self)]
  rfl
/-- The left operand's node coordinate is the result's. -/
theorem featDot_lhs_1 (i : (⟨3, ![128, 200, 256]⟩ : Shape).Idx) (q : (featDot K wf).contr.Idx) :
    ((featDot K wf).lhsIdx i q 1).val = (i 1).val := by
  unfold DotDims.lhsIdx
  rw [dif_neg (show ¬(1 : Fin (⟨3, ![128, 200, K]⟩ : Shape).rank) ∈ (featDot K wf).lhsBatch from List.not_mem_nil),
    dif_pos (show (1 : Fin (⟨3, ![128, 200, K]⟩ : Shape).rank) ∈ (featDot K wf).lhsNonContracting from List.mem_cons_of_mem _ List.mem_cons_self)]
  rfl
/-- The left operand's last coordinate is the summation index. -/
theorem featDot_lhs_2 (i : (⟨3, ![128, 200, 256]⟩ : Shape).Idx) (q : (featDot K wf).contr.Idx) :
    ((featDot K wf).lhsIdx i q 2).val = (q ⟨0, Nat.one_pos⟩).val :=
  (featDot K wf).lhsIdx_val_of_single rfl i q
/-- The matrix's row is the summation index. -/
theorem featDot_rhs_0 (i : (⟨3, ![128, 200, 256]⟩ : Shape).Idx) (q : (featDot K wf).contr.Idx) :
    ((featDot K wf).rhsIdx i q 0).val = (q ⟨0, Nat.one_pos⟩).val :=
  (featDot K wf).rhsIdx_val_of_single rfl i q
/-- The matrix's column is the result's last coordinate. -/
theorem featDot_rhs_1 (i : (⟨3, ![128, 200, 256]⟩ : Shape).Idx) (q : (featDot K wf).contr.Idx) :
    ((featDot K wf).rhsIdx i q 1).val = (i 2).val := by
  unfold DotDims.rhsIdx
  rw [dif_neg (show ¬(1 : Fin (⟨2, ![K, 256]⟩ : Shape).rank) ∈ (featDot K wf).rhsBatch from List.not_mem_nil),
    dif_pos (show (1 : Fin (⟨2, ![K, 256]⟩ : Shape).rank) ∈ (featDot K wf).rhsNonContracting from List.mem_cons_self)]
  rfl

/-- The product at entry (g, n, d): Σ_k l[g, n, k] · r[k, d]. -/
theorem featDot_apply (l : FVec Ideal (⟨3, ![128, 200, K]⟩ : Shape) .f32) (r : FVec Ideal (⟨2, ![K, 256]⟩ : Shape) .f32)
    (g : Fin 128) (n : Fin 200) (d : Fin 256) :
    Host.dotGeneral (featDot K wf) none l r (ix3 g n d) = ∑ k : Fin K, l (ix3 g n k) * r (ix2 k d) := by
  simp only [Host.dotGeneral]
  rw [Ideal.dotGeneral_apply, ← Equiv.sum_comp (contrEquiv1 (featDot K wf) K rfl rfl).symm]
  refine Finset.sum_congr rfl fun k _ => ?_
  have hk := contrEquiv1_symm_val (featDot K wf) K rfl rfl k
  have el : (featDot K wf).lhsIdx (ix3 g n d) ((contrEquiv1 (featDot K wf) K rfl rfl).symm k) = ix3 g n k :=
    funext fun a => Fin.ext (by
      match a with
      | ⟨0, _⟩ => exact featDot_lhs_0 K wf _ _
      | ⟨1, _⟩ => exact featDot_lhs_1 K wf _ _
      | ⟨2, _⟩ => exact (featDot_lhs_2 K wf _ _).trans hk)
  have er : (featDot K wf).rhsIdx (ix3 g n d) ((contrEquiv1 (featDot K wf) K rfl rfl).symm k) = ix2 k d :=
    funext fun a => Fin.ext (by
      match a with
      | ⟨0, _⟩ => exact (featDot_rhs_0 K wf _ _).trans hk
      | ⟨1, _⟩ => exact featDot_rhs_1 K wf _ _)
  rw [el, er]

end FeatDot

/-- The embedding's product at an entry. -/
theorem embDot_apply (l : FVec Ideal S128x200x8 .f32) (r : FVec Ideal S8x256 .f32) (g : Fin 128) (n : Fin 200) (d : Fin 256) :
    Host.dotGeneral dot_S128x200x8_S8x256_S128x200x256_2_0_01_1_n_n none l r (ix3 g n d)
      = ∑ k : Fin 8, l (ix3 g n k) * r (ix2 k d) :=
  featDot_apply 8 _ l r g n d

/-- A round's product, over the 512 entries of the concatenated row, at an entry. -/
theorem updDot_apply (l : FVec Ideal S128x200x512 .f32) (r : FVec Ideal S512x256 .f32) (g : Fin 128) (n : Fin 200) (d : Fin 256) :
    Host.dotGeneral dot_S128x200x512_S512x256_S128x200x256_2_0_01_1_n_n none l r (ix3 g n d)
      = ∑ k : Fin 512, l (ix3 g n k) * r (ix2 k d) :=
  featDot_apply 512 _ l r g n d

/-- A readout layer's product at an entry. -/
theorem linDot_apply (l : FVec Ideal S128x200x256 .f32) (r : FVec Ideal S256x256 .f32) (g : Fin 128) (n : Fin 200) (d : Fin 256) :
    Host.dotGeneral dot_S128x200x256_S256x256_S128x200x256_2_0_01_1_n_n none l r (ix3 g n d)
      = ∑ k : Fin 256, l (ix3 g n k) * r (ix2 k d) :=
  featDot_apply 256 _ l r g n d

/-! ## The bias, the concatenation and the node sum at an entry -/

/-- The bias copied to every jet and node reads the bias vector at the feature. -/
theorem biasB_apply (b : FVec Ideal S256 .f32) (g : Fin 128) (n : Fin 200) (d : Fin 256) :
    biasB (F := Ideal) b (ix3 g n d) = b (ix1 d) := by
  unfold biasB
  rw [broadcastInDim_apply ![0, 1, 2] bcast_S1x1x256_S128x200x256_0_1_2 _ (ix3 g n d) (ix3 (0 : Fin 1) (0 : Fin 1) d)
    (fun a => by match a with | ⟨0, _⟩ => rfl | ⟨1, _⟩ => rfl | ⟨2, _⟩ => rfl)]
  exact broadcastInDim_apply ![2] bcast_S256_S1x1x256_2 b (ix3 (0 : Fin 1) (0 : Fin 1) d) (ix1 d)
    (fun a => by match a with | ⟨0, _⟩ => rfl)

/-- The concatenation of two hidden states along the feature axis is, at jet g and node n, the row of 512 entries:
    the first state's 256, then the second's. -/
theorem cat_apply (x y : FVec Ideal S128x200x256 .f32) (g : Fin 128) (n : Fin 200) (k : Fin 512) :
    concatenate S128x200x512 2 [⟨S128x200x256, x⟩, ⟨S128x200x256, y⟩] concatenates_S128x200x256_S128x200x256_S128x200x512_d2 (ix3 g n k)
      = Cert.Mpnn.catRow (fun n d => x (ix3 g n d)) (fun n d => y (ix3 g n d)) n k := by
  unfold Cert.Mpnn.catRow
  by_cases hk : k.val < 256
  · rw [dif_pos hk]
    exact concatenate_pair_apply_left 2 x y _ (ix3 g n k) rfl (ix3 g n ⟨k.val, hk⟩)
      (fun b => by match b with | ⟨0, _⟩ => rfl | ⟨1, _⟩ => rfl | ⟨2, _⟩ => rfl)
  · rw [dif_neg hk]
    exact concatenate_pair_apply_right 2 x y _ (ix3 g n k) rfl rfl (ix3 g n ⟨k.val - 256, by omega⟩)
      (fun b hb => by match b with | ⟨0, _⟩ => rfl | ⟨1, _⟩ => rfl | ⟨2, _⟩ => exact absurd rfl hb)
      (by show k.val - 256 + 256 = k.val; omega)

/-- The sum over the node axis, started from the zero pattern, at jet g and feature d: the sum over the 200 nodes. -/
theorem nodeSum_apply (x : FVec Ideal S128x200x256 .f32) (g : Fin 128) (d : Fin 256) :
    Host.reduceAdd x (constant (F := Ideal) S_ .f32 0x00000000#32) reducesTo_S128x200x256_S128x256_d1 h_S_ (ix2 g d)
      = ∑ n : Fin 200, x (ix3 g n d) := by
  rw [hostReduceAdd_apply, Ideal.hostReduceAdd_single reducesTo_S128x200x256_S128x256_d1 (by decide), constant_apply,
    Ideal.ofBits_zero_f32, zero_add]
  refine Finset.sum_congr rfl fun k _ => ?_
  exact congrArg x (funext fun a => Fin.ext (by match a with | ⟨0, _⟩ => rfl | ⟨1, _⟩ => rfl | ⟨2, _⟩ => rfl))

/-- A readout layer before its nonlinearity, at an entry. -/
theorem rLin_apply (W : FVec Ideal S256x256 .f32) (b : FVec Ideal S256 .f32) (h : FVec Ideal S128x200x256 .f32)
    (g : Fin 128) (n : Fin 200) (d : Fin 256) :
    rLin (F := Ideal) W b h (ix3 g n d) = (∑ k : Fin 256, h (ix3 g n k) * W (ix2 k d)) + b (ix1 d) := by
  unfold rLin
  rw [addf_apply, linDot_apply, biasB_apply]

/-! ## The stages of one jet -/

theorem rEmbed_apply (a0 : FVec Ideal S128x200x8 .f32) (a1 : FVec Ideal S8x256 .f32) (a2 : FVec Ideal S256 .f32)
    (g : Fin 128) (n : Fin 200) (d : Fin 256) :
    rEmbed (F := Ideal) a0 a1 a2 (ix3 g n d)
      = Cert.Mpnn.embed (Cert.Mpnn.jetOf a0 g) (fun f d => a1 (ix2 f d)) (fun d => a2 (ix1 d)) n d := by
  unfold rEmbed
  show Ideal.tanh (addf (Host.dotGeneral dot_S128x200x8_S8x256_S128x200x256_2_0_01_1_n_n none a0 a1) (biasB a2) (ix3 g n d)) = _
  rw [addf_apply, embDot_apply, biasB_apply]
  rfl

/-- Slice g of the embedded batch is the embedding of jet g. -/
theorem rEmbed_slice (a0 : FVec Ideal S128x200x8 .f32) (a1 : FVec Ideal S8x256 .f32) (a2 : FVec Ideal S256 .f32) (g : Fin 128) :
    (fun n d => rEmbed (F := Ideal) a0 a1 a2 (ix3 g n d))
      = Cert.Mpnn.embed (Cert.Mpnn.jetOf a0 g) (fun f d => a1 (ix2 f d)) (fun d => a2 (ix1 d)) :=
  funext fun n => funext fun d => rEmbed_apply a0 a1 a2 g n d

theorem rRound_apply (W : FVec Ideal S512x256 .f32) (b : FVec Ideal S256 .f32) (h : FVec Ideal S128x200x256 .f32)
    (g : Fin 128) (n : Fin 200) (d : Fin 256) :
    rRound (F := Ideal) W b h (ix3 g n d)
      = Cert.Mpnn.roundDiv (fun k d => W (ix2 k d)) (fun d => b (ix1 d)) (fun n d => h (ix3 g n d)) n d := by
  -- slice g of the messages is the messages of slice g, under the soft adjacency of slice g
  have hm : (fun n d => rMsg (F := Ideal) (rAttn h) h (ix3 g n d))
      = Cert.Mpnn.msg (Cert.Mpnn.attnDiv (fun n d => h (ix3 g n d))) (fun n d => h (ix3 g n d)) := by
    funext n d
    rw [rMsg_apply]
    exact congrArg (fun A => Cert.Mpnn.msg A (fun n d => h (ix3 g n d)) n d)
      (funext fun n => funext fun m => rAttn_apply h g n m)
  unfold rRound
  show Ideal.tanh (addf (Host.dotGeneral dot_S128x200x512_S512x256_S128x200x256_2_0_01_1_n_n none _ W) (biasB b) (ix3 g n d)) = _
  rw [addf_apply, updDot_apply, biasB_apply]
  unfold Cert.Mpnn.roundDiv Cert.Mpnn.updCat
  rw [← hm]
  exact congrArg (fun s => Ideal.tanh (s + b (ix1 d))) (Finset.sum_congr rfl fun k _ => by rw [cat_apply])

/-- Slice g of a round over the batch is the round on slice g. -/
theorem rRound_slice (W : FVec Ideal S512x256 .f32) (b : FVec Ideal S256 .f32) (h : FVec Ideal S128x200x256 .f32) (g : Fin 128) :
    (fun n d => rRound (F := Ideal) W b h (ix3 g n d))
      = Cert.Mpnn.roundDiv (fun k d => W (ix2 k d)) (fun d => b (ix1 d)) (fun n d => h (ix3 g n d)) :=
  funext fun n => funext fun d => rRound_apply W b h g n d

/-- Slice g of the hidden states entering the third round is that hidden state of jet g. -/
theorem rHid2_slice (a0 : FVec Ideal S128x200x8 .f32) (a1 : FVec Ideal S8x256 .f32) (a2 : FVec Ideal S256 .f32)
    (a3 : FVec Ideal S512x256 .f32) (a4 : FVec Ideal S256 .f32) (a5 : FVec Ideal S512x256 .f32) (a6 : FVec Ideal S256 .f32)
    (a7 : FVec Ideal S512x256 .f32) (a8 : FVec Ideal S256 .f32) (a9 : FVec Ideal S256x256 .f32) (a10 : FVec Ideal S256 .f32)
    (a11 : FVec Ideal S256x256 .f32) (a12 : FVec Ideal S256 .f32) (g : Fin 128) :
    (fun n d => rHid2 (F := Ideal) a0 a1 a2 a3 a4 a5 a6 (ix3 g n d))
      = Cert.Mpnn.hid2Div (Cert.Mpnn.argParams a1 a2 a3 a4 a5 a6 a7 a8 a9 a10 a11 a12) (Cert.Mpnn.jetOf a0 g) := by
  unfold rHid2
  rw [rRound_slice, rRound_slice, rEmbed_slice]
  rfl

theorem rAdj_eq (a0 : FVec Ideal S128x200x8 .f32) (a1 : FVec Ideal S8x256 .f32) (a2 : FVec Ideal S256 .f32) (a3 : FVec Ideal S512x256 .f32) (a4 : FVec Ideal S256 .f32)
    (a5 : FVec Ideal S512x256 .f32) (a6 : FVec Ideal S256 .f32) (a7 : FVec Ideal S512x256 .f32) (a8 : FVec Ideal S256 .f32)
    (a9 : FVec Ideal S256x256 .f32) (a10 : FVec Ideal S256 .f32) (a11 : FVec Ideal S256x256 .f32) (a12 : FVec Ideal S256 .f32) :
    rAdj (F := Ideal) a0 a1 a2 a3 a4 a5 a6
      = Cert.Mpnn.wholeAdjDiv (Cert.Mpnn.argParams a1 a2 a3 a4 a5 a6 a7 a8 a9 a10 a11 a12) a0 := by
  funext i
  obtain ⟨g, n, m, rfl⟩ : ∃ (g : Fin 128) (n m : Fin 200), i = ix3 g n m := ⟨i 0, i 1, i 2, eq_ix3 i⟩
  unfold rAdj
  rw [rAttn_apply, rHid2_slice a0 a1 a2 a3 a4 a5 a6 a7 a8 a9 a10 a11 a12 g]
  rfl

theorem rOut_eq (a0 : FVec Ideal S128x200x8 .f32) (a1 : FVec Ideal S8x256 .f32) (a2 : FVec Ideal S256 .f32) (a3 : FVec Ideal S512x256 .f32) (a4 : FVec Ideal S256 .f32)
    (a5 : FVec Ideal S512x256 .f32) (a6 : FVec Ideal S256 .f32) (a7 : FVec Ideal S512x256 .f32) (a8 : FVec Ideal S256 .f32)
    (a9 : FVec Ideal S256x256 .f32) (a10 : FVec Ideal S256 .f32) (a11 : FVec Ideal S256x256 .f32) (a12 : FVec Ideal S256 .f32) :
    rOut (F := Ideal) a0 a1 a2 a3 a4 a5 a6 a7 a8 a9 a10 a11 a12
      = Cert.Mpnn.wholeOutDiv (Cert.Mpnn.argParams a1 a2 a3 a4 a5 a6 a7 a8 a9 a10 a11 a12) a0 := by
  funext i
  obtain ⟨g, d, rfl⟩ : ∃ (g : Fin 128) (d : Fin 256), i = ix2 g d := ⟨i 0, i 1, eq_ix2 i⟩
  -- slice g of the third round's result is the third round on jet g's hidden state
  have h3 : (fun n d => rRound (F := Ideal) a7 a8 (rHid2 a0 a1 a2 a3 a4 a5 a6) (ix3 g n d))
      = Cert.Mpnn.roundDiv (fun k d => a7 (ix2 k d)) (fun d => a8 (ix1 d))
          (Cert.Mpnn.hid2Div (Cert.Mpnn.argParams a1 a2 a3 a4 a5 a6 a7 a8 a9 a10 a11 a12) (Cert.Mpnn.jetOf a0 g)) := by
    rw [rRound_slice, rHid2_slice a0 a1 a2 a3 a4 a5 a6 a7 a8 a9 a10 a11 a12 g]
  unfold rOut
  rw [nodeSum_apply]
  show _ = Cert.Mpnn.readSumLast (fun k d => a9 (ix2 k d)) (fun d => a10 (ix1 d)) (fun k d => a11 (ix2 k d)) (fun d => a12 (ix1 d))
    (Cert.Mpnn.roundDiv (fun k d => a7 (ix2 k d)) (fun d => a8 (ix1 d))
      (Cert.Mpnn.hid2Div (Cert.Mpnn.argParams a1 a2 a3 a4 a5 a6 a7 a8 a9 a10 a11 a12) (Cert.Mpnn.jetOf a0 g))) d
  rw [← h3]
  unfold Cert.Mpnn.readSumLast Cert.Mpnn.fc1
  refine Finset.sum_congr rfl fun n _ => ?_
  rw [rLin_apply]
  refine congrArg (· + a12 (ix1 d)) (Finset.sum_congr rfl fun k _ => ?_)
  show Ideal.tanh (rLin (F := Ideal) a9 a10 _ (ix3 g n k)) * _ = _
  rw [rLin_apply]

end Cert.ReferenceIdeal.RefValue

end
-- ==== Proof.RefRun.lean ====
/-
  The reference's two result arrays, read off its run, are the second spelling of the network at its
  arguments.

  The reference is host operations only, so every weakly fair execution of it ends with each buffer at
  what the operations, in order, leave there from the launch contents.  Read stretch by stretch
  (Proof/RefAfter.lean) that is the chain of stages of Proof/RefStages.lean over the argument arrays —
  the embedding, three rounds at three weights, the readout — and those stages read jet by jet
  (Proof/RefJet.lean) are the shifted-softmax, concatenated-weight, sum-last spelling of the network.
-/
import proofs.«167048_g85813446574462_cont_9to1c4b_288_21_alg».proof.Proof.RefFacts
import proofs.«167048_g85813446574462_cont_9to1c4b_288_21_alg».proof.Proof.RefAfter
import proofs.«167048_g85813446574462_cont_9to1c4b_288_21_alg».proof.Proof.RefJet

noncomputable section

namespace Cert.ReferenceIdeal.RefValue

open Idealize.ShloMosaic Idealize.ShloMosaic.TcCoe Idealize.SL.Sem Idealize.ShloMosaic.StableHlo Cert.ReferenceIdeal Cert.ReferenceIdeal.Gen

/-- Every weakly fair execution of the reference ends with the readout array and the adjacency array of
    the network at the argument arrays (second spelling), the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v78) = Cert.Mpnn.wholeOutDiv (Cert.Mpnn.argParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg0))
      ∧ r.2.mem ((c.tc : Thread nD τ).loc main_v61) = Cert.Mpnn.wholeAdjDiv (Cert.Mpnn.argParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run (defs (F := Ideal)) _ _).mono (fun r h c =>
    ⟨(h c main_v78).trans ((after_ops_out (launchContents m c)).trans (rOut_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
     (h c main_v61).trans ((after_ops_adj (launchContents m c)).trans (rAdj_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
     (h c main_arg0).trans (after_ops_arg0 (launchContents m c)),
     (h c main_arg1).trans (after_ops_arg1 (launchContents m c)),
     (h c main_arg2).trans (after_ops_arg2 (launchContents m c)),
     (h c main_arg3).trans (after_ops_arg3 (launchContents m c)),
     (h c main_arg4).trans (after_ops_arg4 (launchContents m c)),
     (h c main_arg5).trans (after_ops_arg5 (launchContents m c)),
     (h c main_arg6).trans (after_ops_arg6 (launchContents m c)),
     (h c main_arg7).trans (after_ops_arg7 (launchContents m c)),
     (h c main_arg8).trans (after_ops_arg8 (launchContents m c)),
     (h c main_arg9).trans (after_ops_arg9 (launchContents m c)),
     (h c main_arg10).trans (after_ops_arg10 (launchContents m c)),
     (h c main_arg11).trans (after_ops_arg11 (launchContents m c)),
     (h c main_arg12).trans (after_ops_arg12 (launchContents m c))⟩)
    (run_after (F := Ideal) m ρ)

end Cert.ReferenceIdeal.RefValue

end
-- ==== Proof.Algebra.lean ====
/-
  The two spellings of one jet of the message-passing network agree when every weight is real.

  The hyperbolic tangent of any extended real is a real, so every hidden state is real-valued whatever
  the input is.  On a real-valued hidden state the logits are real; the shifted softmax by division equals
  the unshifted softmax by reciprocal multiply, since exp (l - M) / Σ exp (l' - M) = exp l · (1 / Σ exp l')
  in the reals with both sums positive; the update over the concatenation equals the update with the weight
  split in its halves (for any arguments, addition in the extended reals being a commutative monoid); and the
  readout with the node sum last equals the readout with the node sum first, by exchanging two finite sums
  of reals.
-/
import proofs.«167048_g85813446574462_cont_9to1c4b_288_21_alg».proof.Proof.Spec
import Mathlib.Data.EReal.Basic
import Mathlib.Data.EReal.Operations
import Mathlib.Analysis.Complex.Exponential
import Mathlib.Data.Finset.Fold
import Mathlib.Algebra.BigOperators.Fin
import Mathlib.Algebra.BigOperators.Field
import Mathlib.Algebra.BigOperators.Ring.Finset
import Mathlib.Algebra.BigOperators.Group.Finset.Sigma
import Mathlib.Algebra.Order.BigOperators.Group.Finset
import Mathlib.Tactic.Choose
import Mathlib.Tactic.FieldSimp
import Mathlib.Tactic.NormNum

noncomputable section

namespace Cert.Mpnn

open Idealize.ShloMosaic

/-! ## Reals inside the extended reals -/

/-- The coercion of a finite sum of reals is the sum of the coercions. -/
@[norm_cast]
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The hyperbolic tangent of any extended real is a real. -/
theorem tanh_real (y : EReal) : ∃ r : ℝ, Ideal.tanh y = r := by
  induction y using EReal.rec with
  | bot => exact ⟨-1, by simp⟩
  | coe r => exact ⟨Real.tanh r, rfl⟩
  | top => exact ⟨1, by simp⟩

/-- A hidden state all of whose entries are reals. -/
def IsReal (h : Hid) : Prop := ∀ n d, ∃ r : ℝ, h n d = r

theorem isReal_embed (x : Fin 200 → Fin 8 → EReal) (W : Fin 8 → Fin 256 → EReal) (b : Fin 256 → EReal) :
    IsReal (embed x W b) := fun _ _ => tanh_real _

theorem isReal_updSplit (W : Fin 512 → Fin 256 → EReal) (b : Fin 256 → EReal) (h ms : Hid) :
    IsReal (updSplit W b h ms) := fun _ _ => tanh_real _

theorem isReal_fc1 (W1 : Fin 256 → Fin 256 → EReal) (b1 : Fin 256 → EReal) (h : Hid) :
    IsReal (fc1 W1 b1 h) := fun _ _ => tanh_real _

/-! ## The four patterns -/

theorem onePat_eq : onePat = 1 := by
  simp [Ideal.ofBits, Ideal.ieee, -EReal.coe_mul]; norm_num

theorem negInfPat_eq : negInfPat = ⊥ := by
  simp [Ideal.ofBits, Ideal.ieee]

theorem nodesPat_eq : nodesPat = ((200 : ℝ) : EReal) := by
  simp [Ideal.ofBits, Ideal.ieee, -EReal.coe_mul]; norm_num

theorem scalePat_real : ∃ c : ℝ, scalePat = c := by
  refine ⟨1 / 16, ?_⟩
  simp [Ideal.ofBits, Ideal.ieee, -EReal.coe_mul]; norm_num

/-! ## The logits and the two softmaxes on a real-valued hidden state -/

/-- The logits of a real-valued hidden state are reals. -/
theorem logits_real {h : Hid} (hh : IsReal h) : ∃ l : Fin 200 → Fin 200 → ℝ, ∀ n m, logits h n m = l n m := by
  choose r hr using hh
  obtain ⟨c, hc⟩ := scalePat_real
  refine ⟨fun n m => (∑ d : Fin 256, r n d * r m d) * c, fun n m => ?_⟩
  unfold logits
  rw [hc]
  simp only [hr]
  push_cast
  rfl

/-- The fold of max from -∞ over a nonempty set of reals is a real. -/
theorem fold_max_real {ι : Type*} (f : ι → ℝ) {s : Finset ι} (hs : s.Nonempty) :
    ∃ M : ℝ, s.fold max (⊥ : EReal) (fun i => (f i : EReal)) = M := by
  induction hs using Finset.Nonempty.cons_induction with
  | singleton a => exact ⟨f a, by simp⟩
  | cons a s ha hs ih =>
    obtain ⟨M, hM⟩ := ih
    refine ⟨max (f a) M, ?_⟩
    rw [Finset.fold_cons, hM]
    exact (EReal.coe_strictMono.monotone.map_max).symm

/-- The row maximum of real logits is a real. -/
theorem rowMax_real {h : Hid} (hh : IsReal h) (n : Fin 200) : ∃ M : ℝ, rowMax h n = M := by
  obtain ⟨l, hl⟩ := logits_real hh
  obtain ⟨M, hM⟩ := fold_max_real (fun m => l n m) (Finset.univ_nonempty (α := Fin 200))
  refine ⟨M, ?_⟩
  unfold rowMax
  rw [negInfPat_eq]
  simp only [hl]
  rw [hM]
  exact max_eq_right bot_le

/-- On a real-valued hidden state the shifted softmax by division is the unshifted softmax by reciprocal
    multiply: exp (l - M) / Σ exp (l' - M) = exp l · (1 / Σ exp l'). -/
theorem attn_eq {h : Hid} (hh : IsReal h) : attnDiv h = attnMul h := by
  obtain ⟨l, hl⟩ := logits_real hh
  funext n m
  obtain ⟨M, hM⟩ := rowMax_real hh n
  unfold attnDiv attnMul
  rw [hM, onePat_eq]
  simp only [hl]
  have hpos : 0 < ∑ m' : Fin 200, Real.exp (l n m') := Finset.sum_pos (fun _ _ => Real.exp_pos _) Finset.univ_nonempty
  have hpos' : 0 < ∑ m' : Fin 200, Real.exp (l n m' - M) := Finset.sum_pos (fun _ _ => Real.exp_pos _) Finset.univ_nonempty
  have e1 : (∑ m' : Fin 200, Ideal.exp ((l n m' : EReal) - (M : EReal))) = ((∑ m' : Fin 200, Real.exp (l n m' - M) : ℝ) : EReal) := by
    rw [coe_sum]; rfl
  have e2 : (∑ m' : Fin 200, Ideal.exp ((l n m' : EReal))) = ((∑ m' : Fin 200, Real.exp (l n m') : ℝ) : EReal) := by
    rw [coe_sum]; rfl
  rw [e1, e2, Ideal.div_coe hpos'.ne', Ideal.div_coe hpos.ne', one_mul]
  rw [← EReal.coe_sub, Ideal.exp_coe, Ideal.exp_coe, ← EReal.coe_mul, ← EReal.coe_mul, EReal.coe_eq_coe_iff]
  simp only [Real.exp_sub, ← Finset.sum_div]
  field_simp

/-! ## The concatenated update is the split update -/

/-- A sum over 512 indices is the sum over the first 256 plus the sum over the last 256. -/
theorem sum_512_split (f : Fin 512 → EReal) :
    ∑ k : Fin 512, f k = (∑ k : Fin 256, f ⟨k.val, by omega⟩) + ∑ k : Fin 256, f ⟨256 + k.val, by omega⟩ :=
  Fin.sum_univ_add (a := 256) (b := 256) f

/-- The first 256 entries of a row of the concatenation are the row of h. -/
theorem catRow_lo (h ms : Hid) (n : Fin 200) (k : Fin 256) : catRow h ms n ⟨k.val, by omega⟩ = h n k := by
  unfold catRow
  rw [dif_pos (show (⟨k.val, by omega⟩ : Fin 512).val < 256 from k.isLt)]

/-- The last 256 entries of a row of the concatenation are the row of ms. -/
theorem catRow_hi (h ms : Hid) (n : Fin 200) (k : Fin 256) : catRow h ms n ⟨256 + k.val, by omega⟩ = ms n k := by
  unfold catRow
  rw [dif_neg (show ¬ (⟨256 + k.val, by omega⟩ : Fin 512).val < 256 from by simp)]
  congr 1
  exact Fin.ext (by simp)

/-- The update over the concatenation [h, ms] with the whole weight is the update with the weight split
    in its halves, for any arguments. -/
theorem updCat_eq (W : Fin 512 → Fin 256 → EReal) (b : Fin 256 → EReal) (h ms : Hid) :
    updCat W b h ms = updSplit W b h ms := by
  funext n d
  unfold updCat updSplit
  rw [sum_512_split]
  simp only [catRow_lo, catRow_hi]

/-! ## The readout: node sum last is node sum first -/

theorem read_eq (W1 : Fin 256 → Fin 256 → EReal) (b1 : Fin 256 → EReal) (W2 : Fin 256 → Fin 256 → EReal)
    (b2 : Fin 256 → EReal) (hW2 : ∀ k d, ∃ r : ℝ, W2 k d = r) (hb2 : ∀ d, ∃ r : ℝ, b2 d = r) (h : Hid) :
    readSumLast W1 b1 W2 b2 h = readSumFirst W1 b1 W2 b2 h := by
  choose t ht using isReal_fc1 W1 b1 h
  choose w hw using hW2
  choose b hb using hb2
  funext d
  unfold readSumLast readSumFirst
  rw [nodesPat_eq]
  simp only [ht, hw, hb]
  have e1 : (∑ n : Fin 200, ((∑ k : Fin 256, (t n k : EReal) * (w k d : EReal)) + (b d : EReal)))
      = ((∑ n : Fin 200, ((∑ k : Fin 256, t n k * w k d) + b d) : ℝ) : EReal) := by
    push_cast; rfl
  have e2 : (∑ k : Fin 256, (∑ n : Fin 200, (t n k : EReal)) * (w k d : EReal)) + ((200 : ℝ) : EReal) * (b d : EReal)
      = (((∑ k : Fin 256, (∑ n : Fin 200, t n k) * w k d) + 200 * b d : ℝ) : EReal) := by
    push_cast; rfl
  rw [e1, e2, EReal.coe_eq_coe_iff]
  rw [Finset.sum_add_distrib, Finset.sum_comm]
  simp only [Finset.sum_mul, Finset.sum_const, Finset.card_univ, Fintype.card_fin, nsmul_eq_mul]
  norm_num

/-! ## One jet -/

theorem round_eq (W : Fin 512 → Fin 256 → EReal) (b : Fin 256 → EReal) {h : Hid} (hh : IsReal h) :
    roundDiv W b h = roundMul W b h := by
  unfold roundDiv roundMul
  rw [updCat_eq, attn_eq hh]

theorem isReal_roundMul (W : Fin 512 → Fin 256 → EReal) (b : Fin 256 → EReal) (h : Hid) :
    IsReal (roundMul W b h) := isReal_updSplit _ _ _ _

theorem hid2_eq (P : Params) (x : Fin 200 → Fin 8 → EReal) : hid2Div P x = hid2Mul P x := by
  unfold hid2Div hid2Mul
  rw [round_eq P.W0 P.b0 (isReal_embed _ _ _), round_eq P.W1 P.b1 (isReal_roundMul _ _ _)]

theorem isReal_hid2Mul (P : Params) (x : Fin 200 → Fin 8 → EReal) : IsReal (hid2Mul P x) :=
  isReal_roundMul _ _ _

theorem jetAdj_eq (P : Params) (hP : P.Real) (x : Fin 200 → Fin 8 → EReal) :
    jetAdjDiv P x = jetAdjMul P x := by
  unfold jetAdjDiv jetAdjMul
  rw [hid2_eq, attn_eq (isReal_hid2Mul P x)]

theorem jetOut_eq (P : Params) (hP : P.Real) (x : Fin 200 → Fin 8 → EReal) :
    jetOutDiv P x = jetOutMul P x := by
  unfold jetOutDiv jetOutMul
  rw [hid2_eq, round_eq P.W2 P.b2 (isReal_hid2Mul P x), read_eq _ _ _ _ hP.Wr2 hP.br2]

end Cert.Mpnn

end
-- ==== Proof.Whole.lean ====
/-
  The two spellings of the whole result arrays agree when every weight is a real number: each row of the
  readout, and each slice of the adjacency, is one jet's, and the two spellings of a jet agree.
-/
import proofs.«167048_g85813446574462_cont_9to1c4b_288_21_alg».proof.Proof.Algebra
import proofs.«167048_g85813446574462_cont_9to1c4b_288_21_alg».proof.Proof.SpecArrays

noncomputable section

namespace Cert.Mpnn

open Idealize.ShloMosaic

/-- The readout array: summing the nodes last or first gives the same 128 × 256 numbers. -/
theorem wholeOut_eq (P : Params) (hP : P.Real) (a0 : SJets.Idx → EReal) : wholeOutDiv P a0 = wholeOutMul P a0 :=
  funext fun i => congrFun (jetOut_eq P hP (jetOf a0 (i 0))) (i 1)

/-- The adjacency array: the shifted softmax and the reciprocal multiply give the same 128 × 200 × 200 numbers. -/
theorem wholeAdj_eq (P : Params) (hP : P.Real) (a0 : SJets.Idx → EReal) : wholeAdjDiv P a0 = wholeAdjMul P a0 :=
  funext fun i => congrFun (congrFun (jetAdj_eq P hP (jetOf a0 (i 0))) (i 1)) (i 2)

end Cert.Mpnn

end
-- ==== Proof.FiniteArgs.lean ====
/-
  Finite weights are real weights.

  The finiteness predicate takes, for each of the thirteen argument arrays, the absolute value of every
  entry, compares it strictly below +∞, and takes the conjunction over the whole array; the thirteen
  conjunctions are then and-ed together.  When the predicate is 1, every entry x of every array has
  max x (-x) < ⊤ in the extended reals, which leaves only a real number for x: ⊤ gives max ⊤ ⊥ = ⊤ and
  ⊥ gives max ⊥ ⊤ = ⊤.  Read at the twelve weight arrays, that is the statement that every weight of
  the network is real.
-/
import proofs.«167048_g85813446574462_cont_9to1c4b_288_21_alg».proof.Pre_finite_inputs
import proofs.«167048_g85813446574462_cont_9to1c4b_288_21_alg».proof.Proof.SpecArrays
import Idealize.ShloMosaic.Lib.ReduceAll
import Idealize.ShloMosaic.Lib.ValueIdx
import Idealize.ShloMosaic.PureOps.Ideal

noncomputable section

namespace Cert.FiniteArgs

open Idealize.ShloMosaic Idealize.ShloMosaic.ValueIdx

/-- A rank-0 shape has one index. -/
instance subsingleton_scalarIdx : Subsingleton Cert.Pre_finite_inputs.S_.Idx :=
  ⟨fun a b => funext fun d => d.elim0⟩

/-- The pattern 0x7F800000 is +∞. -/
theorem ofBits_posInf : Ideal.ofBits .f32 0x7F800000#32 = (⊤ : EReal) := by
  simp [Ideal.ofBits, Ideal.ieee]

/-- An extended real whose absolute value max x (-x) lies strictly below +∞ is a real number:
    at ⊤ and at ⊥ the absolute value is ⊤. -/
theorem real_of_abs_lt_posInf (x : EReal)
    (h : Ideal.cmp .olt (max x (-x)) (Ideal.ofBits .f32 0x7F800000#32) = 1#1) : ∃ r : ℝ, x = r := by
  rw [ofBits_posInf] at h
  induction x using EReal.rec with
  | bot => simp [Ideal.cmp] at h
  | coe r => exact ⟨r, rfl⟩
  | top => simp [Ideal.cmp] at h

/-- One array: when the conjunction over the whole array of |x i| < +∞ is 1, every entry is real. -/
theorem array_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant Cert.Pre_finite_inputs.S_ .f32 0x7F800000#32)))
          (constantI Cert.Pre_finite_inputs.S_ 1 1#1) hr hu ix0 = 1#1)
    (i : s.Idx) : ∃ r : ℝ, x i = r :=
  real_of_abs_lt_posInf (x i) (Host.reduce_andi_all _ _ hr hu ix0 e i)

/-- When the finiteness predicate of the thirteen arguments is 1, every weight is a real number. -/
theorem params_real [Cert.Pre_finite_inputs.Facts]
    (a0 : FVec Ideal Cert.Pre_finite_inputs.S128x200x8 .f32) (a1 : FVec Ideal Cert.Pre_finite_inputs.S8x256 .f32) (a2 : FVec Ideal Cert.Pre_finite_inputs.S256 .f32)
    (a3 : FVec Ideal Cert.Pre_finite_inputs.S512x256 .f32) (a4 : FVec Ideal Cert.Pre_finite_inputs.S256 .f32) (a5 : FVec Ideal Cert.Pre_finite_inputs.S512x256 .f32) (a6 : FVec Ideal Cert.Pre_finite_inputs.S256 .f32)
    (a7 : FVec Ideal Cert.Pre_finite_inputs.S512x256 .f32) (a8 : FVec Ideal Cert.Pre_finite_inputs.S256 .f32) (a9 : FVec Ideal Cert.Pre_finite_inputs.S256x256 .f32) (a10 : FVec Ideal Cert.Pre_finite_inputs.S256 .f32)
    (a11 : FVec Ideal Cert.Pre_finite_inputs.S256x256 .f32) (a12 : FVec Ideal Cert.Pre_finite_inputs.S256 .f32)
    (h : Cert.Pre_finite_inputs.fn (F := Ideal) a0 a1 a2 a3 a4 a5 a6 a7 a8 a9 a10 a11 a12 = (fun _ => 1#1)) :
    (Cert.Mpnn.argParams a1 a2 a3 a4 a5 a6 a7 a8 a9 a10 a11 a12).Real := by
  -- the predicate's one entry, with the thirteen conjunctions in view
  have h0 := congrFun h ix0
  dsimp only [Cert.Pre_finite_inputs.fn, Cert.Pre_finite_inputs.fn_part1, Cert.Pre_finite_inputs.fn_part2,
    Cert.Pre_finite_inputs.fn_part3, Idealize.ShloMosaic.andi] at h0
  -- an and of two bits is 1 exactly when both are: the chain nests to the left, the jets innermost
  simp only [IntOp.andi_eq_one] at h0
  obtain ⟨⟨⟨⟨⟨⟨⟨⟨⟨⟨⟨⟨_, h1⟩, h2⟩, h3⟩, h4⟩, h5⟩, h6⟩, h7⟩, h8⟩, h9⟩, h10⟩, h11⟩, h12⟩ := h0
  exact
    { Wemb := fun f d => array_real a1 _ _ _ h1 (ix2 f d)
      bemb := fun d => array_real a2 _ _ _ h2 (ix1 d)
      W0 := fun k d => array_real a3 _ _ _ h3 (ix2 k d)
      b0 := fun d => array_real a4 _ _ _ h4 (ix1 d)
      W1 := fun k d => array_real a5 _ _ _ h5 (ix2 k d)
      b1 := fun d => array_real a6 _ _ _ h6 (ix1 d)
      W2 := fun k d => array_real a7 _ _ _ h7 (ix2 k d)
      b2 := fun d => array_real a8 _ _ _ h8 (ix1 d)
      Wr1 := fun k d => array_real a9 _ _ _ h9 (ix2 k d)
      br1 := fun d => array_real a10 _ _ _ h10 (ix1 d)
      Wr2 := fun k d => array_real a11 _ _ _ h11 (ix2 k d)
      br2 := fun d => array_real a12 _ _ _ h12 (ix1 d) }

end Cert.FiniteArgs

end
-- ==== Proof.lean ====
/-
  The certificate of the message-passing network kernel against its jnp reference.

  The kernel handles 32 jets per grid point, each by the same chain: an embedding, three rounds of soft
  adjacency and vertex update, a readout.  Read over the extended reals it differs from the reference in
  three places only.  It normalises the exponentials of the attention logits by multiplying with the
  reciprocal of their row sum and never subtracts the row maximum, where the reference's softmax shifts by
  the row maximum and divides: the hidden states are values of tanh, hence real, so the logits are real,
  the shift cancels and the quotient is the product with the reciprocal.  It multiplies the two halves of
  the 512-row update weight separately, where the reference multiplies the concatenation [h, A h]: a sum
  over 512 terms split in two.  It sums the readout's first layer over the 200 nodes before the second
  layer and adds 200 times the bias, where the reference sums last: linearity, which needs the second
  layer's weights and bias to be real — the one use of the precondition that every input is finite.

  The three frames are the generated ones (the reference's is its run with the results dropped); the ideal
  pass rewrote nothing, so the kernel is its own idealization.  For the value claim each program's two
  result arrays are read as one function of the argument arrays (Proof/KernelRun.lean over the generated
  frame run, Proof/RefRun.lean over the reference's host operations read back stretch by stretch), in the two spellings of
  Proof/Spec.lean, which Proof/Algebra.lean shows equal.
-/
import proofs.«167048_g85813446574462_cont_9to1c4b_288_21_alg».proof.Defs
import proofs.«167048_g85813446574462_cont_9to1c4b_288_21_alg».proof.Proof.Gen.Kernel
import proofs.«167048_g85813446574462_cont_9to1c4b_288_21_alg».proof.Proof.Gen.Kernel.Skeleton
import proofs.«167048_g85813446574462_cont_9to1c4b_288_21_alg».proof.Proof.Gen.Kernel.Launch
import proofs.«167048_g85813446574462_cont_9to1c4b_288_21_alg».proof.Proof.Gen.Kernel.Points
import proofs.«167048_g85813446574462_cont_9to1c4b_288_21_alg».proof.Proof.Gen.Kernel.Frame
import proofs.«167048_g85813446574462_cont_9to1c4b_288_21_alg».proof.Proof.Gen.KernelIdeal
import proofs.«167048_g85813446574462_cont_9to1c4b_288_21_alg».proof.Proof.Gen.KernelIdeal.Skeleton
import proofs.«167048_g85813446574462_cont_9to1c4b_288_21_alg».proof.Proof.Gen.KernelIdeal.Launch
import proofs.«167048_g85813446574462_cont_9to1c4b_288_21_alg».proof.Proof.Gen.KernelIdeal.Points
import proofs.«167048_g85813446574462_cont_9to1c4b_288_21_alg».proof.Proof.Gen.KernelIdeal.Frame
import proofs.«167048_g85813446574462_cont_9to1c4b_288_21_alg».proof.Proof.Gen.ReferenceIdeal
import proofs.«167048_g85813446574462_cont_9to1c4b_288_21_alg».proof.Proof.Gen.Pre_finite_inputs
import proofs.«167048_g85813446574462_cont_9to1c4b_288_21_alg».proof.Proof.KernelRun
import proofs.«167048_g85813446574462_cont_9to1c4b_288_21_alg».proof.Proof.RefRun
import proofs.«167048_g85813446574462_cont_9to1c4b_288_21_alg».proof.Proof.Whole
import proofs.«167048_g85813446574462_cont_9to1c4b_288_21_alg».proof.Proof.FiniteArgs
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- The kernel read over the extended reals runs and keeps its arguments: the generated frame. -/
theorem frame_kernelIdeal : Cert.frame_KernelIdeal := fun m ρ _ => Cert.KernelIdeal.Gen.frame m ρ

/-- The reference runs and keeps its arguments: its run, the results dropped. -/
theorem frame_referenceIdeal : Cert.frame_ReferenceIdeal := fun m ρ _ =>
  (θ_run Cert.ReferenceIdeal.defs _ _).mono (fun _ h c => (h c).2.2) (Cert.ReferenceIdeal.RefValue.run m ρ)

/-- Run from memories that agree on the thirteen arguments, of which the kernel's are finite, the two
    programs end with the same readout array and the same adjacency array: the kernel's are the first
    spelling of the network at its arguments, the reference's the second spelling at its own, which are
    the kernel's, and the spellings agree because the weights are real. -/
theorem algebraic : Cert.algebraic_KernelIdeal_ReferenceIdeal := by
  intro m ρ m' ρ' hpre hagree
  refine ⟨fun c => Cert.Mpnn.wholeOutMul (Cert.Mpnn.argParams (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (m ((c.tc : Thread Cert.KernelIdeal.nD Cert.KernelIdeal.τ).loc Cert.KernelIdeal.main_arg0)),
    fun c => Cert.Mpnn.wholeAdjMul (Cert.Mpnn.argParams (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (m ((c.tc : Thread Cert.KernelIdeal.nD Cert.KernelIdeal.τ).loc Cert.KernelIdeal.main_arg0)),
    Cert.KernelIdeal.RunValue.run m ρ, ?_⟩
  refine (θ_run Cert.ReferenceIdeal.defs _ _).mono (fun r h c => ?_) (Cert.ReferenceIdeal.RefValue.run m' ρ')
  obtain ⟨e0, e1, e2, e3, e4, e5, e6, e7, e8, e9, e10, e11, e12⟩ := hagree c
  have hP := Cert.FiniteArgs.params_real _ _ _ _ _ _ _ _ _ _ _ _ _ (hpre c)
  refine ⟨?_, ?_, (h c).2.2⟩
  · rw [(h c).1, e0, e1, e2, e3, e4, e5, e6, e7, e8, e9, e10, e11, e12]
    exact Cert.Mpnn.wholeOut_eq _ hP _
  · rw [(h c).2.1, e0, e1, e2, e3, e4, e5, e6, e7, e8, e9, e10, e11, e12]
    exact Cert.Mpnn.wholeAdj_eq _ hP _

/-- The claim: the three frames, the (empty) idealization ledger, and the equality of results. -/
theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
